-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S4x16384x512 : Shape := ⟨3, ![4, 16384, 512]⟩
abbrev S4x1x512 : Shape := ⟨3, ![4, 1, 512]⟩
abbrev S4x512x512 : Shape := ⟨3, ![4, 512, 512]⟩
abbrev S1x2048x512 : Shape := ⟨3, ![1, 2048, 512]⟩
abbrev S1x1x512 : Shape := ⟨3, ![1, 1, 512]⟩
abbrev S1x512x512 : Shape := ⟨3, ![1, 512, 512]⟩
abbrev S1x512 : Shape := ⟨2, ![1, 512]⟩
abbrev S512x512 : Shape := ⟨2, ![512, 512]⟩
abbrev S2048x512 : Shape := ⟨2, ![2048, 512]⟩
abbrev S512 : Shape := ⟨1, ![512]⟩
abbrev S_ : Shape := ⟨0, ![]⟩
abbrev S4x512 : Shape := ⟨2, ![4, 512]⟩
abbrev S4x512x1 : Shape := ⟨3, ![4, 512, 1]⟩
abbrev S4 : Shape := ⟨1, ![4]⟩
abbrev S4x1x1 : Shape := ⟨3, ![4, 1, 1]⟩

abbrev nBuf : Space → Nat
  | .hbm => 94
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S4x16384x512, .f32⟩
  | .hbm, ⟨2, _⟩ => ⟨S4x1x512, .f32⟩
  | .hbm, ⟨3, _⟩ => ⟨S4x512x512, .f32⟩
  | .hbm, ⟨4, _⟩ => ⟨S_, .f32⟩
  | .hbm, ⟨5, _⟩ => ⟨S4x1x512, .f32⟩
  | .hbm, ⟨6, _⟩ => ⟨S4x1x512, .f32⟩
  | .hbm, ⟨7, _⟩ => ⟨S4x512, .f32⟩
  | .hbm, ⟨8, _⟩ => ⟨S4x512x1, .f32⟩
  | .hbm, ⟨9, _⟩ => ⟨S4x1x512, .f32⟩
  | .hbm, ⟨10, _⟩ => ⟨S4x512x512, .f32⟩
  | .hbm, ⟨11, _⟩ => ⟨S4x512x512, .f32⟩
  | .hbm, ⟨12, _⟩ => ⟨S4x512x512, .f32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S1x512x512, .f32⟩
  | .hbm, ⟨21, _⟩ => ⟨S_, .f32⟩
  | .hbm, ⟨22, _⟩ => ⟨S4x512x512, .f32⟩
  | .hbm, ⟨23, _⟩ => ⟨S4x512x512, .f32⟩
  | .hbm, ⟨24, _⟩ => ⟨S4x512x512, .f32⟩
  | .hbm, ⟨25, _⟩ => ⟨S_, .f32⟩
  | .hbm, ⟨26, _⟩ => ⟨S1x512x512, .f32⟩
  | .hbm, ⟨27, _⟩ => ⟨S1x512x512, .f32⟩
  | .hbm, ⟨28, _⟩ => ⟨S4x512x512, .f32⟩
  | .hbm, ⟨29, _⟩ => ⟨S4x512x512, .f32⟩
  | .hbm, ⟨30, _⟩ => ⟨S4x512x512, .f32⟩
  | .hbm, ⟨31, _⟩ => ⟨S_, .f32⟩
  | .hbm, ⟨32, _⟩ => ⟨S4, .f32⟩
  | .hbm, ⟨33, _⟩ => ⟨S4x1x1, .f32⟩
  | .hbm, ⟨34, _⟩ => ⟨S4x1x1, .f32⟩
  | .hbm, ⟨35, _⟩ => ⟨S4x512x512, .f32⟩
  | .hbm, ⟨36, _⟩ => ⟨S4x512x512, .f32⟩
  | .hbm, ⟨37, _⟩ => ⟨S4x512x512, .f32⟩
  | .hbm, ⟨38, _⟩ => ⟨S4x512x512, .f32⟩
  | .hbm, ⟨39, _⟩ => ⟨S4x512x512, .f32⟩
  | .hbm, ⟨40, _⟩ => ⟨S_, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S_, .f32⟩
  | .hbm, ⟨45, _⟩ => ⟨S4x512x512, .f32⟩
  | .hbm, ⟨46, _⟩ => ⟨S4x512x512, .f32⟩
  | .hbm, ⟨47, _⟩ => ⟨S4x512x512, .f32⟩
  | .hbm, ⟨48, _⟩ => ⟨S4x512x512, .f32⟩
  | .hbm, ⟨49, _⟩ => ⟨S4x512x512, .f32⟩
  | .hbm, ⟨50, _⟩ => ⟨S_, .f32⟩
  | .hbm, ⟨51, _⟩ => ⟨S4x512x512, .f32⟩
  | .hbm, ⟨52, _⟩ => ⟨S4x512x512, .f32⟩
  | .hbm, ⟨53, _⟩ => ⟨S4x512x512, .f32⟩
  | .hbm, ⟨54, _⟩ => ⟨S_, .f32⟩
  | .hbm, ⟨55, _⟩ => ⟨S4x512x512, .f32⟩
  | .hbm, ⟨56, _⟩ => ⟨S4x512x512, .f32⟩
  | .hbm, ⟨57, _⟩ => ⟨S4x512x512, .f32⟩
  | .hbm, ⟨58, _⟩ => ⟨S4x512x512, .f32⟩
  | .hbm, ⟨59, _⟩ => ⟨S4x512x512, .f32⟩
  | .hbm, ⟨60, _⟩ => ⟨S_, .f32⟩
  | .hbm, ⟨61, _⟩ => ⟨S4x512x512, .f32⟩
  | .hbm, ⟨62, _⟩ => ⟨S4x512x512, .f32⟩
  | .hbm, ⟨63, _⟩ => ⟨S4x512x512, .f32⟩
  | .hbm, ⟨64, _⟩ => ⟨S_, .f32⟩
  | .hbm, ⟨65, _⟩ => ⟨S4x512x512, .f32⟩
  | .hbm, ⟨66, _⟩ => ⟨S4x512x512, .f32⟩
  | .hbm, ⟨67, _⟩ => ⟨S4x512x512, .f32⟩
  | .hbm, ⟨68, _⟩ => ⟨S4x512x512, .f32⟩
  | .hbm, ⟨69, _⟩ => ⟨S4x512x512, .f32⟩
  | .hbm, ⟨70, _⟩ => ⟨S_, .f32⟩
  | .hbm, ⟨71, _⟩ => ⟨S4x512x512, .f32⟩
  | .hbm, ⟨72, _⟩ => ⟨S4x512x512, .f32⟩
  | .hbm, ⟨73, _⟩ => ⟨S4x512x512, .f32⟩
  | .hbm, ⟨74, _⟩ => ⟨S_, .f32⟩
  | .hbm, ⟨75, _⟩ => ⟨S4x512x512, .f32⟩
  | .hbm, ⟨76, _⟩ => ⟨S4x512x512, .f32⟩
  | .hbm, ⟨77, _⟩ => ⟨S4x512x512, .f32⟩
  | .hbm, ⟨78, _⟩ => ⟨S4x512x512, .f32⟩
  | .hbm, ⟨79, _⟩ => ⟨S4x512x512, .f32⟩
  | .hbm, ⟨80, _⟩ => ⟨S_, .f32⟩
  | .hbm, ⟨81, _⟩ => ⟨S4x512x512, .f32⟩
  | .hbm, ⟨82, _⟩ => ⟨S4x512x512, .f32⟩
  | .hbm, ⟨83, _⟩ => ⟨S4x512x512, .f32⟩
  | .hbm, ⟨84, _⟩ => ⟨S_, .f32⟩
  | .hbm, ⟨85, _⟩ => ⟨S4x512x512, .f32⟩
  | .hbm, ⟨86, _⟩ => ⟨S4x512x512, .f32⟩
  | .hbm, ⟨87, _⟩ => ⟨S4x512x512, .f32⟩
  | .hbm, ⟨88, _⟩ => ⟨S4x512x512, .f32⟩
  | .hbm, ⟨89, _⟩ => ⟨S4x1x1, .f32⟩
  | .hbm, ⟨90, _⟩ => ⟨S4x512x512, .f32⟩
  | .hbm, ⟨91, _⟩ => ⟨S4x512x512, .f32⟩
  | .hbm, ⟨92, _⟩ => ⟨S4x16384x512, .f32⟩
  | .hbm, ⟨93, _⟩ => ⟨S16384x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S512x512, .f32⟩
  | .local _ .vmem, ⟨8, _⟩ => ⟨S1x2048x512, .f32⟩
  | .local _ .vmem, ⟨9, _⟩ => ⟨S1x2048x512, .f32⟩
  | .local _ .vmem, ⟨10, _⟩ => ⟨S1x1x512, .f32⟩
  | .local _ .vmem, ⟨11, _⟩ => ⟨S1x1x512, .f32⟩
  | .local _ .vmem, ⟨12, _⟩ => ⟨S1x512x512, .f32⟩
  | .local _ .vmem, ⟨13, _⟩ => ⟨S1x512x512, .f32⟩
  | .local _ .vmem, ⟨14, _⟩ => ⟨S1x2048x512, .f32⟩
  | .local _ .vmem, ⟨15, _⟩ => ⟨S1x2048x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16384x2048_S4x16384x512 : S16384x2048.ShapeCasts S4x16384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S512 : S2048x512.Reduces [0] S512
  shapeCasts_S512_S1x512 : S512.ShapeCasts S1x512
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  bcast_S_S4x1x512 : S_.BroadcastsInDim S4x1x512 (![] : Fin 0 → Fin S4x1x512.rank)
  shapeCasts_S4x1x512_S4x512 : S4x1x512.ShapeCasts S4x512
  bcast_S4x512_S4x512x1_0_1 : S4x512.BroadcastsInDim S4x512x1 (![0, 1] : Fin 2 → Fin S4x512x1.rank)
  bcast_S4x512_S4x1x512_0_2 : S4x512.BroadcastsInDim S4x1x512 (![0, 2] : Fin 2 → Fin S4x1x512.rank)
  bcast_S4x512x1_S4x512x512_0_1_2 : S4x512x1.BroadcastsInDim S4x512x512 (![0, 1, 2] : Fin 3 → Fin S4x512x512.rank)
  bcast_S4x1x512_S4x512x512_0_1_2 : S4x1x512.BroadcastsInDim S4x512x512 (![0, 1, 2] : Fin 3 → Fin S4x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S4x512x512 : S_.BroadcastsInDim S4x512x512 (![] : Fin 0 → Fin S4x512x512.rank)
  bcast_S_S1x512x512 : S_.BroadcastsInDim S1x512x512 (![] : Fin 0 → Fin S1x512x512.rank)
  bcast_S1x512x512_S4x512x512_0_1_2 : S1x512x512.BroadcastsInDim S4x512x512 (![0, 1, 2] : Fin 3 → Fin S4x512x512.rank)
  reducesTo_S4x512x512_S4_d1_2 : S4x512x512.ReducesTo [1, 2] S4
  h_S_ : 0 < S_.numel
  bcast_S4_S4x1x1_0 : S4.BroadcastsInDim S4x1x1 (![0] : Fin 1 → Fin S4x1x1.rank)
  bcast_S4x1x1_S4x512x512_0_1_2 : S4x1x1.BroadcastsInDim S4x512x512 (![0, 1, 2] : Fin 3 → Fin S4x512x512.rank)
  transposes_S4x512x512_S4x512x512_0_2_1 : S4x512x512.Transposes [0, 2, 1] S4x512x512
  broadcasts_S1x512_S2048x512 : S1x512.Broadcasts S2048x512
  shapeCasts_S2048x512_S1x2048x512 : S2048x512.ShapeCasts S1x2048x512
  shapeCasts_S4x16384x512_S16384x2048 : S4x16384x512.ShapeCasts S16384x2048
  dot_S2048x512_S2048x512_S512x512_0_0_1_1_n_n_wf : DotDims.WF S2048x512 S2048x512 S512x512 [0] [0] [1] [1] [] []
  dot_S4x512x512_S4x512x512_S4x512x512_2_1_1_2_0_0_wf : DotDims.WF S4x512x512 S4x512x512 S4x512x512 [2] [1] [1] [2] [0] [0]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x16384x512.size a
  hwx0_0 : ∀ i : grid0.Coords, EltTy.bits .f32 = 32 ∨ (Rect.block (s := S4x16384x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S4x1x512.size a
  hwx0_1 : ∀ i : grid0.Coords, EltTy.bits .f32 = 32 ∨ (Rect.block (s := S4x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x512x512.size a
  hwx0_2 : ∀ i : grid0.Coords, EltTy.bits .f32 = 32 ∨ (Rect.block (s := S4x512x512) S1x512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S4x16384x512.size a
  hwx1_0 : ∀ i : grid1.Coords, EltTy.bits .f32 = 32 ∨ (Rect.block (s := S4x16384x512) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S4x1x512.size a
  hwx1_1 : ∀ i : grid1.Coords, EltTy.bits .f32 = 32 ∨ (Rect.block (s := S4x1x512) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x512x512.size a
  hwx1_2 : ∀ i : grid1.Coords, EltTy.bits .f32 = 32 ∨ (Rect.block (s := S4x512x512) S1x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x512.size a ≤ S4x16384x512.size a
  hwx1_3 : ∀ i : grid1.Coords, EltTy.bits .f32 = 32 ∨ (Rect.block (s := S4x16384x512) S1x2048x512.size (cc1_transform_3 i) (hinb1_3 i)).WholeWords (EltTy.packing .f32)

variable [Facts₀]

def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S4x512x512_S4x512x512_S4x512x512_2_1_1_2_0_0 : DotDims S4x512x512 S4x512x512 S4x512x512 where
  lhsContracting := [2]
  rhsContracting := [1]
  lhsNonContracting := [1]
  rhsNonContracting := [2]
  lhsBatch := [0]
  rhsBatch := [0]
  wf := dot_S4x512x512_S4x512x512_S4x512x512_2_1_1_2_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S1x2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S4x16384x512 : Shape := ⟨3, ![4, 16384, 512]⟩
abbrev S_ : Shape := ⟨0, ![]⟩
abbrev S4x512 : Shape := ⟨2, ![4, 512]⟩
abbrev S4x1x512 : Shape := ⟨3, ![4, 1, 512]⟩
abbrev S4x512x512 : Shape := ⟨3, ![4, 512, 512]⟩
abbrev S512x512 : Shape := ⟨2, ![512, 512]⟩
abbrev S1x512x512 : Shape := ⟨3, ![1, 512, 512]⟩
abbrev S4 : Shape := ⟨1, ![4]⟩
abbrev S4x1x1 : Shape := ⟨3, ![4, 1, 1]⟩
abbrev S4x512x16384 : Shape := ⟨3, ![4, 512, 16384]⟩

abbrev nBuf : Space → Nat
  | .hbm => 89
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x16384x512, .f32⟩
  | .hbm, ⟨2, _⟩ => ⟨S_, .f32⟩
  | .hbm, ⟨3, _⟩ => ⟨S4x512, .f32⟩
  | .hbm, ⟨4, _⟩ => ⟨S4x1x512, .f32⟩
  | .hbm, ⟨5, _⟩ => ⟨S_, .f32⟩
  | .hbm, ⟨6, _⟩ => ⟨S4x1x512, .f32⟩
  | .hbm, ⟨7, _⟩ => ⟨S4x1x512, .f32⟩
  | .hbm, ⟨8, _⟩ => ⟨S4x16384x512, .f32⟩
  | .hbm, ⟨9, _⟩ => ⟨S4x16384x512, .f32⟩
  | .hbm, ⟨10, _⟩ => ⟨S4x512x512, .f32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .f32⟩
  | .hbm, ⟨18, _⟩ => ⟨S1x512x512, .f32⟩
  | .hbm, ⟨19, _⟩ => ⟨S_, .f32⟩
  | .hbm, ⟨20, _⟩ => ⟨S1x512x512, .f32⟩
  | .hbm, ⟨21, _⟩ => ⟨S1x512x512, .f32⟩
  | .hbm, ⟨22, _⟩ => ⟨S4x512x512, .f32⟩
  | .hbm, ⟨23, _⟩ => ⟨S4x512x512, .f32⟩
  | .hbm, ⟨24, _⟩ => ⟨S4x512x512, .f32⟩
  | .hbm, ⟨25, _⟩ => ⟨S_, .f32⟩
  | .hbm, ⟨26, _⟩ => ⟨S4, .f32⟩
  | .hbm, ⟨27, _⟩ => ⟨S4x1x1, .f32⟩
  | .hbm, ⟨28, _⟩ => ⟨S4x1x1, .f32⟩
  | .hbm, ⟨29, _⟩ => ⟨S4x512x512, .f32⟩
  | .hbm, ⟨30, _⟩ => ⟨S4x512x512, .f32⟩
  | .hbm, ⟨31, _⟩ => ⟨S4x512x512, .f32⟩
  | .hbm, ⟨32, _⟩ => ⟨S4x512x512, .f32⟩
  | .hbm, ⟨33, _⟩ => ⟨S4x512x512, .f32⟩
  | .hbm, ⟨34, _⟩ => ⟨S_, .f32⟩
  | .hbm, ⟨35, _⟩ => ⟨S4x512x512, .f32⟩
  | .hbm, ⟨36, _⟩ => ⟨S4x512x512, .f32⟩
  | .hbm, ⟨37, _⟩ => ⟨S4x512x512, .f32⟩
  | .hbm, ⟨38, _⟩ => ⟨S_, .f32⟩
  | .hbm, ⟨39, _⟩ => ⟨S4x512x512, .f32⟩
  | .hbm, ⟨40, _⟩ => ⟨S4x512x512, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S_, .f32⟩
  | .hbm, ⟨45, _⟩ => ⟨S4x512x512, .f32⟩
  | .hbm, ⟨46, _⟩ => ⟨S4x512x512, .f32⟩
  | .hbm, ⟨47, _⟩ => ⟨S4x512x512, .f32⟩
  | .hbm, ⟨48, _⟩ => ⟨S_, .f32⟩
  | .hbm, ⟨49, _⟩ => ⟨S4x512x512, .f32⟩
  | .hbm, ⟨50, _⟩ => ⟨S4x512x512, .f32⟩
  | .hbm, ⟨51, _⟩ => ⟨S4x512x512, .f32⟩
  | .hbm, ⟨52, _⟩ => ⟨S4x512x512, .f32⟩
  | .hbm, ⟨53, _⟩ => ⟨S4x512x512, .f32⟩
  | .hbm, ⟨54, _⟩ => ⟨S_, .f32⟩
  | .hbm, ⟨55, _⟩ => ⟨S4x512x512, .f32⟩
  | .hbm, ⟨56, _⟩ => ⟨S4x512x512, .f32⟩
  | .hbm, ⟨57, _⟩ => ⟨S4x512x512, .f32⟩
  | .hbm, ⟨58, _⟩ => ⟨S_, .f32⟩
  | .hbm, ⟨59, _⟩ => ⟨S4x512x512, .f32⟩
  | .hbm, ⟨60, _⟩ => ⟨S4x512x512, .f32⟩
  | .hbm, ⟨61, _⟩ => ⟨S4x512x512, .f32⟩
  | .hbm, ⟨62, _⟩ => ⟨S4x512x512, .f32⟩
  | .hbm, ⟨63, _⟩ => ⟨S4x512x512, .f32⟩
  | .hbm, ⟨64, _⟩ => ⟨S_, .f32⟩
  | .hbm, ⟨65, _⟩ => ⟨S4x512x512, .f32⟩
  | .hbm, ⟨66, _⟩ => ⟨S4x512x512, .f32⟩
  | .hbm, ⟨67, _⟩ => ⟨S4x512x512, .f32⟩
  | .hbm, ⟨68, _⟩ => ⟨S_, .f32⟩
  | .hbm, ⟨69, _⟩ => ⟨S4x512x512, .f32⟩
  | .hbm, ⟨70, _⟩ => ⟨S4x512x512, .f32⟩
  | .hbm, ⟨71, _⟩ => ⟨S4x512x512, .f32⟩
  | .hbm, ⟨72, _⟩ => ⟨S4x512x512, .f32⟩
  | .hbm, ⟨73, _⟩ => ⟨S4x512x512, .f32⟩
  | .hbm, ⟨74, _⟩ => ⟨S_, .f32⟩
  | .hbm, ⟨75, _⟩ => ⟨S4x512x512, .f32⟩
  | .hbm, ⟨76, _⟩ => ⟨S4x512x512, .f32⟩
  | .hbm, ⟨77, _⟩ => ⟨S4x512x512, .f32⟩
  | .hbm, ⟨78, _⟩ => ⟨S_, .f32⟩
  | .hbm, ⟨79, _⟩ => ⟨S4x512x512, .f32⟩
  | .hbm, ⟨80, _⟩ => ⟨S4x512x512, .f32⟩
  | .hbm, ⟨81, _⟩ => ⟨S4x512x512, .f32⟩
  | .hbm, ⟨82, _⟩ => ⟨S4x512x16384, .f32⟩
  | .hbm, ⟨83, _⟩ => ⟨S4x512x16384, .f32⟩
  | .hbm, ⟨84, _⟩ => ⟨S4x1x1, .f32⟩
  | .hbm, ⟨85, _⟩ => ⟨S4x512x16384, .f32⟩
  | .hbm, ⟨86, _⟩ => ⟨S4x512x16384, .f32⟩
  | .hbm, ⟨87, _⟩ => ⟨S4x16384x512, .f32⟩
  | .hbm, ⟨88, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_11 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_12 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]

class Facts₀ : Prop where
  shapeCasts_S16384x2048_S4x16384x512 : S16384x2048.ShapeCasts S4x16384x512
  reducesTo_S4x16384x512_S4x512_d1 : S4x16384x512.ReducesTo [1] S4x512
  h_S_ : 0 < S_.numel
  bcast_S4x512_S4x1x512_0_2 : S4x512.BroadcastsInDim S4x1x512 (![0, 2] : Fin 2 → Fin S4x1x512.rank)
  bcast_S_S4x1x512 : S_.BroadcastsInDim S4x1x512 (![] : Fin 0 → Fin S4x1x512.rank)
  bcast_S4x1x512_S4x16384x512_0_1_2 : S4x1x512.BroadcastsInDim S4x16384x512 (![0, 1, 2] : Fin 3 → Fin S4x16384x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S1x512x512_S4x512x512_0_1_2 : S1x512x512.BroadcastsInDim S4x512x512 (![0, 1, 2] : Fin 3 → Fin S4x512x512.rank)
  reducesTo_S4x512x512_S4_d1_2 : S4x512x512.ReducesTo [1, 2] S4
  bcast_S4_S4x1x1_0 : S4.BroadcastsInDim S4x1x1 (![0] : Fin 1 → Fin S4x1x1.rank)
  bcast_S4x1x1_S4x512x512_0_1_2 : S4x1x1.BroadcastsInDim S4x512x512 (![0, 1, 2] : Fin 3 → Fin S4x512x512.rank)
  bcast_S_S4x512x512 : S_.BroadcastsInDim S4x512x512 (![] : Fin 0 → Fin S4x512x512.rank)
  transposes_S4x16384x512_S4x512x16384_0_2_1 : S4x16384x512.Transposes [0, 2, 1] S4x512x16384
  bcast_S4x1x1_S4x512x16384_0_1_2 : S4x1x1.BroadcastsInDim S4x512x16384 (![0, 1, 2] : Fin 3 → Fin S4x512x16384.rank)
  transposes_S4x512x16384_S4x16384x512_0_2_1 : S4x512x16384.Transposes [0, 2, 1] S4x16384x512
  shapeCasts_S4x16384x512_S16384x2048 : S4x16384x512.ShapeCasts S16384x2048
  dot_S4x16384x512_S4x16384x512_S4x512x512_1_1_2_2_0_0_wf : DotDims.WF S4x16384x512 S4x16384x512 S4x512x512 [1] [1] [2] [2] [0] [0]
  dot_S4x512x512_S4x512x512_S4x512x512_2_1_1_2_0_0_wf : DotDims.WF S4x512x512 S4x512x512 S4x512x512 [2] [1] [1] [2] [0] [0]
  dot_S4x512x512_S4x512x16384_S4x512x16384_2_1_1_2_0_0_wf : DotDims.WF S4x512x512 S4x512x16384 S4x512x16384 [2] [1] [1] [2] [0] [0]

variable [Facts₀]

def dot_S4x16384x512_S4x16384x512_S4x512x512_1_1_2_2_0_0 : DotDims S4x16384x512 S4x16384x512 S4x512x512 where
  lhsContracting := [1]
  rhsContracting := [1]
  lhsNonContracting := [2]
  rhsNonContracting := [2]
  lhsBatch := [0]
  rhsBatch := [0]
  wf := dot_S4x16384x512_S4x16384x512_S4x512x512_1_1_2_2_0_0_wf
def dot_S4x512x512_S4x512x512_S4x512x512_2_1_1_2_0_0 : DotDims S4x512x512 S4x512x512 S4x512x512 where
  lhsContracting := [2]
  rhsContracting := [1]
  lhsNonContracting := [1]
  rhsNonContracting := [2]
  lhsBatch := [0]
  rhsBatch := [0]
  wf := dot_S4x512x512_S4x512x512_S4x512x512_2_1_1_2_0_0_wf
def dot_S4x512x512_S4x512x16384_S4x512x16384_2_1_1_2_0_0 : DotDims S4x512x512 S4x512x16384 S4x512x16384 where
  lhsContracting := [2]
  rhsContracting := [1]
  lhsNonContracting := [1]
  rhsNonContracting := [2]
  lhsBatch := [0]
  rhsBatch := [0]
  wf := dot_S4x512x512_S4x512x16384_S4x512x16384_2_1_1_2_0_0_wf

class Facts : Prop extends Facts₀ where

variable [Facts]
-- ==== Proof.K.Setup.lean ====
/-
  The two pipelined regions of the program, each at a parameter `V` (the TensorCore's buffer contents when the
  region is entered): the windows' blocks, the branch of the first kernel decided over the grid, what its two
  accumulators hold after every grid point, and the proof data of both pipelines.

  Region 0 walks a 4 x 8 grid (group g, row tile n). Its two scratch buffers are running sums over the row tiles of
  one group: a 1 x 512 column sum and a 512 x 512 Gram matrix. At the first tile of a group (n = 0) both are reset to
  zero before the tile is added; every point then copies both into the output windows' staging buffers, and the
  pipeline writes those back after the last tile of the group. Region 1 walks the same grid with no state between
  points: each point's output block is a function of that point's three input blocks.
-/
import proofs.«140310_j38826504356590_1_alg».proof.Proof.Gen.Kernel.Launch
import proofs.«140310_j38826504356590_1_alg».proof.Proof.Gen.Kernel.Skeleton
import proofs.«140310_j38826504356590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first kernel's branch condition (its `scf.if`): the row-tile coordinate is zero. -/
abbrev cond0 (i : grid0.Coords) : Prop :=
  (Scalar.cmpi .ne (Scalar.extui (Scalar.cmpi .eq (BitVec.ofNat 32 (i 1).val) 0#32)) 0#32) = 1#1

/-- It holds exactly at the first row tile of each group: the points that are multiples of 8. -/
theorem hcond0 : ∀ t : Fin cfg0.N, cond0 (grid0.coords t) ↔ t.val % 8 = 0 :=
  (by decide +kernel : ∀ t : Fin grid0.N, cond0 (grid0.coords t) ↔ t.val % 8 = 0)

/-- The two scratch operands, whole scoped buffers of the kernel's own. -/
abbrev scM0 : Memref sig .tc .vmem S1x512 .f32 := Memref.whole cc0_scratch0
abbrev scM1 : Memref sig .tc .vmem S512x512 .f32 := Memref.whole cc0_scratch1

/-- One point's step on the two accumulators, from the row tile `x` and what the accumulators held. -/
abbrev step0 (x : Vec F S1x2048x512 .f32) (s : Vec F S1x512 .f32 × Vec F S512x512 .f32) :
    Vec F S1x512 .f32 × Vec F S512x512 .f32 := (k0_pay4 x s.1, k0_pay5 x s.2)

/-- The accumulators as the reset leaves them: zeros. -/
abbrev zero0 : Vec F S1x512 .f32 × Vec F S512x512 .f32 := (k0_pay1, k0_pay2)

/-- THE ACCUMULATION: what the two scratch buffers hold after the body at position `n`. At the first row tile of a
    group the step starts from zeros, elsewhere from what the point before left. -/
def accAt0 (c : Dev nD) : (n : ℕ) → n < cfg0.N → Vec F S1x512 .f32 × Vec F S512x512 .f32
  | 0, hn => step0 (iblk0 V c 0 ⟨0, hn⟩) zero0
  | n + 1, hn =>
    if (n + 1) % 8 = 0 then step0 (iblk0 V c 0 ⟨n + 1, hn⟩) zero0
    else step0 (iblk0 V c 0 ⟨n + 1, hn⟩) (accAt0 c n (Nat.lt_of_succ_lt hn))

/-- At a first row tile: one step from zeros. -/
theorem accAt0_reset (c : Dev nD) (t : Fin cfg0.N) (h : t.val % 8 = 0) :
    accAt0 V c t.val t.isLt = step0 (iblk0 V c 0 t) zero0 := by
  obtain ⟨n, hn⟩ := t
  cases n with
  | zero => rfl
  | succ n => exact if_pos h

/-- Elsewhere: one step from what the point before left. -/
theorem accAt0_acc (c : Dev nD) (t : Fin cfg0.N) (h : ¬t.val % 8 = 0) :
    accAt0 V c t.val t.isLt = step0 (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point every scoped buffer that is no staging buffer
    of this pipeline at anything and the generator register at some state; afterwards the same with the two
    accumulators at what the point before left in them. -/
def PhiS0 (c : Dev nD) : (n : ℕ) → n ≤ cfg0.N → sProp 𝕄
  | 0, _ => Pipeline.ΦA spec0 c
  | n + 1, hn => iprop(iprop(owns (c : Thread nD τ) scM0 fullShare ((accAt0 V c n hn).1) ∗ owns (c : Thread nD τ) scM1 fullShare ((accAt0 V c n hn).2)
      ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))
      ∗ (∃ r, prngReg c r))

/-- The proof data of pipeline 0 on core `c`: the arrays as the region finds them; after the body at point `t` the
    input's buffer at its block, the two outputs' at the accumulators re-laid to the outputs' shapes; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay6 (accAt0 V c t.val t.isLt).1
    | ⟨2, _⟩ => k0_pay7 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay6 (accAt0 V c t.val t.isLt).1 := by dsimp only [dat0]
theorem after0_2 (c : Dev nD) (t : Fin cfg0.N) : (dat0 V c).after 2 t = k0_pay7 (accAt0 V c t.val t.isLt).2 := by dsimp only [dat0]

/-! ## Region 1 -/

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body at point `t` each
    input's buffer at its block and the output's at the body's one payload of the three input blocks; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

end Regions

end Cert.Kernel.Hand

end
-- ==== Proof.K.Fold.lean ====
/-
  The buffer contents at every boundary between the segments of @main, as a fold from the launch memory: a stretch
  of host operations applies them in order; a region leaves its windows' arrays at what its write-backs leave and
  every other buffer as it found it. @main is: one reshape, region 0, the 88 host operations between the regions,
  region 1, one reshape.
-/
import proofs.«140310_j38826504356590_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the first reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the 88 host operations between the regions (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last reshape: the contents at the return. -/
abbrev W5 : Dev nD → Valuation τ sig (Elt F) := fun c => StableHlo.after hostOps2 (W4 m c)

end Cert.Kernel.Hand

end
-- ==== Proof.K.Run0A.lean ====
/-
  The first kernel's body at a point where its branch is taken (the first row tile of a group): both accumulators
  are reset to zero, the tile's column sum and Gram matrix are added, and both accumulators are copied to the output
  windows' staging buffers. Every load and store covers its whole buffer, so each buffer ends at one payload.
-/
import proofs.«140310_j38826504356590_1_alg».proof.Proof.K.Setup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- The whole-buffer rectangles of the body's four stored buffers. -/
private abbrev r3 : Rect S1x1x512 := Rect.unit (s := S1x1x512) ![0, 0, 0] S1x1x512.size inb_S1x1x512_S1x1x512_0_0_0
private abbrev r4 : Rect S1x512x512 := Rect.unit (s := S1x512x512) ![0, 0, 0] S1x512x512.size inb_S1x512x512_S1x512x512_0_0_0
private abbrev r5 : Rect S1x512 := Rect.unit (s := S1x512) ![0, 0] S1x512.size inb_S1x512_S1x512_0_0
private abbrev r6 : Rect S512x512 := Rect.unit (s := S512x512) ![0, 0] S512x512.size inb_S512x512_S512x512_0_0

/-- A list of stores whose last one is through the whole-buffer rectangle covers the buffer. -/
private theorem cover3 (p : Vec F S1x1x512 .f32) (L : List (View.Piece (Elt F) S1x1x512 .f32)) (y : S1x1x512.Idx) :
    ∃ pc ∈ ((⟨r3, p⟩ : View.Piece (Elt F) S1x1x512 .f32) :: L), y ∈ pc.1.set :=
  ⟨_, List.mem_cons_self, View.mem_set_unit_zero (S := S1x1x512) hz3 inb_S1x1x512_S1x1x512_0_0_0 y⟩
private theorem cover4 (p : Vec F S1x512x512 .f32) (L : List (View.Piece (Elt F) S1x512x512 .f32)) (y : S1x512x512.Idx) :
    ∃ pc ∈ ((⟨r4, p⟩ : View.Piece (Elt F) S1x512x512 .f32) :: L), y ∈ pc.1.set :=
  ⟨_, List.mem_cons_self, View.mem_set_unit_zero (S := S1x512x512) hz3 inb_S1x512x512_S1x512x512_0_0_0 y⟩
private theorem cover5 (p : Vec F S1x512 .f32) (L : List (View.Piece (Elt F) S1x512 .f32)) (y : S1x512.Idx) :
    ∃ pc ∈ ((⟨r5, p⟩ : View.Piece (Elt F) S1x512 .f32) :: L), y ∈ pc.1.set :=
  ⟨_, List.mem_cons_self, View.mem_set_unit_zero (S := S1x512) hz2 inb_S1x512_S1x512_0_0 y⟩
private theorem cover6 (p : Vec F S512x512 .f32) (L : List (View.Piece (Elt F) S512x512 .f32)) (y : S512x512.Idx) :
    ∃ pc ∈ ((⟨r6, p⟩ : View.Piece (Elt F) S512x512 .f32) :: L), y ∈ pc.1.set :=
  ⟨_, List.mem_cons_self, View.mem_set_unit_zero (S := S512x512) hz2 inb_S512x512_S512x512_0_0 y⟩

/-- A load through the whole-buffer rectangle, after stores the last of which went through it, reads that last
    store's payload, whatever the earlier stores were. -/
private theorem readCov_cons_unit_zero {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

set_option maxHeartbeats 1000000 in
/-- The body where the branch is taken: from the input tile `x0` and any contents of the four other buffers, it runs
    to the continuation holding the accumulators one step from zeros and the outputs' buffers at their re-laid copies. -/
theorem sound_kernel0_A (c : Dev nD) (E : Set ℕ) (i : grid0.Coords)
    (arg2 : Memref sig .tc .vmem S1x2048x512 .f32) (harg2 : arg2.IsWhole) (arg3 : Memref sig .tc .vmem S1x1x512 .f32) (harg3 : arg3.IsWhole)
    (arg4 : Memref sig .tc .vmem S1x512x512 .f32) (harg4 : arg4.IsWhole) (arg5 : Memref sig .tc .vmem S1x512 .f32) (harg5 : arg5.IsWhole)
    (arg6 : Memref sig .tc .vmem S512x512 .f32) (harg6 : arg6.IsWhole) (hc : cond0 i)
    (x0 : Vec F S1x2048x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k0_pay6 (step0 x0 zero0).1)
            ∗ owns (c : Thread nD τ) arg4 fullShare (k0_pay7 (step0 x0 zero0).2)
            ∗ owns (c : Thread nD τ) arg5 fullShare (step0 x0 zero0).1 ∗ owns (c : Thread nD τ) arg6 fullShare (step0 x0 zero0).2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  unfold owns
  iintro ⟨⟨%f2, %hf2, H2⟩, ⟨%d3, %f3, -, H3⟩, ⟨%d4, %f4, -, H4⟩, ⟨%d5, %f5, -, H5⟩, ⟨%d6, %f6, -, H6⟩, Hk⟩
  obtain rfl := harg2.eq_unread hf2
  sl_exec (disch := first | exact hc)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (cover3 _ _)]
    sl_unfold_words
    rw [View.canon_unit_zero hz3, readCov_cons_unit_zero (S := S1x512) _ hz2, readCov_cons_unit_zero (S := S1x512) _ hz2]
    simp only [View.readAt_eq_ld, harg2.read_unread, View.ld_unit_zero (S := S1x2048x512) hz3]
  isplitl [H4]
  · iexists _; isplitr
    swap; · iexact H4
    ipureintro
    rw [View.read_writes_eq_canon _ _ _ (cover4 _ _)]
    sl_unfold_words
    rw [View.canon_unit_zero hz3, readCov_cons_unit_zero (S := S512x512) _ hz2, readCov_cons_unit_zero (S := S512x512) _ hz2]
    simp only [View.readAt_eq_ld, harg2.read_unread, View.ld_unit_zero (S := S1x2048x512) hz3]
  isplitl [H5]
  · iexists _; isplitr
    swap; · iexact H5
    ipureintro
    sl_unfold_words
    rw [View.read_writes_eq_canon _ _ _ (cover5 _ _), View.canon_cons_unit_zero (S := S1x512) hz2,
      readCov_cons_unit_zero (S := S1x512) _ hz2]
    simp only [View.readAt_eq_ld, harg2.read_unread, View.ld_unit_zero (S := S1x2048x512) hz3]
  · iexists _; isplitr
    swap; · iexact H6
    ipureintro
    sl_unfold_words
    rw [View.read_writes_eq_canon _ _ _ (cover6 _ _), View.canon_cons_unit_zero (S := S512x512) hz2,
      readCov_cons_unit_zero (S := S512x512) _ hz2]
    simp only [View.readAt_eq_ld, harg2.read_unread, View.ld_unit_zero (S := S1x2048x512) hz3]

end Cert.Kernel.Hand

end
-- ==== Proof.K.Run0B.lean ====
/-
  The first kernel's body at a point where its branch is not taken (a later row tile of a group): the tile's column
  sum and Gram matrix are added to what the accumulators hold, and both are copied to the output windows' buffers.
-/
import proofs.«140310_j38826504356590_1_alg».proof.Proof.K.Setup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- The whole-buffer rectangles of the body's four stored buffers. -/
private abbrev r3 : Rect S1x1x512 := Rect.unit (s := S1x1x512) ![0, 0, 0] S1x1x512.size inb_S1x1x512_S1x1x512_0_0_0
private abbrev r4 : Rect S1x512x512 := Rect.unit (s := S1x512x512) ![0, 0, 0] S1x512x512.size inb_S1x512x512_S1x512x512_0_0_0
private abbrev r5 : Rect S1x512 := Rect.unit (s := S1x512) ![0, 0] S1x512.size inb_S1x512_S1x512_0_0
private abbrev r6 : Rect S512x512 := Rect.unit (s := S512x512) ![0, 0] S512x512.size inb_S512x512_S512x512_0_0

/-- A list of stores whose last one is through the whole-buffer rectangle covers the buffer. -/
private theorem cover3 (p : Vec F S1x1x512 .f32) (L : List (View.Piece (Elt F) S1x1x512 .f32)) (y : S1x1x512.Idx) :
    ∃ pc ∈ ((⟨r3, p⟩ : View.Piece (Elt F) S1x1x512 .f32) :: L), y ∈ pc.1.set :=
  ⟨_, List.mem_cons_self, View.mem_set_unit_zero (S := S1x1x512) hz3 inb_S1x1x512_S1x1x512_0_0_0 y⟩
private theorem cover4 (p : Vec F S1x512x512 .f32) (L : List (View.Piece (Elt F) S1x512x512 .f32)) (y : S1x512x512.Idx) :
    ∃ pc ∈ ((⟨r4, p⟩ : View.Piece (Elt F) S1x512x512 .f32) :: L), y ∈ pc.1.set :=
  ⟨_, List.mem_cons_self, View.mem_set_unit_zero (S := S1x512x512) hz3 inb_S1x512x512_S1x512x512_0_0_0 y⟩
private theorem cover5 (p : Vec F S1x512 .f32) (L : List (View.Piece (Elt F) S1x512 .f32)) (y : S1x512.Idx) :
    ∃ pc ∈ ((⟨r5, p⟩ : View.Piece (Elt F) S1x512 .f32) :: L), y ∈ pc.1.set :=
  ⟨_, List.mem_cons_self, View.mem_set_unit_zero (S := S1x512) hz2 inb_S1x512_S1x512_0_0 y⟩
private theorem cover6 (p : Vec F S512x512 .f32) (L : List (View.Piece (Elt F) S512x512 .f32)) (y : S512x512.Idx) :
    ∃ pc ∈ ((⟨r6, p⟩ : View.Piece (Elt F) S512x512 .f32) :: L), y ∈ pc.1.set :=
  ⟨_, List.mem_cons_self, View.mem_set_unit_zero (S := S512x512) hz2 inb_S512x512_S512x512_0_0 y⟩

set_option maxHeartbeats 1000000 in
/-- The body where the branch is not taken: from the input tile `x0` and the accumulators at `s`, it runs to the
    continuation holding the accumulators one step on and the outputs' buffers at their re-laid copies. -/
theorem sound_kernel0_B (c : Dev nD) (E : Set ℕ) (i : grid0.Coords)
    (arg2 : Memref sig .tc .vmem S1x2048x512 .f32) (harg2 : arg2.IsWhole) (arg3 : Memref sig .tc .vmem S1x1x512 .f32) (harg3 : arg3.IsWhole)
    (arg4 : Memref sig .tc .vmem S1x512x512 .f32) (harg4 : arg4.IsWhole) (arg5 : Memref sig .tc .vmem S1x512 .f32) (harg5 : arg5.IsWhole)
    (arg6 : Memref sig .tc .vmem S512x512 .f32) (harg6 : arg6.IsWhole) (hc : ¬cond0 i)
    (x0 : Vec F S1x2048x512 .f32) (s : Vec F S1x512 .f32 × Vec F S512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s.1 ∗ owns (c : Thread nD τ) arg6 fullShare s.2
        ∗ (iprop(owns (c : Thread nD τ) arg2 fullShare x0 ∗ owns (c : Thread nD τ) arg3 fullShare (k0_pay6 (step0 x0 s).1)
            ∗ owns (c : Thread nD τ) arg4 fullShare (k0_pay7 (step0 x0 s).2)
            ∗ owns (c : Thread nD τ) arg5 fullShare (step0 x0 s).1 ∗ owns (c : Thread nD τ) arg6 fullShare (step0 x0 s).2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  unfold owns
  iintro ⟨⟨%f2, %hf2, H2⟩, ⟨%d3, %f3, -, H3⟩, ⟨%d4, %f4, -, H4⟩, ⟨%f5, %hf5, H5⟩, ⟨%f6, %hf6, H6⟩, Hk⟩
  obtain rfl := harg2.eq_unread hf2; obtain rfl := harg5.eq_unread hf5; obtain rfl := harg6.eq_unread hf6
  sl_exec (disch := first | exact hc)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (cover3 _ _)]
    sl_unfold_words
    rw [View.canon_unit_zero hz3, View.readCov_unit_zero (S := S1x512) _ hz2]
    simp only [View.readAt_eq_ld, harg2.read_unread, harg5.read_unread, View.ld_unit_zero (S := S1x2048x512) hz3,
      View.ld_unit_zero (S := S1x512) hz2]
  isplitl [H4]
  · iexists _; isplitr
    swap; · iexact H4
    ipureintro
    rw [View.read_writes_eq_canon _ _ _ (cover4 _ _)]
    sl_unfold_words
    rw [View.canon_unit_zero hz3, View.readCov_unit_zero (S := S512x512) _ hz2]
    simp only [View.readAt_eq_ld, harg2.read_unread, harg6.read_unread, View.ld_unit_zero (S := S1x2048x512) hz3,
      View.ld_unit_zero (S := S512x512) hz2]
  isplitl [H5]
  · iexists _; isplitr
    swap; · iexact H5
    ipureintro
    sl_unfold_words
    rw [View.read_writes_eq_canon _ _ _ (cover5 _ _), View.canon_unit_zero hz2]
    simp only [View.readAt_eq_ld, harg2.read_unread, harg5.read_unread, View.ld_unit_zero (S := S1x2048x512) hz3,
      View.ld_unit_zero (S := S1x512) hz2]
  · iexists _; isplitr
    swap; · iexact H6
    ipureintro
    sl_unfold_words
    rw [View.read_writes_eq_canon _ _ _ (cover6 _ _), View.canon_unit_zero hz2]
    simp only [View.readAt_eq_ld, harg2.read_unread, harg6.read_unread, View.ld_unit_zero (S := S1x2048x512) hz3,
      View.ld_unit_zero (S := S512x512) hz2]

end Cert.Kernel.Hand

end
-- ==== Proof.K.Body0.lean ====
/-
  Region 0's body obligation: at every grid point the pipeline hands the body its input tile's block, the two output
  windows' current staging buffers at anything, and the invariant; the body's run (by the case its branch is in)
  gives back the invariant one point on and the staging buffers at the proof data's contents.
-/
import proofs.«140310_j38826504356590_1_alg».proof.Proof.K.Run0A
import proofs.«140310_j38826504356590_1_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The invariant, position by position -/

/-- The eight staging buffers of the other pipeline, each whole at some contents: the part of the invariant that
    region 0 carries through every point unread. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before the first point the invariant is the class's. -/
theorem PhiS0_zero (c : Dev nD) (n : ℕ) (h : n ≤ cfg0.N) (hz : n = 0) : PhiS0 V c n h = Pipeline.ΦA spec0 c := by
  subst hz; rfl

/-- After point `n` (before point `n + 1`): the two accumulators at that point's contents. -/
theorem PhiS0_succ (c : Dev nD) (n : ℕ) (hn : n < cfg0.N) :
    PhiS0 V c (n + 1) hn = iprop(iprop(owns (c : Thread nD τ) scM0 fullShare ((accAt0 V c n hn).1) ∗ owns (c : Thread nD τ) scM1 fullShare ((accAt0 V c n hn).2)
      ∗ rest0 c) ∗ (∃ r, prngReg c r)) := rfl

/-- Before a point that is not the first: the two accumulators at what the point before left. -/
theorem PhiS0_pos (c : Dev nD) (n : ℕ) (h : n ≤ cfg0.N) (hz : n ≠ 0) :
    PhiS0 V c n h = iprop(iprop(owns (c : Thread nD τ) scM0 fullShare ((accAt0 V c (n - 1) (by omega)).1) ∗ owns (c : Thread nD τ) scM1 fullShare ((accAt0 V c (n - 1) (by omega)).2)
      ∗ rest0 c) ∗ (∃ r, prngReg c r)) := by
  cases n with
  | zero => exact absurd rfl hz
  | succ n => rfl

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- The class's invariant with the two accumulators as memrefs owned at some contents: the scoped rest enumerated,
    each whole buffer's points-to read as owning its whole memref. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 c) ∗ (∃ r, prngReg c r)) := by
  unfold Pipeline.ΦA; rw [scopedRest0_eq]; simp only [scM0, scM1, owns_whole]; try rfl

/-! ## The staging memrefs at a point, and what the input's holds -/

/-- Each window's current staging memref at point `t`, spelled as the pipeline passes it, and its wholeness. -/
abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)

/-- The input window's current staging buffer holds its block at every point, fetched there or not: the window is an
    input, uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`: the invariant, nothing owed, and the three windows' buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns: the invariant one point on, nothing owed, and every buffer at the proof data's contents
    (no window is idle anywhere, so each is at `after`). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point. The input's memref holds its block; the closed form of the branch condition says which
    case the point is in. Where the branch is taken (the first row tile of a group) the accumulators restart from
    zeros whatever they held: at the very first point the invariant hands them at anything, later at what the point
    before left, which is forgotten. Elsewhere the point is not the first, the invariant hands the accumulators at what
    the point before left, and the step continues from there. Either way the run returns the accumulators at this
    point's contents, which the invariant one point on takes, and the outputs' buffers at their re-laid copies; the
    other pipeline's staging buffers and the generator register pass through, and nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val % 8 = 0
  · rw [accAt0_reset V c t h0]
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply (sound_kernel0_A c Set.univ (grid0.coords t) (ms0_0 t) (hs0_0 t) (ms0_1 t) (hs0_1 t) (ms0_2 t) (hs0_2 t)
        scM0 (Memref.isWhole_whole _) scM1 (Memref.isWhole_whole _) ((hcond0 t).mpr h0) (iblk0 V c 0 t) _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply (sound_kernel0_A c Set.univ (grid0.coords t) (ms0_0 t) (hs0_0 t) (ms0_1 t) (hs0_1 t) (ms0_2 t) (hs0_2 t)
        scM0 (Memref.isWhole_whole _) scM1 (Memref.isWhole_whole _) ((hcond0 t).mpr h0) (iblk0 V c 0 t) _)
      isplitl [H0]; · iexact H0
      isplitl [H1]; · iexists _; iexact H1
      isplitl [H2]; · iexists _; iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
  · have hz : t.val ≠ 0 := fun h => h0 (by rw [h])
    rw [accAt0_acc V c t h0]
    rw [PhiS0_castSucc V c t, PhiS0_pos V c _ _ hz]
    iintro ⟨⟨⟨HS0, HS1, HR⟩, Hg⟩, Ho, ⟨%d0, H0⟩, ⟨%d1, H1⟩, ⟨%d2, H2⟩⟩
    iapply (sound_kernel0_B c Set.univ (grid0.coords t) (ms0_0 t) (hs0_0 t) (ms0_1 t) (hs0_1 t) (ms0_2 t) (hs0_2 t)
      scM0 (Memref.isWhole_whole _) scM1 (Memref.isWhole_whole _) (fun h => h0 ((hcond0 t).mp h)) (iblk0 V c 0 t)
      (accAt0 V c (t.val - 1) (Nat.lt_of_le_of_lt (Nat.sub_le _ _) t.isLt)) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    iexact H2

/-- The library's body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- After the last point the invariant gives the class's back: the accumulators' named contents are forgotten. -/
theorem hout0 (c : Dev nD) : (dat0 V c).Φ (Fin.last cfg0.N) ⊢ Pipeline.ΦA spec0 c :=
  Phi_out0 V c _ (by rw [Fin.val_last]; have : cfg0.N = 32 := N_0; omega)

end Regions

end Cert.Kernel.Hand

end
-- ==== Proof.K.Run1.lean ====
/-
  The second kernel's body: it loads its three input blocks whole (a row tile, the group's mean row, the group's
  512 x 512 factor), and stores one payload over the whole output block.
-/
import proofs.«140310_j38826504356590_1_alg».proof.Proof.K.Setup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-three rectangle are the constant zero function. -/
theorem off1_zero : (![0, 0, 0] : Fin 3 → ℕ) = fun _ => 0 := funext fun a => by fin_cases a <;> rfl

/-- The output block's whole rectangle: zero offsets, the block's own sizes. -/
abbrev r1_out : Rect S1x2048x512 := Rect.unit (s := S1x2048x512) ![0, 0, 0] S1x2048x512.size inb_S1x2048x512_S1x2048x512_0_0_0

/-- One store through the whole rectangle covers the block: every index lies in it. -/
theorem cover1_3 (p : Vec F S1x2048x512 .f32) (y : S1x2048x512.Idx) :
    ∃ pc ∈ ([⟨r1_out, p⟩] : List (View.Piece (Elt F) S1x2048x512 .f32)), y ∈ pc.1.set :=
  ⟨_, List.mem_singleton_self _, View.mem_set_unit_zero off1_zero inb_S1x2048x512_S1x2048x512_0_0_0 y⟩

set_option maxHeartbeats 1000000 in
/-- The body on whole staging memrefs, the inputs' at `x0`, `x1`, `x2` and the output's at anything, runs to the
    continuation holding the inputs' as they were and the output's at the body's payload of the three. -/
theorem sound_kernel1 (c : Dev nD) (E : Set ℕ) (i : grid1.Coords)
    (arg2 : Memref sig .tc .vmem S1x2048x512 .f32) (harg2 : arg2.IsWhole) (arg3 : Memref sig .tc .vmem S1x1x512 .f32) (harg3 : arg3.IsWhole)
    (arg4 : Memref sig .tc .vmem S1x512x512 .f32) (harg4 : arg4.IsWhole) (arg5 : Memref sig .tc .vmem S1x2048x512 .f32) (harg5 : arg5.IsWhole)
    (x0 : Vec F S1x2048x512 .f32) (x1 : Vec F S1x1x512 .f32) (x2 : Vec F S1x512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__apply_kernel i arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the read-back of one covering store is its payload; the payload's three loads, through whole rectangles, read the contents
  rw [View.read_writes_eq_canon _ _ _ (cover1_3 _), View.canon_unit_zero off1_zero]
  simp only [View.readAt_eq_ld, View.ld_unit_zero (S := S1x2048x512) off1_zero, View.ld_unit_zero (S := S1x1x512) off1_zero,
    View.ld_unit_zero (S := S1x512x512) off1_zero]

end Cert.Kernel.Hand

end
-- ==== Proof.K.Body1.lean ====
/-
  Region 1's body obligation: at every grid point the three input windows' current staging buffers hold their blocks
  (fetched at this point or left from an earlier one: the mean row and the factor are fetched once per group), the
  body's run leaves the output's buffer at its payload, and the invariant passes through unread.
-/
import proofs.«140310_j38826504356590_1_alg».proof.Proof.K.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point (it is fetched at every point), for any
    proof data whose array is `V`'s and whose body leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the group's mean row) is fetched only at the first row tile of a group. At a later tile its
    buffer holds what the body left at the tile before, which is that tile's block, and the block index `(g, 0, 0)`
    has not moved since: so the buffer holds this point's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the group's 512 x 512 factor), fetched once per group like the mean row: the same argument. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debt, and the four windows' current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the kernel's triple applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of pipeline 1, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Main.lean ====
/-
  The launch: @main as five segments (a reshape, region 0, the host operations between, region 1, a reshape) run by
  the library's theorem for a list of segments; every unscoped buffer ends at the fold's last contents, and the
  argument array reads back through the fold to its launch contents.
-/
import proofs.«140310_j38826504356590_1_alg».proof.Proof.K.Fold
import proofs.«140310_j38826504356590_1_alg».proof.Proof.K.Body0
import proofs.«140310_j38826504356590_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument array is written by no host operation and by no region (both regions only read it, through the
    reshaped copy): the fold at its buffer walks back to the launch memory. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data of both pipelines and what rides beside the buffers -/

/-- No pipeline has a prefetched table. -/
abbrev adm : (p : Fin 2) → (pcfgs (F := F) p).Adm := fun p => (cfgs p).toPCfg_adm
/-- Each pipeline's proof data at the contents its region is entered from: pipeline 0 after the first reshape,
    pipeline 1 after the host operations between the regions. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state and its debt, at nothing. -/
abbrev R (c : Dev nD) : sProp 𝕄 := iprop((∃ r, prngReg c r) ∗ ∃ W, owes (c : Thread nD τ) (0 : CellTallies nD τ sig Unit) W)
/-- A stretch of host operations over the unscoped buffers at the contents `W`: it leaves them at the operations
    applied in order. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the three stretches allocates a buffer. -/
theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, without the debt: every unscoped buffer at the fold's last contents, the generator
    register at some state. -/
abbrev Tₙ (c : Dev nD) : sProp 𝕄 := iprop(StableHlo.held (c : Thread nD τ) (Pipeline.ucRefs τ sig) (W5 m c) ∗ ∃ r, prngReg c r)

/-! ## The two regions -/

set_option backward.isDefEq.respectTransparency.types false in
/-- Region 0: entered from the unscoped buffers at `W1`, left at `W2`. Its three arrays are split out of the unscoped
    buffers and put back at what the write-backs leave; the generator register and the kernel's scoped buffers make the
    invariant before the first point, and the invariant after the last gives them back with the accumulators' contents
    forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (V1 m) c
    refine BIBase.Entails.trans ?_ h
    unfold Pipeline.ΦA
    iintro ⟨Hp, -, Hr⟩
    isplitl [Hr]; · iexact Hr
    iexact Hp
  hout c := by
    have h : (pdats m 0 c).Φ (Fin.last _) ⊢ Pipeline.ΦA spec0 c := hout0 (V1 m) c
    refine BIBase.Entails.trans h ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the unscoped buffers at `W3`, left at `W4` (what the last reshape is run from). Its four
    arrays are split out and put back as region 0's; its invariant is the class's at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as five segments, and the launch -/

/-- @main in order: the first reshape from the launch contents, region 0, the host operations between the regions
    from region 0's exit contents, region 1, the last reshape from region 1's exit contents. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the five segments: it is the chain of its five items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped TensorCore buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (W5 m c) ∗ R c)
          ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W5_main_arg0 m c)) (run_all m ρ)

end Cert.Kernel.Hand

end
-- ==== Proof.KI.Setup.lean ====
/-
  The two pipelined regions of the program, each at a parameter `V` (the TensorCore's buffer contents when the
  region is entered): the windows' blocks, the branch of the first kernel decided over the grid, what its two
  accumulators hold after every grid point, and the proof data of both pipelines.

  Region 0 walks a 4 x 8 grid (group g, row tile n). Its two scratch buffers are running sums over the row tiles of
  one group: a 1 x 512 column sum and a 512 x 512 Gram matrix. At the first tile of a group (n = 0) both are reset to
  zero before the tile is added; every point then copies both into the output windows' staging buffers, and the
  pipeline writes those back after the last tile of the group. Region 1 walks the same grid with no state between
  points: each point's output block is a function of that point's three input blocks.
-/
import proofs.«140310_j38826504356590_1_alg».proof.Proof.Gen.KernelIdeal.Launch
import proofs.«140310_j38826504356590_1_alg».proof.Proof.Gen.KernelIdeal.Skeleton
import proofs.«140310_j38826504356590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first kernel's branch condition (its `scf.if`): the row-tile coordinate is zero. -/
abbrev cond0 (i : grid0.Coords) : Prop :=
  (Scalar.cmpi .ne (Scalar.extui (Scalar.cmpi .eq (BitVec.ofNat 32 (i 1).val) 0#32)) 0#32) = 1#1

/-- It holds exactly at the first row tile of each group: the points that are multiples of 8. -/
theorem hcond0 : ∀ t : Fin cfg0.N, cond0 (grid0.coords t) ↔ t.val % 8 = 0 :=
  (by decide +kernel : ∀ t : Fin grid0.N, cond0 (grid0.coords t) ↔ t.val % 8 = 0)

/-- The two scratch operands, whole scoped buffers of the kernel's own. -/
abbrev scM0 : Memref sig .tc .vmem S1x512 .f32 := Memref.whole cc0_scratch0
abbrev scM1 : Memref sig .tc .vmem S512x512 .f32 := Memref.whole cc0_scratch1

/-- One point's step on the two accumulators, from the row tile `x` and what the accumulators held. -/
abbrev step0 (x : Vec F S1x2048x512 .f32) (s : Vec F S1x512 .f32 × Vec F S512x512 .f32) :
    Vec F S1x512 .f32 × Vec F S512x512 .f32 := (k0_pay4 x s.1, k0_pay5 x s.2)

/-- The accumulators as the reset leaves them: zeros. -/
abbrev zero0 : Vec F S1x512 .f32 × Vec F S512x512 .f32 := (k0_pay1, k0_pay2)

/-- THE ACCUMULATION: what the two scratch buffers hold after the body at position `n`. At the first row tile of a
    group the step starts from zeros, elsewhere from what the point before left. -/
def accAt0 (c : Dev nD) : (n : ℕ) → n < cfg0.N → Vec F S1x512 .f32 × Vec F S512x512 .f32
  | 0, hn => step0 (iblk0 V c 0 ⟨0, hn⟩) zero0
  | n + 1, hn =>
    if (n + 1) % 8 = 0 then step0 (iblk0 V c 0 ⟨n + 1, hn⟩) zero0
    else step0 (iblk0 V c 0 ⟨n + 1, hn⟩) (accAt0 c n (Nat.lt_of_succ_lt hn))

/-- At a first row tile: one step from zeros. -/
theorem accAt0_reset (c : Dev nD) (t : Fin cfg0.N) (h : t.val % 8 = 0) :
    accAt0 V c t.val t.isLt = step0 (iblk0 V c 0 t) zero0 := by
  obtain ⟨n, hn⟩ := t
  cases n with
  | zero => rfl
  | succ n => exact if_pos h

/-- Elsewhere: one step from what the point before left. -/
theorem accAt0_acc (c : Dev nD) (t : Fin cfg0.N) (h : ¬t.val % 8 = 0) :
    accAt0 V c t.val t.isLt = step0 (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point every scoped buffer that is no staging buffer
    of this pipeline at anything and the generator register at some state; afterwards the same with the two
    accumulators at what the point before left in them. -/
def PhiS0 (c : Dev nD) : (n : ℕ) → n ≤ cfg0.N → sProp 𝕄
  | 0, _ => Pipeline.ΦA spec0 c
  | n + 1, hn => iprop(iprop(owns (c : Thread nD τ) scM0 fullShare ((accAt0 V c n hn).1) ∗ owns (c : Thread nD τ) scM1 fullShare ((accAt0 V c n hn).2)
      ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))
      ∗ (∃ r, prngReg c r))

/-- The proof data of pipeline 0 on core `c`: the arrays as the region finds them; after the body at point `t` the
    input's buffer at its block, the two outputs' at the accumulators re-laid to the outputs' shapes; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay6 (accAt0 V c t.val t.isLt).1
    | ⟨2, _⟩ => k0_pay7 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay6 (accAt0 V c t.val t.isLt).1 := by dsimp only [dat0]
theorem after0_2 (c : Dev nD) (t : Fin cfg0.N) : (dat0 V c).after 2 t = k0_pay7 (accAt0 V c t.val t.isLt).2 := by dsimp only [dat0]

/-! ## Region 1 -/

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body at point `t` each
    input's buffer at its block and the output's at the body's one payload of the three input blocks; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

end Regions

end Cert.KernelIdeal.Hand

end
-- ==== Proof.KI.Fold.lean ====
/-
  The buffer contents at every boundary between the segments of @main, as a fold from the launch memory: a stretch
  of host operations applies them in order; a region leaves its windows' arrays at what its write-backs leave and
  every other buffer as it found it. @main is: one reshape, region 0, the 88 host operations between the regions,
  region 1, one reshape.
-/
import proofs.«140310_j38826504356590_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the first reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the 88 host operations between the regions (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last reshape: the contents at the return. -/
abbrev W5 : Dev nD → Valuation τ sig (Elt F) := fun c => StableHlo.after hostOps2 (W4 m c)

end Cert.KernelIdeal.Hand

end
-- ==== Proof.KI.Run0A.lean ====
/-
  The first kernel's body at a point where its branch is taken (the first row tile of a group): both accumulators
  are reset to zero, the tile's column sum and Gram matrix are added, and both accumulators are copied to the output
  windows' staging buffers. Every load and store covers its whole buffer, so each buffer ends at one payload.
-/
import proofs.«140310_j38826504356590_1_alg».proof.Proof.KI.Setup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- The whole-buffer rectangles of the body's four stored buffers. -/
private abbrev r3 : Rect S1x1x512 := Rect.unit (s := S1x1x512) ![0, 0, 0] S1x1x512.size inb_S1x1x512_S1x1x512_0_0_0
private abbrev r4 : Rect S1x512x512 := Rect.unit (s := S1x512x512) ![0, 0, 0] S1x512x512.size inb_S1x512x512_S1x512x512_0_0_0
private abbrev r5 : Rect S1x512 := Rect.unit (s := S1x512) ![0, 0] S1x512.size inb_S1x512_S1x512_0_0
private abbrev r6 : Rect S512x512 := Rect.unit (s := S512x512) ![0, 0] S512x512.size inb_S512x512_S512x512_0_0

/-- A list of stores whose last one is through the whole-buffer rectangle covers the buffer. -/
private theorem cover3 (p : Vec F S1x1x512 .f32) (L : List (View.Piece (Elt F) S1x1x512 .f32)) (y : S1x1x512.Idx) :
    ∃ pc ∈ ((⟨r3, p⟩ : View.Piece (Elt F) S1x1x512 .f32) :: L), y ∈ pc.1.set :=
  ⟨_, List.mem_cons_self, View.mem_set_unit_zero (S := S1x1x512) hz3 inb_S1x1x512_S1x1x512_0_0_0 y⟩
private theorem cover4 (p : Vec F S1x512x512 .f32) (L : List (View.Piece (Elt F) S1x512x512 .f32)) (y : S1x512x512.Idx) :
    ∃ pc ∈ ((⟨r4, p⟩ : View.Piece (Elt F) S1x512x512 .f32) :: L), y ∈ pc.1.set :=
  ⟨_, List.mem_cons_self, View.mem_set_unit_zero (S := S1x512x512) hz3 inb_S1x512x512_S1x512x512_0_0_0 y⟩
private theorem cover5 (p : Vec F S1x512 .f32) (L : List (View.Piece (Elt F) S1x512 .f32)) (y : S1x512.Idx) :
    ∃ pc ∈ ((⟨r5, p⟩ : View.Piece (Elt F) S1x512 .f32) :: L), y ∈ pc.1.set :=
  ⟨_, List.mem_cons_self, View.mem_set_unit_zero (S := S1x512) hz2 inb_S1x512_S1x512_0_0 y⟩
private theorem cover6 (p : Vec F S512x512 .f32) (L : List (View.Piece (Elt F) S512x512 .f32)) (y : S512x512.Idx) :
    ∃ pc ∈ ((⟨r6, p⟩ : View.Piece (Elt F) S512x512 .f32) :: L), y ∈ pc.1.set :=
  ⟨_, List.mem_cons_self, View.mem_set_unit_zero (S := S512x512) hz2 inb_S512x512_S512x512_0_0 y⟩

/-- A load through the whole-buffer rectangle, after stores the last of which went through it, reads that last
    store's payload, whatever the earlier stores were. -/
private theorem readCov_cons_unit_zero {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

set_option maxHeartbeats 1000000 in
/-- The body where the branch is taken: from the input tile `x0` and any contents of the four other buffers, it runs
    to the continuation holding the accumulators one step from zeros and the outputs' buffers at their re-laid copies. -/
theorem sound_kernel0_A (c : Dev nD) (E : Set ℕ) (i : grid0.Coords)
    (arg2 : Memref sig .tc .vmem S1x2048x512 .f32) (harg2 : arg2.IsWhole) (arg3 : Memref sig .tc .vmem S1x1x512 .f32) (harg3 : arg3.IsWhole)
    (arg4 : Memref sig .tc .vmem S1x512x512 .f32) (harg4 : arg4.IsWhole) (arg5 : Memref sig .tc .vmem S1x512 .f32) (harg5 : arg5.IsWhole)
    (arg6 : Memref sig .tc .vmem S512x512 .f32) (harg6 : arg6.IsWhole) (hc : cond0 i)
    (x0 : Vec F S1x2048x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k0_pay6 (step0 x0 zero0).1)
            ∗ owns (c : Thread nD τ) arg4 fullShare (k0_pay7 (step0 x0 zero0).2)
            ∗ owns (c : Thread nD τ) arg5 fullShare (step0 x0 zero0).1 ∗ owns (c : Thread nD τ) arg6 fullShare (step0 x0 zero0).2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  unfold owns
  iintro ⟨⟨%f2, %hf2, H2⟩, ⟨%d3, %f3, -, H3⟩, ⟨%d4, %f4, -, H4⟩, ⟨%d5, %f5, -, H5⟩, ⟨%d6, %f6, -, H6⟩, Hk⟩
  obtain rfl := harg2.eq_unread hf2
  sl_exec (disch := first | exact hc)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (cover3 _ _)]
    sl_unfold_words
    rw [View.canon_unit_zero hz3, readCov_cons_unit_zero (S := S1x512) _ hz2, readCov_cons_unit_zero (S := S1x512) _ hz2]
    simp only [View.readAt_eq_ld, harg2.read_unread, View.ld_unit_zero (S := S1x2048x512) hz3]
  isplitl [H4]
  · iexists _; isplitr
    swap; · iexact H4
    ipureintro
    rw [View.read_writes_eq_canon _ _ _ (cover4 _ _)]
    sl_unfold_words
    rw [View.canon_unit_zero hz3, readCov_cons_unit_zero (S := S512x512) _ hz2, readCov_cons_unit_zero (S := S512x512) _ hz2]
    simp only [View.readAt_eq_ld, harg2.read_unread, View.ld_unit_zero (S := S1x2048x512) hz3]
  isplitl [H5]
  · iexists _; isplitr
    swap; · iexact H5
    ipureintro
    sl_unfold_words
    rw [View.read_writes_eq_canon _ _ _ (cover5 _ _), View.canon_cons_unit_zero (S := S1x512) hz2,
      readCov_cons_unit_zero (S := S1x512) _ hz2]
    simp only [View.readAt_eq_ld, harg2.read_unread, View.ld_unit_zero (S := S1x2048x512) hz3]
  · iexists _; isplitr
    swap; · iexact H6
    ipureintro
    sl_unfold_words
    rw [View.read_writes_eq_canon _ _ _ (cover6 _ _), View.canon_cons_unit_zero (S := S512x512) hz2,
      readCov_cons_unit_zero (S := S512x512) _ hz2]
    simp only [View.readAt_eq_ld, harg2.read_unread, View.ld_unit_zero (S := S1x2048x512) hz3]

end Cert.KernelIdeal.Hand

end
-- ==== Proof.KI.Run0B.lean ====
/-
  The first kernel's body at a point where its branch is not taken (a later row tile of a group): the tile's column
  sum and Gram matrix are added to what the accumulators hold, and both are copied to the output windows' buffers.
-/
import proofs.«140310_j38826504356590_1_alg».proof.Proof.KI.Setup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- The whole-buffer rectangles of the body's four stored buffers. -/
private abbrev r3 : Rect S1x1x512 := Rect.unit (s := S1x1x512) ![0, 0, 0] S1x1x512.size inb_S1x1x512_S1x1x512_0_0_0
private abbrev r4 : Rect S1x512x512 := Rect.unit (s := S1x512x512) ![0, 0, 0] S1x512x512.size inb_S1x512x512_S1x512x512_0_0_0
private abbrev r5 : Rect S1x512 := Rect.unit (s := S1x512) ![0, 0] S1x512.size inb_S1x512_S1x512_0_0
private abbrev r6 : Rect S512x512 := Rect.unit (s := S512x512) ![0, 0] S512x512.size inb_S512x512_S512x512_0_0

/-- A list of stores whose last one is through the whole-buffer rectangle covers the buffer. -/
private theorem cover3 (p : Vec F S1x1x512 .f32) (L : List (View.Piece (Elt F) S1x1x512 .f32)) (y : S1x1x512.Idx) :
    ∃ pc ∈ ((⟨r3, p⟩ : View.Piece (Elt F) S1x1x512 .f32) :: L), y ∈ pc.1.set :=
  ⟨_, List.mem_cons_self, View.mem_set_unit_zero (S := S1x1x512) hz3 inb_S1x1x512_S1x1x512_0_0_0 y⟩
private theorem cover4 (p : Vec F S1x512x512 .f32) (L : List (View.Piece (Elt F) S1x512x512 .f32)) (y : S1x512x512.Idx) :
    ∃ pc ∈ ((⟨r4, p⟩ : View.Piece (Elt F) S1x512x512 .f32) :: L), y ∈ pc.1.set :=
  ⟨_, List.mem_cons_self, View.mem_set_unit_zero (S := S1x512x512) hz3 inb_S1x512x512_S1x512x512_0_0_0 y⟩
private theorem cover5 (p : Vec F S1x512 .f32) (L : List (View.Piece (Elt F) S1x512 .f32)) (y : S1x512.Idx) :
    ∃ pc ∈ ((⟨r5, p⟩ : View.Piece (Elt F) S1x512 .f32) :: L), y ∈ pc.1.set :=
  ⟨_, List.mem_cons_self, View.mem_set_unit_zero (S := S1x512) hz2 inb_S1x512_S1x512_0_0 y⟩
private theorem cover6 (p : Vec F S512x512 .f32) (L : List (View.Piece (Elt F) S512x512 .f32)) (y : S512x512.Idx) :
    ∃ pc ∈ ((⟨r6, p⟩ : View.Piece (Elt F) S512x512 .f32) :: L), y ∈ pc.1.set :=
  ⟨_, List.mem_cons_self, View.mem_set_unit_zero (S := S512x512) hz2 inb_S512x512_S512x512_0_0 y⟩

set_option maxHeartbeats 1000000 in
/-- The body where the branch is not taken: from the input tile `x0` and the accumulators at `s`, it runs to the
    continuation holding the accumulators one step on and the outputs' buffers at their re-laid copies. -/
theorem sound_kernel0_B (c : Dev nD) (E : Set ℕ) (i : grid0.Coords)
    (arg2 : Memref sig .tc .vmem S1x2048x512 .f32) (harg2 : arg2.IsWhole) (arg3 : Memref sig .tc .vmem S1x1x512 .f32) (harg3 : arg3.IsWhole)
    (arg4 : Memref sig .tc .vmem S1x512x512 .f32) (harg4 : arg4.IsWhole) (arg5 : Memref sig .tc .vmem S1x512 .f32) (harg5 : arg5.IsWhole)
    (arg6 : Memref sig .tc .vmem S512x512 .f32) (harg6 : arg6.IsWhole) (hc : ¬cond0 i)
    (x0 : Vec F S1x2048x512 .f32) (s : Vec F S1x512 .f32 × Vec F S512x512 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s.1 ∗ owns (c : Thread nD τ) arg6 fullShare s.2
        ∗ (iprop(owns (c : Thread nD τ) arg2 fullShare x0 ∗ owns (c : Thread nD τ) arg3 fullShare (k0_pay6 (step0 x0 s).1)
            ∗ owns (c : Thread nD τ) arg4 fullShare (k0_pay7 (step0 x0 s).2)
            ∗ owns (c : Thread nD τ) arg5 fullShare (step0 x0 s).1 ∗ owns (c : Thread nD τ) arg6 fullShare (step0 x0 s).2) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  unfold owns
  iintro ⟨⟨%f2, %hf2, H2⟩, ⟨%d3, %f3, -, H3⟩, ⟨%d4, %f4, -, H4⟩, ⟨%f5, %hf5, H5⟩, ⟨%f6, %hf6, H6⟩, Hk⟩
  obtain rfl := harg2.eq_unread hf2; obtain rfl := harg5.eq_unread hf5; obtain rfl := harg6.eq_unread hf6
  sl_exec (disch := first | exact hc)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (cover3 _ _)]
    sl_unfold_words
    rw [View.canon_unit_zero hz3, View.readCov_unit_zero (S := S1x512) _ hz2]
    simp only [View.readAt_eq_ld, harg2.read_unread, harg5.read_unread, View.ld_unit_zero (S := S1x2048x512) hz3,
      View.ld_unit_zero (S := S1x512) hz2]
  isplitl [H4]
  · iexists _; isplitr
    swap; · iexact H4
    ipureintro
    rw [View.read_writes_eq_canon _ _ _ (cover4 _ _)]
    sl_unfold_words
    rw [View.canon_unit_zero hz3, View.readCov_unit_zero (S := S512x512) _ hz2]
    simp only [View.readAt_eq_ld, harg2.read_unread, harg6.read_unread, View.ld_unit_zero (S := S1x2048x512) hz3,
      View.ld_unit_zero (S := S512x512) hz2]
  isplitl [H5]
  · iexists _; isplitr
    swap; · iexact H5
    ipureintro
    sl_unfold_words
    rw [View.read_writes_eq_canon _ _ _ (cover5 _ _), View.canon_unit_zero hz2]
    simp only [View.readAt_eq_ld, harg2.read_unread, harg5.read_unread, View.ld_unit_zero (S := S1x2048x512) hz3,
      View.ld_unit_zero (S := S1x512) hz2]
  · iexists _; isplitr
    swap; · iexact H6
    ipureintro
    sl_unfold_words
    rw [View.read_writes_eq_canon _ _ _ (cover6 _ _), View.canon_unit_zero hz2]
    simp only [View.readAt_eq_ld, harg2.read_unread, harg6.read_unread, View.ld_unit_zero (S := S1x2048x512) hz3,
      View.ld_unit_zero (S := S512x512) hz2]

end Cert.KernelIdeal.Hand

end
-- ==== Proof.KI.Body0.lean ====
/-
  Region 0's body obligation: at every grid point the pipeline hands the body its input tile's block, the two output
  windows' current staging buffers at anything, and the invariant; the body's run (by the case its branch is in)
  gives back the invariant one point on and the staging buffers at the proof data's contents.
-/
import proofs.«140310_j38826504356590_1_alg».proof.Proof.KI.Run0A
import proofs.«140310_j38826504356590_1_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The invariant, position by position -/

/-- The eight staging buffers of the other pipeline, each whole at some contents: the part of the invariant that
    region 0 carries through every point unread. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before the first point the invariant is the class's. -/
theorem PhiS0_zero (c : Dev nD) (n : ℕ) (h : n ≤ cfg0.N) (hz : n = 0) : PhiS0 V c n h = Pipeline.ΦA spec0 c := by
  subst hz; rfl

/-- After point `n` (before point `n + 1`): the two accumulators at that point's contents. -/
theorem PhiS0_succ (c : Dev nD) (n : ℕ) (hn : n < cfg0.N) :
    PhiS0 V c (n + 1) hn = iprop(iprop(owns (c : Thread nD τ) scM0 fullShare ((accAt0 V c n hn).1) ∗ owns (c : Thread nD τ) scM1 fullShare ((accAt0 V c n hn).2)
      ∗ rest0 c) ∗ (∃ r, prngReg c r)) := rfl

/-- Before a point that is not the first: the two accumulators at what the point before left. -/
theorem PhiS0_pos (c : Dev nD) (n : ℕ) (h : n ≤ cfg0.N) (hz : n ≠ 0) :
    PhiS0 V c n h = iprop(iprop(owns (c : Thread nD τ) scM0 fullShare ((accAt0 V c (n - 1) (by omega)).1) ∗ owns (c : Thread nD τ) scM1 fullShare ((accAt0 V c (n - 1) (by omega)).2)
      ∗ rest0 c) ∗ (∃ r, prngReg c r)) := by
  cases n with
  | zero => exact absurd rfl hz
  | succ n => rfl

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- The class's invariant with the two accumulators as memrefs owned at some contents: the scoped rest enumerated,
    each whole buffer's points-to read as owning its whole memref. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 c) ∗ (∃ r, prngReg c r)) := by
  unfold Pipeline.ΦA; rw [scopedRest0_eq]; simp only [scM0, scM1, owns_whole]; try rfl

/-! ## The staging memrefs at a point, and what the input's holds -/

/-- Each window's current staging memref at point `t`, spelled as the pipeline passes it, and its wholeness. -/
abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)

/-- The input window's current staging buffer holds its block at every point, fetched there or not: the window is an
    input, uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`: the invariant, nothing owed, and the three windows' buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns: the invariant one point on, nothing owed, and every buffer at the proof data's contents
    (no window is idle anywhere, so each is at `after`). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point. The input's memref holds its block; the closed form of the branch condition says which
    case the point is in. Where the branch is taken (the first row tile of a group) the accumulators restart from
    zeros whatever they held: at the very first point the invariant hands them at anything, later at what the point
    before left, which is forgotten. Elsewhere the point is not the first, the invariant hands the accumulators at what
    the point before left, and the step continues from there. Either way the run returns the accumulators at this
    point's contents, which the invariant one point on takes, and the outputs' buffers at their re-laid copies; the
    other pipeline's staging buffers and the generator register pass through, and nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val % 8 = 0
  · rw [accAt0_reset V c t h0]
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply (sound_kernel0_A c Set.univ (grid0.coords t) (ms0_0 t) (hs0_0 t) (ms0_1 t) (hs0_1 t) (ms0_2 t) (hs0_2 t)
        scM0 (Memref.isWhole_whole _) scM1 (Memref.isWhole_whole _) ((hcond0 t).mpr h0) (iblk0 V c 0 t) _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply (sound_kernel0_A c Set.univ (grid0.coords t) (ms0_0 t) (hs0_0 t) (ms0_1 t) (hs0_1 t) (ms0_2 t) (hs0_2 t)
        scM0 (Memref.isWhole_whole _) scM1 (Memref.isWhole_whole _) ((hcond0 t).mpr h0) (iblk0 V c 0 t) _)
      isplitl [H0]; · iexact H0
      isplitl [H1]; · iexists _; iexact H1
      isplitl [H2]; · iexists _; iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
  · have hz : t.val ≠ 0 := fun h => h0 (by rw [h])
    rw [accAt0_acc V c t h0]
    rw [PhiS0_castSucc V c t, PhiS0_pos V c _ _ hz]
    iintro ⟨⟨⟨HS0, HS1, HR⟩, Hg⟩, Ho, ⟨%d0, H0⟩, ⟨%d1, H1⟩, ⟨%d2, H2⟩⟩
    iapply (sound_kernel0_B c Set.univ (grid0.coords t) (ms0_0 t) (hs0_0 t) (ms0_1 t) (hs0_1 t) (ms0_2 t) (hs0_2 t)
      scM0 (Memref.isWhole_whole _) scM1 (Memref.isWhole_whole _) (fun h => h0 ((hcond0 t).mp h)) (iblk0 V c 0 t)
      (accAt0 V c (t.val - 1) (Nat.lt_of_le_of_lt (Nat.sub_le _ _) t.isLt)) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    iexact H2

/-- The library's body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- After the last point the invariant gives the class's back: the accumulators' named contents are forgotten. -/
theorem hout0 (c : Dev nD) : (dat0 V c).Φ (Fin.last cfg0.N) ⊢ Pipeline.ΦA spec0 c :=
  Phi_out0 V c _ (by rw [Fin.val_last]; have : cfg0.N = 32 := N_0; omega)

end Regions

end Cert.KernelIdeal.Hand

end
-- ==== Proof.KI.Run1.lean ====
/-
  The second kernel's body: it loads its three input blocks whole (a row tile, the group's mean row, the group's
  512 x 512 factor), and stores one payload over the whole output block.
-/
import proofs.«140310_j38826504356590_1_alg».proof.Proof.KI.Setup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-three rectangle are the constant zero function. -/
theorem off1_zero : (![0, 0, 0] : Fin 3 → ℕ) = fun _ => 0 := funext fun a => by fin_cases a <;> rfl

/-- The output block's whole rectangle: zero offsets, the block's own sizes. -/
abbrev r1_out : Rect S1x2048x512 := Rect.unit (s := S1x2048x512) ![0, 0, 0] S1x2048x512.size inb_S1x2048x512_S1x2048x512_0_0_0

/-- One store through the whole rectangle covers the block: every index lies in it. -/
theorem cover1_3 (p : Vec F S1x2048x512 .f32) (y : S1x2048x512.Idx) :
    ∃ pc ∈ ([⟨r1_out, p⟩] : List (View.Piece (Elt F) S1x2048x512 .f32)), y ∈ pc.1.set :=
  ⟨_, List.mem_singleton_self _, View.mem_set_unit_zero off1_zero inb_S1x2048x512_S1x2048x512_0_0_0 y⟩

set_option maxHeartbeats 1000000 in
/-- The body on whole staging memrefs, the inputs' at `x0`, `x1`, `x2` and the output's at anything, runs to the
    continuation holding the inputs' as they were and the output's at the body's payload of the three. -/
theorem sound_kernel1 (c : Dev nD) (E : Set ℕ) (i : grid1.Coords)
    (arg2 : Memref sig .tc .vmem S1x2048x512 .f32) (harg2 : arg2.IsWhole) (arg3 : Memref sig .tc .vmem S1x1x512 .f32) (harg3 : arg3.IsWhole)
    (arg4 : Memref sig .tc .vmem S1x512x512 .f32) (harg4 : arg4.IsWhole) (arg5 : Memref sig .tc .vmem S1x2048x512 .f32) (harg5 : arg5.IsWhole)
    (x0 : Vec F S1x2048x512 .f32) (x1 : Vec F S1x1x512 .f32) (x2 : Vec F S1x512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__apply_kernel i arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the read-back of one covering store is its payload; the payload's three loads, through whole rectangles, read the contents
  rw [View.read_writes_eq_canon _ _ _ (cover1_3 _), View.canon_unit_zero off1_zero]
  simp only [View.readAt_eq_ld, View.ld_unit_zero (S := S1x2048x512) off1_zero, View.ld_unit_zero (S := S1x1x512) off1_zero,
    View.ld_unit_zero (S := S1x512x512) off1_zero]

end Cert.KernelIdeal.Hand

end
-- ==== Proof.KI.Body1.lean ====
/-
  Region 1's body obligation: at every grid point the three input windows' current staging buffers hold their blocks
  (fetched at this point or left from an earlier one: the mean row and the factor are fetched once per group), the
  body's run leaves the output's buffer at its payload, and the invariant passes through unread.
-/
import proofs.«140310_j38826504356590_1_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds its block at every point (it is fetched at every point), for any
    proof data whose array is `V`'s and whose body leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the group's mean row) is fetched only at the first row tile of a group. At a later tile its
    buffer holds what the body left at the tile before, which is that tile's block, and the block index `(g, 0, 0)`
    has not moved since: so the buffer holds this point's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the group's 512 x 512 factor), fetched once per group like the mean row: the same argument. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debt, and the four windows' current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, so the kernel's triple applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of pipeline 1, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Main.lean ====
/-
  The launch: @main as five segments (a reshape, region 0, the host operations between, region 1, a reshape) run by
  the library's theorem for a list of segments; every unscoped buffer ends at the fold's last contents, and the
  argument array reads back through the fold to its launch contents.
-/
import proofs.«140310_j38826504356590_1_alg».proof.Proof.KI.Fold
import proofs.«140310_j38826504356590_1_alg».proof.Proof.KI.Body0
import proofs.«140310_j38826504356590_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument array is written by no host operation and by no region (both regions only read it, through the
    reshaped copy): the fold at its buffer walks back to the launch memory. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data of both pipelines and what rides beside the buffers -/

/-- No pipeline has a prefetched table. -/
abbrev adm : (p : Fin 2) → (pcfgs (F := F) p).Adm := fun p => (cfgs p).toPCfg_adm
/-- Each pipeline's proof data at the contents its region is entered from: pipeline 0 after the first reshape,
    pipeline 1 after the host operations between the regions. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state and its debt, at nothing. -/
abbrev R (c : Dev nD) : sProp 𝕄 := iprop((∃ r, prngReg c r) ∗ ∃ W, owes (c : Thread nD τ) (0 : CellTallies nD τ sig Unit) W)
/-- A stretch of host operations over the unscoped buffers at the contents `W`: it leaves them at the operations
    applied in order. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the three stretches allocates a buffer. -/
theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, without the debt: every unscoped buffer at the fold's last contents, the generator
    register at some state. -/
abbrev Tₙ (c : Dev nD) : sProp 𝕄 := iprop(StableHlo.held (c : Thread nD τ) (Pipeline.ucRefs τ sig) (W5 m c) ∗ ∃ r, prngReg c r)

/-! ## The two regions -/

set_option backward.isDefEq.respectTransparency.types false in
/-- Region 0: entered from the unscoped buffers at `W1`, left at `W2`. Its three arrays are split out of the unscoped
    buffers and put back at what the write-backs leave; the generator register and the kernel's scoped buffers make the
    invariant before the first point, and the invariant after the last gives them back with the accumulators' contents
    forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (V1 m) c
    refine BIBase.Entails.trans ?_ h
    unfold Pipeline.ΦA
    iintro ⟨Hp, -, Hr⟩
    isplitl [Hr]; · iexact Hr
    iexact Hp
  hout c := by
    have h : (pdats m 0 c).Φ (Fin.last _) ⊢ Pipeline.ΦA spec0 c := hout0 (V1 m) c
    refine BIBase.Entails.trans h ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the unscoped buffers at `W3`, left at `W4` (what the last reshape is run from). Its four
    arrays are split out and put back as region 0's; its invariant is the class's at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as five segments, and the launch -/

/-- @main in order: the first reshape from the launch contents, region 0, the host operations between the regions
    from region 0's exit contents, region 1, the last reshape from region 1's exit contents. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the five segments: it is the chain of its five items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped TensorCore buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (W5 m c) ∗ R c)
          ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W5_main_arg0 m c)) (run_all m ρ)

end Cert.KernelIdeal.Hand

end
-- ==== Proof.Val.Stats.lean ====
/-
  What region 0 leaves in its two output arrays, read at an index over the extended reals. Group g's block of each
  output is written back once, after the group's last row tile, with the accumulators' contents there: the fold over
  the group's eight tiles of 2048 rows, from zero, of each tile's column sums (for the 4 x 1 x 512 array) and of each
  tile's products z[r,d] * z[r,e] summed over its rows (for the 4 x 512 x 512 array). A sum over eight tiles of 2048
  rows is the sum over all 16384 rows of the group (addition of extended reals is commutative and associative).

  The steps: one grid point's update of each accumulator at an index (a sum along the rows of the tile; a product of
  the tile's transpose with the tile, its contraction re-indexed by the row); the tile a point reads as rows
  2048 n .. 2048 n + 2047 of its group; by induction on the tile's offset n in the group, the accumulators after point
  8 g + n as sums over the first n + 1 tiles; eight tiles of 2048 rows re-indexed as 16384 rows; and the arrays from
  their blocks: each group's block is written back at point 8 g + 7 and the four blocks cover each array.
-/
import proofs.«140310_j38826504356590_1_alg».proof.Proof.KI.Setup
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

namespace Stats

/-! ## One grid point's step on the two accumulators, read at an index -/

/-- The reset value of the column-sum accumulator is zero everywhere. -/
theorem zero_sum_apply (e : Fin 512) : (k0_pay1 (F := Ideal)) (ix2 (0 : Fin 1) e) = 0 := by
  unfold k0_pay1
  rw [shapeCast_self]
  exact Ideal.ofBits_zero_f32

/-- The reset value of the Gram accumulator is zero everywhere. -/
theorem zero_gram_apply (d e : Fin 512) : (k0_pay2 (F := Ideal)) (ix2 d e) = 0 := by
  unfold k0_pay2
  rw [shapeCast_self]
  exact Ideal.ofBits_zero_f32

/-- The row tile with its leading unit axis dropped: entry (r, e) is entry (0, r, e). -/
theorem tile_cast_apply (x : Vec Ideal S1x2048x512 .f32) (r : Fin 2048) (e : Fin 512) :
    k0_pay3 x (ix2 r e) = x (ix3 (0 : Fin 1) r e) := by
  unfold k0_pay3
  exact shapeCast_1ab_ab_apply x _ r e

/-- The index the reduction along the rows reads for column `e` at row `r`. -/
theorem lift_row (h : S2048x512.Reduces [0] S512) (e : Fin 512) (r : Fin 2048) :
    h.lift (ix1 e) r = ix2 r e := by
  funext a
  match a with
  | ⟨0, _⟩ => exact Fin.ext rfl
  | ⟨1, _⟩ => exact Fin.ext rfl

/-- A sum along the rows of a 2048 x 512 matrix, read at column `e`. -/
theorem colsum_apply (M : FVec Ideal S2048x512 .f32) (h : S2048x512.Reduces [0] S512) (hφ : FKind.Formats FTy.f32)
    (hacc : (0x00000000#32 : BitVec 32) = 0x00000000#32) (e : Fin 512) :
    multiReduction (F := Ideal) .add [0] S512 M 0x00000000#32 h hφ hacc (ix1 e) = ∑ r : Fin 2048, M (ix2 r e) := by
  refine (Ideal.multiReduction_add_single M 0x00000000#32 h hφ hacc (ix1 e)).trans ?_
  exact Finset.sum_congr rfl fun r _ => congrArg M (lift_row h e r)

/-- THE COLUMN-SUM STEP: the new accumulator at column `e` is the old one plus the tile's column sum. -/
theorem colsum_step (x : Vec Ideal S1x2048x512 .f32) (s : Vec Ideal S1x512 .f32) (e : Fin 512) :
    k0_pay4 x s (ix2 (0 : Fin 1) e) = s (ix2 (0 : Fin 1) e) + ∑ r : Fin 2048, x (ix3 (0 : Fin 1) r e) := by
  unfold k0_pay4
  rw [shapeCast_self]
  refine (addf_apply s _ (ix2 (0 : Fin 1) e)).trans ?_
  refine congrArg (s (ix2 (0 : Fin 1) e) + ·) ?_
  refine (shapeCast_a_1a_apply _ _ (0 : Fin 1) e).trans ?_
  refine (colsum_apply (k0_pay3 x) _ _ _ e).trans ?_
  exact Finset.sum_congr rfl fun r _ => tile_cast_apply x r e

/-! ## The product of a tile's transpose with the tile: contraction over the rows of both operands -/

/-- The dimension numbers of that product: both operands contracted on their rows, no batch axis. -/
abbrev rowsDot : DotDims S2048x512 S2048x512 S512x512 := dot_S2048x512_S2048x512_S512x512_0_0_1_1_n_n

/-- The left operand's row is the contraction position. -/
theorem rowsDot_lhs_row (i : S512x512.Idx) (q : dot_S2048x512_S2048x512_S512x512_0_0_1_1_n_n.contr.Idx) :
    (dot_S2048x512_S2048x512_S512x512_0_0_1_1_n_n.lhsIdx i q 0).val = (q ⟨0, Nat.one_pos⟩).val :=
  dot_S2048x512_S2048x512_S512x512_0_0_1_1_n_n.lhsIdx_val_of_single rfl i q

/-- The left operand's column is the result's row. -/
theorem rowsDot_lhs_col (i : S512x512.Idx) (q : dot_S2048x512_S2048x512_S512x512_0_0_1_1_n_n.contr.Idx) :
    (dot_S2048x512_S2048x512_S512x512_0_0_1_1_n_n.lhsIdx i q 1).val = (i 0).val := by
  unfold DotDims.lhsIdx
  rw [dif_neg (show ¬(1 : Fin S2048x512.rank) ∈ dot_S2048x512_S2048x512_S512x512_0_0_1_1_n_n.lhsBatch from fun h => nomatch h),
    dif_pos (show (1 : Fin S2048x512.rank) ∈ dot_S2048x512_S2048x512_S512x512_0_0_1_1_n_n.lhsNonContracting from List.mem_singleton.mpr rfl)]
  rfl

/-- The right operand's row is the contraction position. -/
theorem rowsDot_rhs_row (i : S512x512.Idx) (q : dot_S2048x512_S2048x512_S512x512_0_0_1_1_n_n.contr.Idx) :
    (dot_S2048x512_S2048x512_S512x512_0_0_1_1_n_n.rhsIdx i q 0).val = (q ⟨0, Nat.one_pos⟩).val :=
  dot_S2048x512_S2048x512_S512x512_0_0_1_1_n_n.rhsIdx_val_of_single rfl i q

/-- The right operand's column is the result's column. -/
theorem rowsDot_rhs_col (i : S512x512.Idx) (q : dot_S2048x512_S2048x512_S512x512_0_0_1_1_n_n.contr.Idx) :
    (dot_S2048x512_S2048x512_S512x512_0_0_1_1_n_n.rhsIdx i q 1).val = (i 1).val := by
  unfold DotDims.rhsIdx
  rw [dif_neg (show ¬(1 : Fin S2048x512.rank) ∈ dot_S2048x512_S2048x512_S512x512_0_0_1_1_n_n.rhsBatch from fun h => nomatch h),
    dif_pos (show (1 : Fin S2048x512.rank) ∈ dot_S2048x512_S2048x512_S512x512_0_0_1_1_n_n.rhsNonContracting from List.mem_singleton.mpr rfl)]
  rfl

/-- The sum over the product's contraction index, re-indexed by the row `r`, with the operands read at (r, d) and (r, e). -/
theorem rowsDot_sum {φ₁ φ₂ : FTy} (A : FVec Ideal S2048x512 φ₁) (B : FVec Ideal S2048x512 φ₂) (d e : Fin 512) :
    (∑ q : rowsDot.contr.Idx, A (rowsDot.lhsIdx (ix2 d e) q) * B (rowsDot.rhsIdx (ix2 d e) q))
      = ∑ r : Fin 2048, A (ix2 r d) * B (ix2 r e) := by
  rw [← Equiv.sum_comp (contrEquiv1 rowsDot 2048 rfl rfl).symm]
  refine Finset.sum_congr rfl fun r _ => ?_
  have hr := contrEquiv1_symm_val rowsDot 2048 rfl rfl r
  have el : rowsDot.lhsIdx (ix2 d e) ((contrEquiv1 rowsDot 2048 rfl rfl).symm r) = ix2 r d :=
    funext fun a => Fin.ext (by
      match a with
      | ⟨0, _⟩ => exact (rowsDot_lhs_row _ _).trans hr
      | ⟨1, _⟩ => exact rowsDot_lhs_col _ _)
  have er : rowsDot.rhsIdx (ix2 d e) ((contrEquiv1 rowsDot 2048 rfl rfl).symm r) = ix2 r e :=
    funext fun a => Fin.ext (by
      match a with
      | ⟨0, _⟩ => exact (rowsDot_rhs_row _ _).trans hr
      | ⟨1, _⟩ => exact rowsDot_rhs_col _ _)
  rw [el, er]

/-- That product accumulated into a zero array, read at (d, e). -/
theorem rowsDot_zero_apply {φ₁ φ₂ : FTy} (prec : Option ContractPrecision) (A : FVec Ideal S2048x512 φ₁)
    (B : FVec Ideal S2048x512 φ₂) (d e : Fin 512) :
    FloatOps.matmul rowsDot prec A B (constant S512x512 .f32 0x00000000#32) (ix2 d e)
      = ∑ r : Fin 2048, A (ix2 r d) * B (ix2 r e) := by
  rw [Ideal.matmul_constant_zero_apply]
  exact rowsDot_sum A B d e

/-- THE GRAM STEP: the new accumulator at (d, e) is the old one plus the tile's sum over its rows of the products. -/
theorem gram_step (x : Vec Ideal S1x2048x512 .f32) (S : Vec Ideal S512x512 .f32) (d e : Fin 512) :
    k0_pay5 x S (ix2 d e) = S (ix2 d e) + ∑ r : Fin 2048, x (ix3 (0 : Fin 1) r d) * x (ix3 (0 : Fin 1) r e) := by
  unfold k0_pay5
  rw [shapeCast_self]
  refine (addf_apply S _ (ix2 d e)).trans ?_
  refine congrArg (S (ix2 d e) + ·) ?_
  refine (rowsDot_zero_apply none _ _ d e).trans ?_
  refine Finset.sum_congr rfl fun r _ => ?_
  show k0_pay3 x (ix2 r d) * k0_pay3 x (ix2 r e) = _
  rw [tile_cast_apply, tile_cast_apply]

end Stats

variable (V : (c : Dev nD) → (b : Ref sig .tc) → Buf (Elt Ideal) ((c : Thread nD τ).loc b))

/-- The reshaped input as region 0 finds it, and the two arrays it leaves, each at its literal type. -/
abbrev zArr0 (c : Dev nD) : FVec Ideal S4x16384x512 .f32 := V c main_v0
abbrev sumArr (c : Dev nD) : FVec Ideal S4x1x512 .f32 := (dat0 V c).arrAt 1 cfg0.N
abbrev gramArr (c : Dev nD) : FVec Ideal S4x512x512 .f32 := (dat0 V c).arrAt 2 cfg0.N

namespace Stats

/-! ## The row tile a grid point reads, and the two accumulators re-laid to the outputs' blocks -/

/-- The row tile region 0 reads at point `t`, at its literal type. -/
abbrev tile0 (c : Dev nD) (t : Fin cfg0.N) : Vec Ideal S1x2048x512 .f32 := iblk0 V c 0 t

/-- The input window's index map over the grid: point `t` reads block (t / 8, t % 8, 0). -/
theorem in_index : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- The tile at point `t` read at (0, r, e) is the input at group t / 8, row 2048 (t % 8) + r, column e. -/
theorem tile0_apply (c : Dev nD) (t : Fin cfg0.N) (r : Fin 2048) (e : Fin 512) (g : Fin 4) (ρ : Fin 16384)
    (hg : g.val = t.val / 8) (hρ : ρ.val = 2048 * (t.val % 8) + r.val) :
    tile0 V c t (ix3 (0 : Fin 1) r e) = zArr0 V c (ix3 g ρ e) := by
  obtain ⟨i0, i1, i2⟩ := in_index t
  show iblk0 V c 0 t (ix3 (0 : Fin 1) r e) = _
  unfold iblk0
  rw [View.read_apply]
  show V c main_v0 _ = V c main_v0 _
  congr 1
  funext a
  apply Fin.ext
  match a with
  | ⟨0, _⟩ => show win0_0.index t (0 : Fin 3) * 1 + 1 * 0 = g.val; omega
  | ⟨1, _⟩ => show win0_0.index t (1 : Fin 3) * 2048 + 1 * r.val = ρ.val; omega
  | ⟨2, _⟩ => show win0_0.index t (2 : Fin 3) * 512 + 1 * e.val = e.val; omega

/-- The column-sum accumulator laid as a 1 x 1 x 512 block. -/
theorem out_sum_apply (v : Vec Ideal S1x512 .f32) (u o : Fin 1) (e : Fin 512) :
    k0_pay6 v (ix3 u o e) = v (ix2 o e) := by
  unfold k0_pay6
  exact shapeCast_ab_1ab_apply v _ u o e

/-- The Gram accumulator laid as a 1 x 512 x 512 block. -/
theorem out_gram_apply (v : Vec Ideal S512x512 .f32) (u : Fin 1) (d e : Fin 512) :
    k0_pay7 v (ix3 u d e) = v (ix2 d e) := by
  unfold k0_pay7
  exact shapeCast_ab_1ab_apply v _ u d e

/-! ## The accumulators after the first n + 1 tiles of a group -/

/-- Row `r` of tile `k` among a group's 16384 rows. -/
abbrev rowOf (k : Fin 8) (r : Fin 2048) : Fin 16384 :=
  ⟨2048 * k.val + r.val, by have := k.isLt; have := r.isLt; omega⟩

/-- Tile `k`'s column sum at column `e`, in group `g`. -/
def colTile (c : Dev nD) (g : Fin 4) (e : Fin 512) (k : Fin 8) : EReal :=
  ∑ r : Fin 2048, zArr0 V c (ix3 g (rowOf k r) e)

/-- Tile `k`'s sum over its rows of the products of columns `d` and `e`, in group `g`. -/
def gramTile (c : Dev nD) (g : Fin 4) (d e : Fin 512) (k : Fin 8) : EReal :=
  ∑ r : Fin 2048, zArr0 V c (ix3 g (rowOf k r) d) * zArr0 V c (ix3 g (rowOf k r) e)

/-- The tile read at point 8 g + k sums, along its rows, to tile `k`'s column sum. -/
theorem tile_colsum (c : Dev nD) (g : Fin 4) (k : Fin 8) (p : ℕ) (hp : p < cfg0.N) (hpk : p = 8 * g.val + k.val)
    (e : Fin 512) : ∑ r : Fin 2048, tile0 V c ⟨p, hp⟩ (ix3 (0 : Fin 1) r e) = colTile V c g e k := by
  unfold colTile
  have hk := k.isLt
  refine Finset.sum_congr rfl fun r _ => tile0_apply V c ⟨p, hp⟩ r e g (rowOf k r) ?_ ?_
  · show g.val = p / 8; omega
  · show 2048 * k.val + r.val = 2048 * (p % 8) + r.val; omega

/-- The same for the products of two columns. -/
theorem tile_gramsum (c : Dev nD) (g : Fin 4) (k : Fin 8) (p : ℕ) (hp : p < cfg0.N) (hpk : p = 8 * g.val + k.val)
    (d e : Fin 512) :
    ∑ r : Fin 2048, tile0 V c ⟨p, hp⟩ (ix3 (0 : Fin 1) r d) * tile0 V c ⟨p, hp⟩ (ix3 (0 : Fin 1) r e)
      = gramTile V c g d e k := by
  unfold gramTile
  have hk := k.isLt
  have hread : ∀ (r : Fin 2048) (e : Fin 512), tile0 V c ⟨p, hp⟩ (ix3 (0 : Fin 1) r e) = zArr0 V c (ix3 g (rowOf k r) e) :=
    fun r e => tile0_apply V c ⟨p, hp⟩ r e g (rowOf k r) (by show g.val = p / 8; omega)
      (by show 2048 * k.val + r.val = 2048 * (p % 8) + r.val; omega)
  exact Finset.sum_congr rfl fun r _ => by rw [hread r d, hread r e]

/-- THE FOLD: after the tile at offset `n` of group `g` (point 8 g + n) the two accumulators hold the sums of the
    first n + 1 tiles' column sums and products. -/
theorem acc_fold (c : Dev nD) (g : Fin 4) : ∀ (n : ℕ) (hn : n < 8) (p : ℕ) (hp : p < cfg0.N), p = 8 * g.val + n →
    (∀ e : Fin 512, (accAt0 V c p hp).1 (ix2 (0 : Fin 1) e) = ∑ k : Fin (n + 1), colTile V c g e ⟨k.val, by have := k.isLt; omega⟩)
    ∧ (∀ d e : Fin 512, (accAt0 V c p hp).2 (ix2 d e) = ∑ k : Fin (n + 1), gramTile V c g d e ⟨k.val, by have := k.isLt; omega⟩)
  | 0, hn, p, hp, hpn => by
    have hacc : accAt0 V c p hp = step0 (tile0 V c ⟨p, hp⟩) zero0 :=
      accAt0_reset V c ⟨p, hp⟩ (by show p % 8 = 0; omega)
    refine ⟨fun e => ?_, fun d e => ?_⟩
    · rw [hacc, Fin.sum_univ_one]
      refine (colsum_step (tile0 V c ⟨p, hp⟩) (k0_pay1 (F := Ideal)) e).trans ?_
      rw [zero_sum_apply, zero_add]
      exact tile_colsum V c g ⟨0, hn⟩ p hp hpn e
    · rw [hacc, Fin.sum_univ_one]
      refine (gram_step (tile0 V c ⟨p, hp⟩) (k0_pay2 (F := Ideal)) d e).trans ?_
      rw [zero_gram_apply, zero_add]
      exact tile_gramsum V c g ⟨0, hn⟩ p hp hpn d e
  | n + 1, hn, p, hp, hpn => by
    obtain ⟨p', rfl⟩ : ∃ p', p = p' + 1 := ⟨8 * g.val + n, by omega⟩
    have hp' : p' < cfg0.N := Nat.lt_of_succ_lt hp
    have hacc : accAt0 V c (p' + 1) hp = step0 (tile0 V c ⟨p' + 1, hp⟩) (accAt0 V c p' hp') :=
      if_neg (by omega)
    obtain ⟨ih1, ih2⟩ := acc_fold c g n (by omega) p' hp' (by omega)
    refine ⟨fun e => ?_, fun d e => ?_⟩
    · rw [hacc, Fin.sum_univ_castSucc]
      refine (colsum_step (tile0 V c ⟨p' + 1, hp⟩) (accAt0 V c p' hp').1 e).trans ?_
      rw [ih1 e, tile_colsum V c g ⟨n + 1, hn⟩ (p' + 1) hp hpn e]
      rfl
    · rw [hacc, Fin.sum_univ_castSucc]
      refine (gram_step (tile0 V c ⟨p' + 1, hp⟩) (accAt0 V c p' hp').2 d e).trans ?_
      rw [ih2 d e, tile_gramsum V c g ⟨n + 1, hn⟩ (p' + 1) hp hpn d e]
      rfl

/-- A sum over eight tiles of 2048 rows is the sum over the 16384 rows. -/
theorem sum_tiles (f : Fin 16384 → EReal) : ∑ k : Fin 8, ∑ r : Fin 2048, f (rowOf k r) = ∑ ρ : Fin 16384, f ρ := by
  rw [← Equiv.sum_comp (finProdFinEquiv : Fin 8 × Fin 2048 ≃ Fin (8 * 2048)) f, Fintype.sum_prod_type]
  refine Finset.sum_congr rfl fun k _ => Finset.sum_congr rfl fun r _ => congrArg f (Fin.ext ?_)
  show 2048 * k.val + r.val = r.val + 2048 * k.val
  omega

/-- After a group's last tile (point 8 g + 7) the column-sum accumulator holds the sum over all the group's rows. -/
theorem acc_last_sum (c : Dev nD) (g : Fin 4) (p : ℕ) (hp : p < cfg0.N) (hpg : p = 8 * g.val + 7) (e : Fin 512) :
    (accAt0 V c p hp).1 (ix2 (0 : Fin 1) e) = ∑ ρ : Fin 16384, zArr0 V c (ix3 g ρ e) := by
  rw [(acc_fold V c g 7 (by omega) p hp hpg).1 e, ← sum_tiles]
  rfl

/-- And the Gram accumulator the sum over all the group's rows of the products. -/
theorem acc_last_gram (c : Dev nD) (g : Fin 4) (p : ℕ) (hp : p < cfg0.N) (hpg : p = 8 * g.val + 7) (d e : Fin 512) :
    (accAt0 V c p hp).2 (ix2 d e) = ∑ ρ : Fin 16384, zArr0 V c (ix3 g ρ d) * zArr0 V c (ix3 g ρ e) := by
  rw [(acc_fold V c g 7 (by omega) p hp hpg).2 d e,
    ← sum_tiles (fun ρ => zArr0 V c (ix3 g ρ d) * zArr0 V c (ix3 g ρ e))]
  rfl

/-! ## The two output arrays after the region -/

/-- The output windows' index maps over the grid: point `t` holds block (t / 8, 0, 0) of each. -/
theorem out_index : ∀ t : Fin cfg0.N, win0_1.index t (0 : Fin 3) = t.val / 8 ∧ win0_1.index t (1 : Fin 3) = 0
    ∧ win0_1.index t (2 : Fin 3) = 0 ∧ win0_2.index t (0 : Fin 3) = t.val / 8 ∧ win0_2.index t (1 : Fin 3) = 0
    ∧ win0_2.index t (2 : Fin 3) = 0 :=
  (by decide +kernel : ∀ t : Fin grid0.N, _)

/-- What the first output array ends holding: at (g, 0, e) the sum over group `g`'s rows of column `e`. -/
def sumG (c : Dev nD) : FVec Ideal S4x1x512 .f32 :=
  fun i => ∑ ρ : Fin 16384, zArr0 V c (ix3 (i 0 : Fin 4) ρ (i 2 : Fin 512))

/-- What the second ends holding: at (g, d, e) the sum over group `g`'s rows of the products of columns `d` and `e`. -/
def gramG (c : Dev nD) : FVec Ideal S4x512x512 .f32 :=
  fun i => ∑ ρ : Fin 16384, zArr0 V c (ix3 (i 0 : Fin 4) ρ (i 1 : Fin 512)) * zArr0 V c (ix3 (i 0 : Fin 4) ρ (i 2 : Fin 512))

/-- The column-sum block a group's last point leaves, read at `j`, is the first array's function at the index
    under it. -/
theorem sum_block_apply (c : Dev nD) (t : Fin cfg0.N) (h7 : t.val % 8 = 7) (j : S1x1x512.Idx) (i : S4x1x512.Idx)
    (hi0 : (i 0).val = t.val / 8) (hi2 : (i 2).val = (j 2).val) :
    k0_pay6 (accAt0 V c t.val t.isLt).1 j = sumG V c i := by
  have hN : cfg0.N = 32 := N_0
  have hlt := t.isLt
  obtain ⟨u, o, e, rfl⟩ : ∃ (u o : Fin 1) (e : Fin 512), j = ix3 u o e := ⟨j 0, j 1, j 2, eq_ix3 j⟩
  obtain rfl : o = 0 := Subsingleton.elim _ _
  refine (out_sum_apply _ u 0 e).trans ?_
  refine (acc_last_sum V c ⟨t.val / 8, by omega⟩ t.val t.isLt (by show t.val = 8 * (t.val / 8) + 7; omega) e).trans ?_
  unfold sumG
  refine Finset.sum_congr rfl fun ρ _ => congrArg (zArr0 V c) (funext fun a => ?_)
  match a with
  | ⟨0, _⟩ => exact Fin.ext hi0.symm
  | ⟨1, _⟩ => rfl
  | ⟨2, _⟩ => exact Fin.ext hi2.symm

/-- The same for the Gram block. -/
theorem gram_block_apply (c : Dev nD) (t : Fin cfg0.N) (h7 : t.val % 8 = 7) (j : S1x512x512.Idx) (i : S4x512x512.Idx)
    (hi0 : (i 0).val = t.val / 8) (hi1 : (i 1).val = (j 1).val) (hi2 : (i 2).val = (j 2).val) :
    k0_pay7 (accAt0 V c t.val t.isLt).2 j = gramG V c i := by
  have hN : cfg0.N = 32 := N_0
  have hlt := t.isLt
  obtain ⟨u, d, e, rfl⟩ : ∃ (u : Fin 1) (d e : Fin 512), j = ix3 u d e := ⟨j 0, j 1, j 2, eq_ix3 j⟩
  refine (out_gram_apply _ u d e).trans ?_
  refine (acc_last_gram V c ⟨t.val / 8, by omega⟩ t.val t.isLt (by show t.val = 8 * (t.val / 8) + 7; omega) d e).trans ?_
  unfold gramG
  have e1 : ∀ ρ : Fin 16384, (ix3 (⟨t.val / 8, by omega⟩ : Fin 4) ρ d : S4x16384x512.Idx) = ix3 (i 0 : Fin 4) ρ (i 1 : Fin 512) :=
    fun ρ => funext fun a => by
      match a with
      | ⟨0, _⟩ => exact Fin.ext hi0.symm
      | ⟨1, _⟩ => rfl
      | ⟨2, _⟩ => exact Fin.ext hi1.symm
  have e2 : ∀ ρ : Fin 16384, (ix3 (⟨t.val / 8, by omega⟩ : Fin 4) ρ e : S4x16384x512.Idx) = ix3 (i 0 : Fin 4) ρ (i 2 : Fin 512) :=
    fun ρ => funext fun a => by
      match a with
      | ⟨0, _⟩ => exact Fin.ext hi0.symm
      | ⟨1, _⟩ => rfl
      | ⟨2, _⟩ => exact Fin.ext hi2.symm
  exact Finset.sum_congr rfl fun ρ _ =>
    congrArg₂ (· * ·) (congrArg (zArr0 V c) (e1 ρ)) (congrArg (zArr0 V c) (e2 ρ))

/-- Any contents of the first array read through point `t`'s block, at `j`: the contents at the index under `j`. -/
theorem read_blk_sum (t : Fin cfg0.N) (G : FVec Ideal S4x1x512 .f32) (j : ((cfg0.win 1).xblock (cfg0.grid.coords t)).Idx) :
    ((cfg0.win 1).blk t).view.read (Elt Ideal) G j = G (((cfg0.win 1).blk t).view.emb j) := rfl

/-- The same for the second array. -/
theorem read_blk_gram (t : Fin cfg0.N) (G : FVec Ideal S4x512x512 .f32) (j : ((cfg0.win 2).xblock (cfg0.grid.coords t)).Idx) :
    ((cfg0.win 2).blk t).view.read (Elt Ideal) G j = G (((cfg0.win 2).blk t).view.emb j) := rfl

/-- WHAT A GROUP'S LAST POINT WRITES BACK to the first array is its block of `sumG`. -/
theorem flushed_sum (c : Dev nD) (t : Fin cfg0.N) (hf : (cfg0.win 1).flush t = true) :
    (dat0 V c).flushed 1 t = ((cfg0.win 1).blk t).view.read (Elt Ideal) (sumG V c) := by
  have h7 : t.val % 8 = 7 := (flush0_1 t).mp hf
  obtain ⟨o0, o1, o2, -, -, -⟩ := out_index t
  show (cfg0.win 1).cut (grid0.coords t) ((dat0 V c).after 1 t) = _
  rw [after0_1]
  funext j
  have hj0 : (j 0).val < 1 := (j 0).isLt
  have hj1 : (j 1).val < 1 := (j 1).isLt
  have hj2 : (j 2).val < 512 := (j 2).isLt
  have hx : (cfg0.win 1).xinj (grid0.coords t) j
      = ix3 (⟨(j 0).val, hj0⟩ : Fin 1) (⟨(j 1).val, hj1⟩ : Fin 1) (⟨(j 2).val, hj2⟩ : Fin 512) :=
    funext fun a => by
      match a with
      | ⟨0, _⟩ => rfl
      | ⟨1, _⟩ => rfl
      | ⟨2, _⟩ => rfl
  refine (congrArg (k0_pay6 (accAt0 V c t.val t.isLt).1) hx).trans ?_
  refine Eq.trans ?_ (read_blk_sum t (sumG V c) j).symm
  refine sum_block_apply V c t h7 _ (((cfg0.win 1).blk t).view.emb j) ?_ ?_
  · show win0_1.index t (0 : Fin 3) * 1 + 1 * (j 0).val = t.val / 8; omega
  · show win0_1.index t (2 : Fin 3) * 512 + 1 * (j 2).val = (j 2).val; omega

/-- And to the second array its block of `gramG`. -/
theorem flushed_gram (c : Dev nD) (t : Fin cfg0.N) (hf : (cfg0.win 2).flush t = true) :
    (dat0 V c).flushed 2 t = ((cfg0.win 2).blk t).view.read (Elt Ideal) (gramG V c) := by
  have h7 : t.val % 8 = 7 := (flush0_2 t).mp hf
  obtain ⟨-, -, -, o0, o1, o2⟩ := out_index t
  show (cfg0.win 2).cut (grid0.coords t) ((dat0 V c).after 2 t) = _
  rw [after0_2]
  funext j
  have hj0 : (j 0).val < 1 := (j 0).isLt
  have hj1 : (j 1).val < 512 := (j 1).isLt
  have hj2 : (j 2).val < 512 := (j 2).isLt
  have hx : (cfg0.win 2).xinj (grid0.coords t) j
      = ix3 (⟨(j 0).val, hj0⟩ : Fin 1) (⟨(j 1).val, hj1⟩ : Fin 512) (⟨(j 2).val, hj2⟩ : Fin 512) :=
    funext fun a => by
      match a with
      | ⟨0, _⟩ => rfl
      | ⟨1, _⟩ => rfl
      | ⟨2, _⟩ => rfl
  refine (congrArg (k0_pay7 (accAt0 V c t.val t.isLt).2) hx).trans ?_
  refine Eq.trans ?_ (read_blk_gram t (gramG V c) j).symm
  refine gram_block_apply V c t h7 _ (((cfg0.win 2).blk t).view.emb j) ?_ ?_ ?_
  · show win0_2.index t (0 : Fin 3) * 1 + 1 * (j 0).val = t.val / 8; omega
  · show win0_2.index t (1 : Fin 3) * 512 + 1 * (j 1).val = (j 1).val; omega
  · show win0_2.index t (2 : Fin 3) * 512 + 1 * (j 2).val = (j 2).val; omega

/-- An index of the first array is in point `t`'s block iff each coordinate is in the block's range on its axis. -/
theorem mem_blk_sum (t : Fin cfg0.N) (i : S4x1x512.Idx) :
    i ∈ ((cfg0.win 1).blk t).view.set ↔ ∀ a : Fin 3, win0_1.index t a * S1x1x512.size a ≤ (i a).val
      ∧ (i a).val < win0_1.index t a * S1x1x512.size a + S1x1x512.size a := by
  show i ∈ ((View.whole main_v1_0).slice (win0_1.rect t)).set ↔ _
  rw [View.set_slice_whole, Rect.mem_set_unit]
  exact Iff.rfl

/-- The same for the second array. -/
theorem mem_blk_gram (t : Fin cfg0.N) (i : S4x512x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v1_1).slice (win0_2.rect t)).set ↔ _
  rw [View.set_slice_whole, Rect.mem_set_unit]
  exact Iff.rfl

/-- Every index of the first array lies in the block its group's last point writes back. -/
theorem cover_sum (i : S4x1x512.Idx) :
    ∃ t : Fin cfg0.N, (cfg0.win 1).flush t = true ∧ i ∈ ((cfg0.win 1).blk t).view.set := by
  have hN : cfg0.N = 32 := N_0
  have h0 : (i 0).val < 4 := (i 0).isLt
  have h1 : (i 1).val < 1 := (i 1).isLt
  have h2 : (i 2).val < 512 := (i 2).isLt
  obtain ⟨t, ht⟩ : ∃ t : Fin cfg0.N, t.val = 8 * (i 0).val + 7 := ⟨⟨8 * (i 0).val + 7, by rw [hN]; omega⟩, rfl⟩
  obtain ⟨o0, o1, o2, -, -, -⟩ := out_index t
  refine ⟨t, (flush0_1 t).mpr (by omega), ?_⟩
  rw [mem_blk_sum]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 512 ≤ (i 2).val ∧ (i 2).val < win0_1.index t (2 : Fin 3) * 512 + 512; omega

/-- And every index of the second. -/
theorem cover_gram (i : S4x512x512.Idx) :
    ∃ t : Fin cfg0.N, (cfg0.win 2).flush t = true ∧ i ∈ ((cfg0.win 2).blk t).view.set := by
  have hN : cfg0.N = 32 := N_0
  have h0 : (i 0).val < 4 := (i 0).isLt
  have h1 : (i 1).val < 512 := (i 1).isLt
  have h2 : (i 2).val < 512 := (i 2).isLt
  obtain ⟨t, ht⟩ : ∃ t : Fin cfg0.N, t.val = 8 * (i 0).val + 7 := ⟨⟨8 * (i 0).val + 7, by rw [hN]; omega⟩, rfl⟩
  obtain ⟨-, -, -, o0, o1, o2⟩ := out_index t
  refine ⟨t, (flush0_2 t).mpr (by omega), ?_⟩
  rw [mem_blk_gram]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The first output array after the region. -/
theorem sum_final (c : Dev nD) : sumArr V c = sumG V c :=
  (dat0 V c).arrAt_eq_of_cover 1 (sumG V c) (flushed_sum V c) cover_sum

/-- The second output array after the region. -/
theorem gram_final (c : Dev nD) : gramArr V c = gramG V c :=
  (dat0 V c).arrAt_eq_of_cover 2 (gramG V c) (flushed_gram V c) cover_gram

end Stats

/-- The column sums: entry (g, 0, e) of the first output array is the sum over the group's 16384 rows. -/
theorem stats_sum (c : Dev nD) (g : Fin 4) (e : Fin 512) :
    sumArr V c (ix3 g 0 e) = ∑ r : Fin 16384, zArr0 V c (ix3 g r e) :=
  (congrFun (Stats.sum_final V c) (ix3 g 0 e)).trans rfl

/-- The Gram matrix: entry (g, d, e) of the second output array is the sum over the group's rows of the products. -/
theorem stats_gram (c : Dev nD) (g : Fin 4) (d e : Fin 512) :
    gramArr V c (ix3 g d e) = ∑ r : Fin 16384, zArr0 V c (ix3 g r d) * zArr0 V c (ix3 g r e) :=
  (congrFun (Stats.gram_final V c) (ix3 g d e)).trans rfl

end Cert.KernelIdeal.HandValue

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Val.Apply.lean ====
/-
  What region 1 leaves in its output array, read at an index over the extended reals. Every grid point (g, n) writes
  its block back; the blocks tile the array. Row r of group g of the result is the row of the input minus the group's
  mean row, times the group's 512 x 512 factor.
-/
import proofs.«140310_j38826504356590_1_alg».proof.Proof.KI.Setup
import proofs.«140310_j38826504356590_1_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- Region 1's three input arrays as it finds them and the array it leaves, each at its literal type. -/
abbrev zArr1 (c : Dev nD) : FVec Ideal S4x16384x512 .f32 := V c main_v0
abbrev meanArr (c : Dev nD) : FVec Ideal S4x1x512 .f32 := V c main_v3
abbrev factorArr (c : Dev nD) : FVec Ideal S4x512x512 .f32 := V c main_v74
abbrev outArr (c : Dev nD) : FVec Ideal S4x16384x512 .f32 := (dat1 V c).arrAt 3 cfg1.N

/-- The product's dimension numbers are the rows-by-columns ones. -/
theorem apply_dot_plain : dot_S2048x512_S512x512_S2048x512_1_0_0_1_n_n = DotDims.plain 2048 512 512 := rfl

/-- One point's payload at (u, r, d): row r of the tile minus the mean row, times column d of the factor. -/
theorem apply_pay (x : FVec Ideal S1x2048x512 .f32) (mu : FVec Ideal S1x1x512 .f32) (w : FVec Ideal S1x512x512 .f32)
    (u : Fin 1) (r : Fin 2048) (d : Fin 512) :
    k1_pay1 x mu w (ix3 u r d)
      = ∑ e : Fin 512, (x (ix3 (0 : Fin 1) r e) - mu (ix3 (0 : Fin 1) (0 : Fin 1) e)) * w (ix3 (0 : Fin 1) e d) := by
  unfold k1_pay1
  rw [shapeCast_ab_1ab_apply, apply_dot_plain]
  refine (Cert.LibDense.matmul_plain_zero_apply none _ _ r d).trans ?_
  refine Finset.sum_congr rfl fun e _ => ?_
  rw [truncf_apply, truncf_apply, subf_apply, shapeCast_1ab_ab_apply, broadcastTo_1b_ab_apply, shapeCast_1ab_ab_apply,
    shapeCast_1ab_ab_apply]

/-- The four windows' block indices over the grid: point t is (group t / 8, row tile t % 8); the input and the output
    move with both, the mean and the factor with the group alone. -/
theorem apply_idx_facts : ∀ t : Fin cfg1.N,
    win1_3.index t (0 : Fin 3) = t.val / 8 ∧ win1_3.index t (1 : Fin 3) = t.val % 8 ∧ win1_3.index t (2 : Fin 3) = 0
    ∧ win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-- The input's block at point t, at (u, r, e): the input at (t / 8, 2048 (t % 8) + r, e). -/
theorem apply_blk0 (c : Dev nD) (t : Fin cfg1.N) (u : Fin 1) (r : Fin 2048) (e : Fin 512) (g : Fin 4) (k : Fin 16384)
    (hg : g.val = t.val / 8) (hk : k.val = t.val % 8 * 2048 + r.val) :
    (iblk1 V c 0 t : FVec Ideal S1x2048x512 .f32) (ix3 u r e) = zArr1 V c (ix3 g k e) := by
  obtain ⟨-, -, -, e0, e1, e2, -⟩ := apply_idx_facts t
  unfold iblk1
  rw [View.read_apply]
  show V c main_v0 _ = V c main_v0 _
  congr 1
  funext a
  apply Fin.ext
  match a with
  | ⟨0, _⟩ => show win1_0.index t (0 : Fin 3) * 1 + 1 * u.val = g.val; have := u.isLt; omega
  | ⟨1, _⟩ => show win1_0.index t (1 : Fin 3) * 2048 + 1 * r.val = k.val; omega
  | ⟨2, _⟩ => show win1_0.index t (2 : Fin 3) * 512 + 1 * e.val = e.val; omega

/-- The mean's block at point t, at (u, v, e): the mean row of group t / 8 at e. -/
theorem apply_blk1 (c : Dev nD) (t : Fin cfg1.N) (u v : Fin 1) (e : Fin 512) (g : Fin 4) (hg : g.val = t.val / 8) :
    (iblk1 V c 1 t : FVec Ideal S1x1x512 .f32) (ix3 u v e) = meanArr V c (ix3 g (0 : Fin 1) e) := by
  obtain ⟨-, -, -, -, -, -, e0, e1, e2, -⟩ := apply_idx_facts t
  unfold iblk1
  rw [View.read_apply]
  show V c main_v3 _ = V c main_v3 _
  congr 1
  funext a
  apply Fin.ext
  match a with
  | ⟨0, _⟩ => show win1_1.index t (0 : Fin 3) * 1 + 1 * u.val = g.val; have := u.isLt; omega
  | ⟨1, _⟩ => show win1_1.index t (1 : Fin 3) * 1 + 1 * v.val = 0; have := v.isLt; omega
  | ⟨2, _⟩ => show win1_1.index t (2 : Fin 3) * 512 + 1 * e.val = e.val; omega

/-- The factor's block at point t, at (u, e, d): the factor of group t / 8 at (e, d). -/
theorem apply_blk2 (c : Dev nD) (t : Fin cfg1.N) (u : Fin 1) (e d : Fin 512) (g : Fin 4) (hg : g.val = t.val / 8) :
    (iblk1 V c 2 t : FVec Ideal S1x512x512 .f32) (ix3 u e d) = factorArr V c (ix3 g e d) := by
  obtain ⟨-, -, -, -, -, -, -, -, -, e0, e1, e2⟩ := apply_idx_facts t
  unfold iblk1
  rw [View.read_apply]
  show V c main_v74 _ = V c main_v74 _
  congr 1
  funext a
  apply Fin.ext
  match a with
  | ⟨0, _⟩ => show win1_2.index t (0 : Fin 3) * 1 + 1 * u.val = g.val; have := u.isLt; omega
  | ⟨1, _⟩ => show win1_2.index t (1 : Fin 3) * 512 + 1 * e.val = e.val; omega
  | ⟨2, _⟩ => show win1_2.index t (2 : Fin 3) * 512 + 1 * d.val = d.val; omega

/-- Row k of group g of the input minus the group's mean row, times column d of the group's factor. -/
def applyRow (c : Dev nD) (g : Fin 4) (k : Fin 16384) (d : Fin 512) :=
  ∑ e : Fin 512, (zArr1 V c (ix3 g k e) - meanArr V c (ix3 g (0 : Fin 1) e)) * factorArr V c (ix3 g e d)

/-- The output array as one function of the three input arrays, index by index. -/
def applyArr (c : Dev nD) : FVec Ideal S4x16384x512 .f32 := fun i => applyRow V c (i 0) (i 1) (i 2)

/-- What point t writes back is block t of that array. -/
theorem apply_flushed (c : Dev nD) (t : Fin cfg1.N) :
    (dat1 V c).flushed 3 t = ((cfg1.win 3).blk t).view.read (Elt Ideal) (applyArr V c) := by
  show (cfg1.win 3).cut (grid1.coords t) ((dat1 V c).after 3 t) = _
  rw [after1_3]
  obtain ⟨e0, e1, e2, -⟩ := apply_idx_facts t
  have hN : t.val < 32 := N_1 ▸ t.isLt
  funext j
  obtain ⟨u, r, d, rfl⟩ : ∃ (u : Fin 1) (r : Fin 2048) (d : Fin 512), j = ix3 u r d := ⟨j 0, j 1, j 2, eq_ix3 j⟩
  rw [View.read_apply]
  show k1_pay1 (iblk1 V c 0 t) (iblk1 V c 1 t) (iblk1 V c 2 t) (ix3 u r d)
    = applyArr V c (((cfg1.win 3).blk t).view.emb (ix3 u r d))
  refine (apply_pay _ _ _ u r d).trans ?_
  have hemb : ((cfg1.win 3).blk t).view.emb (ix3 u r d)
      = ix3 (⟨t.val / 8, by omega⟩ : Fin 4) (⟨t.val % 8 * 2048 + r.val, by omega⟩ : Fin 16384) d := by
    funext a
    apply Fin.ext
    match a with
    | ⟨0, _⟩ => show win1_3.index t (0 : Fin 3) * 1 + 1 * u.val = t.val / 8; have := u.isLt; omega
    | ⟨1, _⟩ => show win1_3.index t (1 : Fin 3) * 2048 + 1 * r.val = t.val % 8 * 2048 + r.val; omega
    | ⟨2, _⟩ => show win1_3.index t (2 : Fin 3) * 512 + 1 * d.val = d.val; omega
  rw [hemb]
  show _ = applyRow V c ⟨t.val / 8, _⟩ ⟨t.val % 8 * 2048 + r.val, _⟩ d
  unfold applyRow
  refine Finset.sum_congr rfl fun e _ => ?_
  rw [apply_blk0 V c t 0 r e ⟨t.val / 8, by omega⟩ ⟨t.val % 8 * 2048 + r.val, by omega⟩ rfl rfl,
    apply_blk1 V c t 0 0 e ⟨t.val / 8, by omega⟩ rfl, apply_blk2 V c t 0 e d ⟨t.val / 8, by omega⟩ rfl]

/-- An index of the array is in point t's block iff each coordinate is in the block's range on its axis. -/
theorem apply_mem_blk (t : Fin cfg1.N) (i : S4x16384x512.Idx) :
    i ∈ ((cfg1.win 3).blk t).view.set ↔ ∀ a : Fin 3, win1_3.index t a * S1x2048x512.size a ≤ (i a).val
      ∧ (i a).val < win1_3.index t a * S1x2048x512.size a + S1x2048x512.size a := by
  show i ∈ ((View.whole main_v75).slice (win1_3.rect t)).set ↔ _
  rw [View.set_slice_whole, Rect.mem_set_unit]
  exact Iff.rfl

/-- The blocks tile the array: index (g, k, d) is in the block of point 8 g + k / 2048. -/
theorem apply_cover (i : S4x16384x512.Idx) :
    ∃ t : Fin cfg1.N, (cfg1.win 3).flush t = true ∧ i ∈ ((cfg1.win 3).blk t).view.set := by
  have h0 : (i 0).val < 4 := (i 0).isLt
  have h1 : (i 1).val < 16384 := (i 1).isLt
  have h2 : (i 2).val < 512 := (i 2).isLt
  have hN : grid1.N = 32 := N_1
  have hlt : 8 * (i 0).val + (i 1).val / 2048 < cfg1.N := by show _ < grid1.N; omega
  obtain ⟨e0, e1, e2, -⟩ := apply_idx_facts ⟨8 * (i 0).val + (i 1).val / 2048, hlt⟩
  refine ⟨⟨8 * (i 0).val + (i 1).val / 2048, hlt⟩, flush1_3 _, ?_⟩
  rw [apply_mem_blk]
  intro a
  match a with
  | ⟨0, _⟩ =>
    show win1_3.index ⟨8 * (i 0).val + (i 1).val / 2048, hlt⟩ (0 : Fin 3) * 1 ≤ (i 0).val
      ∧ (i 0).val < win1_3.index ⟨8 * (i 0).val + (i 1).val / 2048, hlt⟩ (0 : Fin 3) * 1 + 1
    rw [e0]; show (8 * (i 0).val + (i 1).val / 2048) / 8 * 1 ≤ _ ∧ _ < (8 * (i 0).val + (i 1).val / 2048) / 8 * 1 + 1; omega
  | ⟨1, _⟩ =>
    show win1_3.index ⟨8 * (i 0).val + (i 1).val / 2048, hlt⟩ (1 : Fin 3) * 2048 ≤ (i 1).val
      ∧ (i 1).val < win1_3.index ⟨8 * (i 0).val + (i 1).val / 2048, hlt⟩ (1 : Fin 3) * 2048 + 2048
    rw [e1]; show (8 * (i 0).val + (i 1).val / 2048) % 8 * 2048 ≤ _ ∧ _ < (8 * (i 0).val + (i 1).val / 2048) % 8 * 2048 + 2048; omega
  | ⟨2, _⟩ =>
    show win1_3.index ⟨8 * (i 0).val + (i 1).val / 2048, hlt⟩ (2 : Fin 3) * 512 ≤ (i 2).val
      ∧ (i 2).val < win1_3.index ⟨8 * (i 0).val + (i 1).val / 2048, hlt⟩ (2 : Fin 3) * 512 + 512
    rw [e2]; omega

/-- So the array region 1 leaves is that function. -/
theorem apply_final (c : Dev nD) : outArr V c = applyArr V c :=
  (dat1 V c).arrAt_eq_of_cover 3 (applyArr V c) (fun t _ => apply_flushed V c t) apply_cover

/-- Entry (g, r, d) of region 1's output array. -/
theorem apply_out (c : Dev nD) (g : Fin 4) (r : Fin 16384) (d : Fin 512) :
    outArr V c (ix3 g r d)
      = ∑ e : Fin 512, (zArr1 V c (ix3 g r e) - meanArr V c (ix3 g 0 e)) * factorArr V c (ix3 g e d) :=
  congrFun (apply_final V c) (ix3 g r d)

end Cert.KernelIdeal.HandValue

end
-- ==== Proof.RefRun.lean ====
/-
  The reference's run: its @main is straight-line host code; every weakly fair execution terminates with the result
  buffer at the operations' composed term of the argument.
-/
import proofs.«140310_j38826504356590_1_alg».proof.Defs
import proofs.«140310_j38826504356590_1_alg».proof.Proof.Gen.ReferenceIdeal
import proofs.«140310_j38826504356590_1_alg».proof.Proof.Gen.ReferenceIdeal.Run

noncomputable section

namespace Cert.ReferenceIdeal.RefValue

open Idealize.ShloMosaic Idealize.SL.Sem

end Cert.ReferenceIdeal.RefValue

end
-- ==== Proof.Ref.Chain.lean ====
/-
  The reference as a composition of named stages, over the extended reals. With Z the input reshaped to
  4 x 16384 x 512 (group, row, column): the rows are centred by the group's column means, S is the Gram matrix of the
  centred rows plus a small multiple of the identity, S is scaled by its Frobenius norm, five steps of the iteration
  B ↦ 1.5 B − 0.5 (B B B) Sn start from the identity, and the result is (B · Zcᵀ) divided by the square root of the
  norm, transposed back and reshaped. The stages from S on are one function of S (`BOf`, `sOf`): the kernel's program
  applies the same stages to its own S.
-/
import proofs.«140310_j38826504356590_1_alg».proof.Proof.RefRun

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

abbrev T3 := FVec Ideal S4x512x512 .f32
abbrev Z3 := FVec Ideal S4x16384x512 .f32

/-- The 512 x 512 identity as the program builds it (row index equals column index), with a leading unit axis. -/
def eye3 : FVec Ideal S1x512x512 .f32 :=
  broadcastInDim S1x512x512 ![1, 2] bcast_S512x512_S1x512x512_1_2 (uitofp .f32 (cmpi .eq (addi (iotaInDim S512x512 32 0) (broadcastInDim S512x512 ![] bcast_S_S512x512 (constantI S_ 32 0#32))) (iotaInDim S512x512 32 1)))

/-- The small multiple of the identity added to every group's Gram matrix. -/
def epsEye : T3 :=
  broadcastInDim S4x512x512 ![0, 1, 2] bcast_S1x512x512_S4x512x512_0_1_2 (mulf (broadcastInDim S1x512x512 ![] bcast_S_S1x512x512 (constant (F := Ideal) S_ .f32 0x3727C5AC#32)) eye3)

/-- The group's column means, broadcast along the rows, and the centred rows. -/
def meanRows (Z : Z3) : Z3 :=
  broadcastInDim S4x16384x512 ![0, 1, 2] bcast_S4x1x512_S4x16384x512_0_1_2 (Host.divf (broadcastInDim S4x1x512 ![0, 2] bcast_S4x512_S4x1x512_0_2 (Host.reduceAdd Z (constant (F := Ideal) S_ .f32 0x00000000#32) reducesTo_S4x16384x512_S4x512_d1 h_S_)) (broadcastInDim S4x1x512 ![] bcast_S_S4x1x512 (constant (F := Ideal) S_ .f32 0x46800000#32)))
def centred (Z : Z3) : Z3 := subf Z (meanRows Z)

/-- The reference's S: the Gram matrix of the centred rows plus the small multiple of the identity. -/
def SRef (Z : Z3) : T3 :=
  addf (Host.dotGeneral dot_S4x16384x512_S4x16384x512_S4x512x512_1_1_2_2_0_0 none (centred Z) (centred Z)) epsEye

/-- The Frobenius norm of each group's matrix (4 x 1 x 1). -/
def normOf (S : T3) : FVec Ideal S4x1x1 .f32 :=
  Host.sqrt (broadcastInDim S4x1x1 ![0] bcast_S4_S4x1x1_0 (Host.reduceAdd (mulf S S) (constant (F := Ideal) S_ .f32 0x00000000#32) reducesTo_S4x512x512_S4_d1_2 h_S_))
/-- Each group's matrix over its norm. -/
def SnOf (S : T3) : T3 := Host.divf S (broadcastInDim S4x512x512 ![0, 1, 2] bcast_S4x1x1_S4x512x512_0_1_2 (normOf S))
/-- The batched product of two 4 x 512 x 512 arrays. -/
def dot3 (l r : T3) : T3 := Host.dotGeneral dot_S4x512x512_S4x512x512_S4x512x512_2_1_1_2_0_0 none l r
/-- The iteration's start: the identity in every group. -/
def B0 : T3 := broadcastInDim S4x512x512 ![0, 1, 2] bcast_S1x512x512_S4x512x512_0_1_2 eye3
/-- One step: B ↦ 1.5 B − 0.5 ((B B) B) Sn. -/
def nsStep (Sn B : T3) : T3 :=
  subf (mulf (broadcastInDim S4x512x512 ![] bcast_S_S4x512x512 (constant (F := Ideal) S_ .f32 0x3FC00000#32)) B)
    (mulf (broadcastInDim S4x512x512 ![] bcast_S_S4x512x512 (constant (F := Ideal) S_ .f32 0x3F000000#32)) (dot3 (dot3 (dot3 B B) B) Sn))
/-- Five steps from the identity. -/
def BOf (S : T3) : T3 := nsStep (SnOf S) (nsStep (SnOf S) (nsStep (SnOf S) (nsStep (SnOf S) (nsStep (SnOf S) B0))))
/-- The square root of the norm: what the result is divided by. -/
def sOf (S : T3) : FVec Ideal S4x1x1 .f32 := Host.sqrt (normOf S)

/-- The reference's result before the last reshape, from Z: ((B · Zcᵀ) / √norm)ᵀ with B and the norm from `SRef Z`. -/
def outRef (Z : Z3) : Z3 :=
  transpose S4x16384x512 [0, 2, 1]
    (Host.divf (Host.dotGeneral dot_S4x512x512_S4x512x16384_S4x512x16384_2_1_1_2_0_0 none (BOf (SRef Z))
        (transpose S4x512x16384 [0, 2, 1] (centred Z) transposes_S4x16384x512_S4x512x16384_0_2_1))
      (broadcastInDim S4x512x16384 ![0, 1, 2] bcast_S4x1x1_S4x512x16384_0_1_2 (sOf (SRef Z))))
    transposes_S4x512x16384_S4x16384x512_0_2_1

/-- The reference's whole result from its argument. -/
def REF (x : FVec Ideal S16384x2048 .f32) : FVec Ideal S16384x2048 .f32 :=
  shapeCast S16384x2048 (outRef (shapeCast S4x16384x512 x shapeCasts_S16384x2048_S4x16384x512)) shapeCasts_S4x16384x512_S16384x2048

/-! ### The named stages of the reference's composed term are the stages above

Each named stage of the reference's composed term is one of the functions above applied to the earlier stages: the
equations below are read off one definition at a time. -/

section Stages

variable (V0 : Valuation τ sig (Elt Ideal))

/-- The argument seen as 4 groups of 16384 rows of 512 columns. -/
abbrev Zof : Z3 := Value.res_main_v0 (F := Ideal) V0

theorem v6_eq : (Value.res_main_v6 (F := Ideal) V0 : Z3) = centred (Zof V0) := rfl

theorem v14_eq : (Value.res_main_v14 (F := Ideal) V0 : FVec Ideal S1x512x512 .f32) = eye3 := rfl

theorem v18_eq : (Value.res_main_v18 (F := Ideal) V0 : T3) = SRef (Zof V0) := by
  unfold Value.res_main_v18
  rw [v6_eq, v14_eq]
  rfl

theorem v22_eq : (Value.res_main_v22 (F := Ideal) V0 : FVec Ideal S4x1x1 .f32) = normOf (SRef (Zof V0)) := by
  unfold Value.res_main_v22
  rw [v18_eq]
  rfl

theorem v24_eq : (Value.res_main_v24 (F := Ideal) V0 : T3) = SnOf (SRef (Zof V0)) := by
  unfold Value.res_main_v24
  rw [v18_eq, v22_eq]
  rfl

theorem v25_eq : (Value.res_main_v25 (F := Ideal) V0 : T3) = B0 := by
  unfold Value.res_main_v25
  rw [v14_eq]
  rfl

theorem v33_eq : (Value.res_main_v33 (F := Ideal) V0 : T3) = nsStep (SnOf (SRef (Zof V0))) B0 := by
  unfold Value.res_main_v33
  rw [v25_eq, v24_eq]
  rfl

theorem v41_eq : (Value.res_main_v41 (F := Ideal) V0 : T3)
    = nsStep (SnOf (SRef (Zof V0))) (nsStep (SnOf (SRef (Zof V0))) B0) := by
  unfold Value.res_main_v41
  rw [v33_eq, v24_eq]
  rfl

theorem v49_eq : (Value.res_main_v49 (F := Ideal) V0 : T3)
    = nsStep (SnOf (SRef (Zof V0))) (nsStep (SnOf (SRef (Zof V0))) (nsStep (SnOf (SRef (Zof V0))) B0)) := by
  unfold Value.res_main_v49
  rw [v41_eq, v24_eq]
  rfl

theorem v57_eq : (Value.res_main_v57 (F := Ideal) V0 : T3)
    = nsStep (SnOf (SRef (Zof V0))) (nsStep (SnOf (SRef (Zof V0))) (nsStep (SnOf (SRef (Zof V0)))
        (nsStep (SnOf (SRef (Zof V0))) B0))) := by
  unfold Value.res_main_v57
  rw [v49_eq, v24_eq]
  rfl

/-- The fifth step, which the composed term spells out, closes the iteration. -/
theorem v65_eq : nsStep (Value.res_main_v24 (F := Ideal) V0) (Value.res_main_v57 (F := Ideal) V0) = BOf (SRef (Zof V0)) := by
  rw [v57_eq, v24_eq]
  rfl

/-- The composed term of the result over its stages: with the fifth step closing the iteration, the centred rows
    transposed, and the quotient by the square root of the norm transposed back and reshaped, it is the reference's
    result. -/
theorem out_eq (x : FVec Ideal S16384x2048 .f32) (Z Zc : Z3) (Sn B : T3) (n : FVec Ideal S4x1x1 .f32)
    (hZ : Z = shapeCast S4x16384x512 x shapeCasts_S16384x2048_S4x16384x512)
    (hB : nsStep Sn B = BOf (SRef Z)) (hZc : Zc = centred Z) (hn : n = normOf (SRef Z)) :
    shapeCast S16384x2048 (transpose S4x16384x512 [0, 2, 1] (Host.divf (Host.dotGeneral dot_S4x512x512_S4x512x16384_S4x512x16384_2_1_1_2_0_0 none
        (nsStep Sn B) (transpose S4x512x16384 [0, 2, 1] Zc transposes_S4x16384x512_S4x512x16384_0_2_1))
        (broadcastInDim S4x512x16384 ![0, 1, 2] bcast_S4x1x1_S4x512x16384_0_1_2 (Host.sqrt n)))
        transposes_S4x512x16384_S4x16384x512_0_2_1) shapeCasts_S4x16384x512_S16384x2048
      = REF x := by
  subst hZ hZc hn
  rw [hB]
  rfl

end Stages

/-- THE REFERENCE'S RUN over the named stages: every weakly fair execution terminates with the result at `REF` of the
    argument's launch contents and the argument unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = REF (m ((c.tc : Thread nD τ).loc main_arg0))
      ∧ r.2.mem ((c.tc : Thread nD τ).loc main_arg0) = m ((c.tc : Thread nD τ).loc main_arg0) := by
  refine (θ_run (defs (F := Ideal)) _ _).mono (fun r h c => ?_) (Value.run (F := Ideal) m ρ)
  obtain ⟨h1, h2⟩ := h c
  exact ⟨h1.trans (out_eq (m ((c.tc : Thread nD τ).loc main_arg0)) (Zof (launchContents m c))
      (Value.res_main_v6 (F := Ideal) (launchContents m c)) (Value.res_main_v24 (F := Ideal) (launchContents m c))
      (Value.res_main_v57 (F := Ideal) (launchContents m c)) (Value.res_main_v22 (F := Ideal) (launchContents m c))
      rfl (v65_eq _) (v6_eq _) (v22_eq _)), h2⟩

end Cert.ReferenceIdeal.RefValue

end
-- ==== Proof.Val.KDefs.lean ====
/-
  The kernel's program as named stages over the extended reals, from the reshaped input Z (group, row, column): the
  column sums and the Gram matrix of every group (what region 0 accumulates), the mean rows, the matrix
  S = (Gram − 16384 · mean ⊗ mean) + a small multiple of the identity, the factor made from S by the stages the
  reference applies to its own S, and the result: every row minus its group's mean row, times the factor.
-/
import proofs.«140310_j38826504356590_1_alg».proof.KernelIdeal
import proofs.«140310_j38826504356590_1_alg».proof.Proof.Gen.KernelIdeal
import proofs.«140310_j38826504356590_1_alg».proof.Proof.Ref.Chain
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe Idealize.ShloMosaic.ValueIdx
open Cert.ReferenceIdeal.RefValue (T3 Z3 epsEye BOf sOf)

/-- The group's mean row from the column sums (4 x 1 x 512). -/
def meanK (s : FVec Ideal S4x1x512 .f32) : FVec Ideal S4x1x512 .f32 :=
  Host.divf s (broadcastInDim S4x1x512 ![] bcast_S_S4x1x512 (constant (F := Ideal) S_ .f32 0x46800000#32))

/-- The outer product mean ⊗ mean of every group (4 x 512 x 512). -/
def outerK (mn : FVec Ideal S4x1x512 .f32) : T3 :=
  mulf (broadcastInDim S4x512x512 ![0, 1, 2] bcast_S4x512x1_S4x512x512_0_1_2 (broadcastInDim S4x512x1 ![0, 1] bcast_S4x512_S4x512x1_0_1 (shapeCast S4x512 mn shapeCasts_S4x1x512_S4x512)))
    (broadcastInDim S4x512x512 ![0, 1, 2] bcast_S4x1x512_S4x512x512_0_1_2 (broadcastInDim S4x1x512 ![0, 2] bcast_S4x512_S4x1x512_0_2 (shapeCast S4x512 mn shapeCasts_S4x1x512_S4x512)))

/-- The kernel's S from the column sums `s` and the Gram matrix `G`. -/
def SK (s : FVec Ideal S4x1x512 .f32) (G : T3) : T3 :=
  addf (subf G (mulf (broadcastInDim S4x512x512 ![] bcast_S_S4x512x512 (constant (F := Ideal) S_ .f32 0x46800000#32)) (outerK (meanK s)))) epsEye

/-- The factor region 1 multiplies by, from S: B transposed, over the square root of the norm. -/
def factorK (S : T3) : T3 :=
  Host.divf (transpose S4x512x512 [0, 2, 1] (BOf S) transposes_S4x512x512_S4x512x512_0_2_1)
    (broadcastInDim S4x512x512 ![0, 1, 2] bcast_S4x1x1_S4x512x512_0_1_2 (sOf S))

/-- Every group's column sums over its 16384 rows. -/
def sumOf (Z : Z3) : FVec Ideal S4x1x512 .f32 := fun i => ∑ r : Fin 16384, Z (ix3 (i 0) r (i 2))
/-- Every group's Gram matrix over its 16384 rows. -/
def gramOf (Z : Z3) : T3 := fun i => ∑ r : Fin 16384, Z (ix3 (i 0) r (i 1)) * Z (ix3 (i 0) r (i 2))

/-- The kernel's result before the last reshape: entry (g, r, d) is the sum over e of (Z[g,r,e] − mean[g,e]) times the factor's (g, e, d). -/
def outK (Z : Z3) : Z3 := fun i =>
  ∑ e : Fin 512, (Z (ix3 (i 0) (i 1) e) - meanK (sumOf Z) (ix3 (i 0) 0 e)) * factorK (SK (sumOf Z) (gramOf Z)) (ix3 (i 0) e (i 2))

end Cert.KernelIdeal.HandValue

end
-- ==== Proof.Val.KHost.lean ====
/-
  The kernel's program between and after its two regions, over the extended reals: the 88 host operations between
  the regions turn the column sums and the Gram matrix region 0 leaves into the mean rows and the factor region 1
  reads; the reshaped input reaches both regions unchanged; the last reshape returns region 1's output array.
-/
import proofs.«140310_j38826504356590_1_alg».proof.Proof.KI.Fold
import proofs.«140310_j38826504356590_1_alg».proof.Proof.Val.Stats
import proofs.«140310_j38826504356590_1_alg».proof.Proof.Val.Apply
import proofs.«140310_j38826504356590_1_alg».proof.Proof.Val.KDefs
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

open Cert.ReferenceIdeal.RefValue (T3 Z3 epsEye BOf sOf)
open Cert.ReferenceIdeal.RefValue (dot3)

variable (m : (ℓ : Loc nD τ sig) → Buf (Elt Ideal) ℓ)

/-- The reshaped input, as both regions find it. -/
abbrev zOf (c : Dev nD) : Z3 := shapeCast S4x16384x512 (m ((c : Thread nD τ).loc main_arg0)) shapeCasts_S16384x2048_S4x16384x512

/-! ## The 88 operations between the regions, from any contents

Every buffer is written once, so the contents of a buffer after the operations is the composition of the operations
that lead to it, applied to the two arrays region 0 leaves. The composition is stated over the named stages (the mean
rows, the outer product, S, its norm, S over its norm, five steps from the identity, the transpose over the square
root of the norm): each stage is met once however many later stages use it. -/

/-- Over the extended reals a batched product does not depend on the requested precision. -/
theorem dot3_prec (l r : T3) :
    Host.dotGeneral (F := Ideal) dot_S4x512x512_S4x512x512_S4x512x512_2_1_1_2_0_0 (some .fp32) l r = dot3 l r := rfl

set_option maxHeartbeats 40000000 in
/-- The mean rows after the operations between the regions, from any contents: the column sums over 16384. -/
theorem host1_v3 (V : Valuation τ sig (Elt Ideal)) :
    (StableHlo.after hostOps1 V (Proc.devRef .tc main_v3) : FVec Ideal S4x1x512 .f32) = meanK (V (Proc.devRef .tc main_v1_0)) := by
  after_results_simp
  rfl

set_option maxHeartbeats 40000000 in
/-- The factor after the operations between the regions, from any contents: the stages from S applied to the
    kernel's S of the column sums and the Gram matrix. -/
theorem host1_v74 (V : Valuation τ sig (Elt Ideal)) :
    (StableHlo.after hostOps1 V (Proc.devRef .tc main_v74) : T3)
      = factorK (SK (V (Proc.devRef .tc main_v1_0)) (V (Proc.devRef .tc main_v1_1))) := by
  after_results_simp
  simp only [dot3_prec]
  rfl

/-- No operation between the regions writes the reshaped input. -/
theorem W3_v0 (c : Dev nD) : W3 m c (Proc.devRef .tc main_v0) = W2 m c (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

/-! ## The arrays the regions read, and the result -/

theorem V1_v0 (c : Dev nD) : zArr0 (V1 m) c = zOf m c := by
  show StableHlo.after hostOps0 (W0 m c) (Proc.devRef .tc main_v0) = _
  after_results
  rfl

/-- Region 0 only reads the reshaped input (its array there is an input's: it keeps its entry contents), and no
    operation between the regions writes it. -/
theorem V3_v0 (c : Dev nD) : zArr1 (V3 m) c = zOf m c :=
  calc zArr1 (V3 m) c
    _ = W3 m c (Proc.devRef .tc main_v0) := rfl
    _ = W2 m c (Proc.devRef .tc main_v0) := W3_v0 m c
    _ = (dat0 (V1 m) c).arrAt 0 cfg0.N := W2_arr m c 0
    _ = (dat0 (V1 m) c).A 0 := (dat0 (V1 m) c).arrAt_in 0 (by decide) _
    _ = V1 m c main_v0 := A_eq0 (V1 m) c 0
    _ = zOf m c := V1_v0 m c

/-- Region 1's mean-row input is the mean of region 0's column sums. -/
theorem V3_v3 (c : Dev nD) : meanArr (V3 m) c = meanK (sumArr (V1 m) c) :=
  (host1_v3 (W2 m c)).trans (congrArg meanK (W2_arr m c 1))

/-- Region 1's factor input is the factor from the kernel's S. -/
theorem V3_v74 (c : Dev nD) : factorArr (V3 m) c = factorK (SK (sumArr (V1 m) c) (gramArr (V1 m) c)) :=
  (host1_v74 (W2 m c)).trans (congrArg₂ (fun s G => factorK (SK s G)) (W2_arr m c 1) (W2_arr m c 2))

/-- The result buffer at the return is region 1's output array, reshaped. -/
theorem W5_v76 (c : Dev nD) :
    W5 m c (Proc.devRef .tc main_v76) = shapeCast S16384x2048 (outArr (V3 m) c) shapeCasts_S4x16384x512_S16384x2048 := by
  show StableHlo.after hostOps2 (W4 m c) (Proc.devRef .tc main_v76) = _
  after_results
  rw [show W4 m c (Proc.devRef .tc main_v75) = (dat1 (V3 m) c).arrAt 3 cfg1.N from W4_arr m c 3]
  rfl

end Cert.KernelIdeal.HandValue

end
-- ==== Proof.Val.KOut.lean ====
/-
  The kernel's result as one function of its argument: region 0's two arrays are the column sums and the Gram matrix
  of the reshaped input, the host operations make the mean rows and the factor from them, region 1's array is every
  row minus its group's mean row times the factor, and the last reshape returns it.
-/
import proofs.«140310_j38826504356590_1_alg».proof.Proof.Val.KHost

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

open Cert.ReferenceIdeal.RefValue (T3 Z3)

variable (m : (ℓ : Loc nD τ sig) → Buf (Elt Ideal) ℓ)

/-- Region 0's first array is the column sums of the reshaped input. -/
theorem sumArr_eq (c : Dev nD) : sumArr (V1 m) c = sumOf (zOf m c) := by
  funext i
  obtain ⟨g, u, e, rfl⟩ : ∃ (g : Fin 4) (u : Fin 1) (e : Fin 512), i = ix3 g u e := ⟨i 0, i 1, i 2, eq_ix3 i⟩
  obtain rfl : u = 0 := Subsingleton.elim _ _
  rw [stats_sum]
  show _ = ∑ r : Fin 16384, zOf m c (ix3 g r e)
  exact Finset.sum_congr rfl fun r _ => congrFun (V1_v0 m c) (ix3 g r e)

/-- Region 0's second array is the Gram matrix of the reshaped input. -/
theorem gramArr_eq (c : Dev nD) : gramArr (V1 m) c = gramOf (zOf m c) := by
  funext i
  obtain ⟨g, d, e, rfl⟩ : ∃ (g : Fin 4) (d : Fin 512) (e : Fin 512), i = ix3 g d e := ⟨i 0, i 1, i 2, eq_ix3 i⟩
  rw [stats_gram]
  show _ = ∑ r : Fin 16384, zOf m c (ix3 g r d) * zOf m c (ix3 g r e)
  exact Finset.sum_congr rfl fun r _ => by
    rw [congrFun (V1_v0 m c) (ix3 g r d), congrFun (V1_v0 m c) (ix3 g r e)]

/-- Region 1's array is the kernel's result function of the reshaped input. -/
theorem outArr_eq (c : Dev nD) : outArr (V3 m) c = outK (zOf m c) := by
  funext i
  obtain ⟨g, r, d, rfl⟩ : ∃ (g : Fin 4) (r : Fin 16384) (d : Fin 512), i = ix3 g r d := ⟨i 0, i 1, i 2, eq_ix3 i⟩
  rw [apply_out]
  show _ = ∑ e : Fin 512, (zOf m c (ix3 g r e) - meanK (sumOf (zOf m c)) (ix3 g 0 e))
      * factorK (SK (sumOf (zOf m c)) (gramOf (zOf m c))) (ix3 g e d)
  refine Finset.sum_congr rfl fun e _ => ?_
  rw [congrFun (V3_v0 m c) (ix3 g r e), congrFun (V3_v3 m c) (ix3 g 0 e), congrFun (V3_v74 m c) (ix3 g e d),
    sumArr_eq, gramArr_eq]

/-- THE KERNEL'S VALUE: the result buffer at the return, from the argument's launch contents. -/
theorem kernel_value (c : Dev nD) :
    W5 m c (Proc.devRef .tc main_v76) = shapeCast S16384x2048 (outK (zOf m c)) shapeCasts_S4x16384x512_S16384x2048 := by
  rw [W5_v76, outArr_eq]

end Cert.KernelIdeal.HandValue

end
-- ==== Proof.Bridge.SEq.lean ====
/-
  The two programs build the same matrix S when every entry of the input is a real number. The reference centres the
  rows first: S[g,d,e] = Σ_r (z[r,d] − μ[d]) (z[r,e] − μ[e]) + ε·I. The kernel accumulates the raw Gram matrix and
  subtracts afterwards: S[g,d,e] = (Σ_r z[r,d] z[r,e] − 16384 · μ[d] μ[e]) + ε·I, with μ[d] = (Σ_r z[r,d]) / 16384 in
  both. Over the reals Σ_r (a_r − μa)(b_r − μb) = Σ_r a_r b_r − N μa μb when N μa = Σ a and N μb = Σ b (expand the
  product and use Σ_r 1 = N = 16384). Over the extended reals the expansion needs every entry to be a real number.
-/
import proofs.«140310_j38826504356590_1_alg».proof.Proof.Val.KDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Cert.ReferenceIdeal.RefValue (T3 Z3 epsEye BOf sOf SRef meanRows centred outRef normOf SnOf)

namespace SEq

/-! ## The algebra over the reals and its lift to the extended reals -/

/-- The inclusion of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Σ_r (a_r − μa)(b_r − μb) = Σ_r a_r b_r − N μa μb when N is the number of terms, N μa = Σ a and N μb = Σ b. -/
theorem real_centred_sum {ι : Type*} [Fintype ι] (a b : ι → ℝ) (N μa μb : ℝ) (hN : (Fintype.card ι : ℝ) = N)
    (ha : N * μa = ∑ r, a r) (hb : N * μb = ∑ r, b r) :
    ∑ r, (a r - μa) * (b r - μb) = ∑ r, a r * b r - N * (μa * μb) := by
  have h1 : ∀ r, (a r - μa) * (b r - μb) = a r * b r - μb * a r - μa * b r + μa * μb := fun r => by ring
  simp only [h1, Finset.sum_add_distrib, Finset.sum_sub_distrib, ← Finset.mul_sum, Finset.sum_const, Finset.card_univ,
    nsmul_eq_mul, hN, ← ha, ← hb]
  ring

/-- The same identity between extended reals, every term a real number. -/
theorem ereal_centred_sum {ι : Type*} [Fintype ι] (a b : ι → ℝ) (N μa μb : ℝ) (hN : (Fintype.card ι : ℝ) = N)
    (ha : N * μa = ∑ r, a r) (hb : N * μb = ∑ r, b r) :
    ∑ r, ((a r : EReal) - (μa : EReal)) * ((b r : EReal) - (μb : EReal))
      = (∑ r, (a r : EReal) * (b r : EReal)) - (N : EReal) * ((μa : EReal) * (μb : EReal)) := by
  simp only [← EReal.coe_sub, ← EReal.coe_mul, ← coe_finset_sum]
  exact congrArg _ (real_centred_sum a b N μa μb hN ha hb)

/-- The literal the column sums are divided by is the real number 16384. -/
theorem ofBits_16384 : Ideal.ofBits .f32 0x46800000#32 = ((16384 : ℝ) : EReal) := by
  simp [Ideal.ofBits, Ideal.ieee, -EReal.coe_mul]; norm_num

/-! ## The mean rows -/

/-- The kernel's mean at an index: the column sum there over the literal. -/
theorem meanK_apply (s : FVec Ideal S4x1x512 .f32) (i : S4x1x512.Idx) :
    meanK s i = Ideal.div (s i) (Ideal.ofBits .f32 0x46800000#32) := rfl

/-- The reference's mean rows at (g, r, e): the sum over the rows of column e of group g, over the literal. -/
theorem meanRows_apply (Z : Z3) (g : Fin 4) (r : Fin 16384) (e : Fin 512) :
    meanRows Z (ix3 g r e) = Ideal.div (∑ k : Fin 16384, Z (ix3 g k e)) (Ideal.ofBits .f32 0x46800000#32) := by
  unfold meanRows
  rw [broadcastInDim_apply _ _ _ (ix3 g r e) (ix3 g (0 : Fin 1) e) (fun a => by
    match a with
    | ⟨0, _⟩ => rfl
    | ⟨1, _⟩ => rfl
    | ⟨2, _⟩ => rfl)]
  show Ideal.div (broadcastInDim _ _ _ _ (ix3 g (0 : Fin 1) e)) (Ideal.ofBits .f32 0x46800000#32) = _
  rw [broadcastInDim_apply _ _ _ (ix3 g (0 : Fin 1) e) (ix2 g e) (fun a => by
    match a with
    | ⟨0, _⟩ => rfl
    | ⟨1, _⟩ => rfl)]
  show Ideal.div (Ideal.hostReduceAdd _ Z (Ideal.ofBits .f32 0x00000000#32) (ix2 g e)) _ = _
  rw [Ideal.hostReduceAdd_single _ (by decide) Z _ (ix2 g e), Ideal.ofBits_zero_f32, zero_add]
  refine congrArg (fun t => Ideal.div t (Ideal.ofBits .f32 0x46800000#32)) ?_
  exact Finset.sum_congr rfl fun k _ => congrArg Z (funext fun a => Fin.ext (by
    match a with
    | ⟨0, _⟩ => rfl
    | ⟨1, _⟩ => rfl
    | ⟨2, _⟩ => rfl))

end SEq

/-- The mean rows agree: the kernel's mean of the column sums at (g, 0, e) is the reference's centred-rows mean at any row. -/
theorem mean_eq (Z : Z3) (g : Fin 4) (r : Fin 16384) (e : Fin 512) :
    meanK (sumOf Z) (ix3 g 0 e) = meanRows Z (ix3 g r e) := by
  rw [SEq.meanRows_apply, SEq.meanK_apply]
  rfl

namespace SEq

/-- With real entries the kernel's mean at (g, 0, e) is the real number (Σ_r x[g,r,e]) · (1 / 16384). -/
theorem meanK_coe (Z : Z3) (x : S4x16384x512.Idx → ℝ) (hx : ∀ i, Z i = (x i : EReal)) (g : Fin 4) (e : Fin 512) :
    meanK (sumOf Z) (ix3 g 0 e) = (((∑ r : Fin 16384, x (ix3 g r e)) * (1 / 16384) : ℝ) : EReal) := by
  rw [meanK_apply, ofBits_16384, Ideal.div_coe (by norm_num)]
  show (∑ r : Fin 16384, Z (ix3 g r e)) * _ = _
  simp only [hx]
  rw [← coe_finset_sum, ← EReal.coe_mul]

end SEq

/-- With real entries the mean rows are real: the mean at (g, 0, e) is a real number. -/
theorem mean_real (Z : Z3) (hZ : ∀ i, ∃ x : ℝ, Z i = (x : EReal)) (g : Fin 4) (e : Fin 512) :
    ∃ x : ℝ, meanK (sumOf Z) (ix3 g 0 e) = (x : EReal) := by
  choose x hx using hZ
  exact ⟨_, SEq.meanK_coe Z x hx g e⟩

namespace SEq

/-! ## The two S read at an index -/

/-- The outer product at (g, d, e): the mean at (g, 0, d) times the mean at (g, 0, e). -/
theorem outerK_apply (mn : FVec Ideal S4x1x512 .f32) (g : Fin 4) (d e : Fin 512) :
    outerK mn (ix3 g d e) = mn (ix3 g 0 d) * mn (ix3 g 0 e) := by
  unfold outerK
  rw [mulf_apply]
  rw [broadcastInDim_apply _ _ _ (ix3 g d e) (ix3 g d (0 : Fin 1)) (fun a => by
      match a with
      | ⟨0, _⟩ => rfl
      | ⟨1, _⟩ => rfl
      | ⟨2, _⟩ => rfl),
    broadcastInDim_apply _ _ _ (ix3 g d (0 : Fin 1)) (ix2 g d) (fun a => by
      match a with
      | ⟨0, _⟩ => rfl
      | ⟨1, _⟩ => rfl),
    shapeCast_apply _ _ (ix2 g d) (ix3 g (0 : Fin 1) d) (by
      rw [Shape.rowMajor_val_three, Shape.rowMajor_val_two]
      show (g.val * 1 + 0) * 512 + d.val = g.val * 512 + d.val
      omega),
    broadcastInDim_apply _ _ _ (ix3 g d e) (ix3 g (0 : Fin 1) e) (fun a => by
      match a with
      | ⟨0, _⟩ => rfl
      | ⟨1, _⟩ => rfl
      | ⟨2, _⟩ => rfl),
    broadcastInDim_apply _ _ _ (ix3 g (0 : Fin 1) e) (ix2 g e) (fun a => by
      match a with
      | ⟨0, _⟩ => rfl
      | ⟨1, _⟩ => rfl),
    shapeCast_apply _ _ (ix2 g e) (ix3 g (0 : Fin 1) e) (by
      rw [Shape.rowMajor_val_three, Shape.rowMajor_val_two]
      show (g.val * 1 + 0) * 512 + e.val = g.val * 512 + e.val
      omega)]

/-- The kernel's S at (g, d, e). -/
theorem SK_apply (s : FVec Ideal S4x1x512 .f32) (G : T3) (g : Fin 4) (d e : Fin 512) :
    SK s G (ix3 g d e)
      = (G (ix3 g d e) - Ideal.ofBits .f32 0x46800000#32 * (meanK s (ix3 g 0 d) * meanK s (ix3 g 0 e))) + epsEye (ix3 g d e) := by
  rw [← outerK_apply]
  rfl

/-- The batched product contracting the rows of both operands: its contraction sum at (g, d, e), re-indexed by the
    row r, reads the operands at (g, r, d) and (g, r, e). -/
theorem gram_sum (A : Z3) (g : Fin 4) (d e : Fin 512) :
    (∑ q : Cert.ReferenceIdeal.dot_S4x16384x512_S4x16384x512_S4x512x512_1_1_2_2_0_0.contr.Idx,
        A (Cert.ReferenceIdeal.dot_S4x16384x512_S4x16384x512_S4x512x512_1_1_2_2_0_0.lhsIdx (ix3 g d e) q)
          * A (Cert.ReferenceIdeal.dot_S4x16384x512_S4x16384x512_S4x512x512_1_1_2_2_0_0.rhsIdx (ix3 g d e) q))
      = ∑ r : Fin 16384, A (ix3 g r d) * A (ix3 g r e) := by
  rw [← Equiv.sum_comp (contrEquiv1 Cert.ReferenceIdeal.dot_S4x16384x512_S4x16384x512_S4x512x512_1_1_2_2_0_0 16384 rfl rfl).symm]
  refine Finset.sum_congr rfl fun r _ => ?_
  have hk := contrEquiv1_symm_val Cert.ReferenceIdeal.dot_S4x16384x512_S4x16384x512_S4x512x512_1_1_2_2_0_0 16384 rfl rfl r
  have el : Cert.ReferenceIdeal.dot_S4x16384x512_S4x16384x512_S4x512x512_1_1_2_2_0_0.lhsIdx (ix3 g d e)
      ((contrEquiv1 Cert.ReferenceIdeal.dot_S4x16384x512_S4x16384x512_S4x512x512_1_1_2_2_0_0 16384 rfl rfl).symm r) = ix3 g r d :=
    funext fun a => Fin.ext (by
      match a with
      | ⟨0, _⟩ => rfl
      | ⟨1, _⟩ => exact (DotDims.lhsIdx_val_of_single _ rfl _ _).trans hk
      | ⟨2, _⟩ => rfl)
  have er : Cert.ReferenceIdeal.dot_S4x16384x512_S4x16384x512_S4x512x512_1_1_2_2_0_0.rhsIdx (ix3 g d e)
      ((contrEquiv1 Cert.ReferenceIdeal.dot_S4x16384x512_S4x16384x512_S4x512x512_1_1_2_2_0_0 16384 rfl rfl).symm r) = ix3 g r e :=
    funext fun a => Fin.ext (by
      match a with
      | ⟨0, _⟩ => rfl
      | ⟨1, _⟩ => exact (DotDims.rhsIdx_val_of_single _ rfl _ _).trans hk
      | ⟨2, _⟩ => rfl)
  rw [el, er]

/-- The reference's S at (g, d, e). -/
theorem SRef_apply (Z : Z3) (g : Fin 4) (d e : Fin 512) :
    SRef Z (ix3 g d e) = (∑ r : Fin 16384, centred Z (ix3 g r d) * centred Z (ix3 g r e)) + epsEye (ix3 g d e) := by
  unfold SRef
  simp only [Host.dotGeneral]
  rw [addf_apply, Ideal.dotGeneral_apply, gram_sum]

/-- A centred entry: the entry minus the kernel's mean of its column. -/
theorem centred_apply (Z : Z3) (g : Fin 4) (r : Fin 16384) (e : Fin 512) :
    centred Z (ix3 g r e) = Z (ix3 g r e) - meanK (sumOf Z) (ix3 g 0 e) := by
  rw [mean_eq Z g r e]
  rfl

end SEq

/-- THE TWO S AGREE when every entry of the input is a real number. -/
theorem S_eq (Z : Z3) (hZ : ∀ i, ∃ x : ℝ, Z i = (x : EReal)) : SK (sumOf Z) (gramOf Z) = SRef Z := by
  choose x hx using hZ
  funext i
  obtain ⟨g, d, e, rfl⟩ : ∃ (g : Fin 4) (d e : Fin 512), i = ix3 g d e := ⟨i 0, i 1, i 2, eq_ix3 i⟩
  rw [SEq.SRef_apply, SEq.SK_apply]
  refine congrArg (· + epsEye (ix3 g d e)) ?_
  simp only [SEq.centred_apply]
  rw [SEq.meanK_coe Z x hx g d, SEq.meanK_coe Z x hx g e, SEq.ofBits_16384]
  show (∑ r : Fin 16384, Z (ix3 g r d) * Z (ix3 g r e)) - _ = _
  simp only [hx]
  exact (SEq.ereal_centred_sum (fun r : Fin 16384 => x (ix3 g r d)) (fun r : Fin 16384 => x (ix3 g r e)) 16384 _ _ (by simp)
    (by ring) (by ring)).symm

end Cert.KernelIdeal.HandValue

end
-- ==== Proof.Bridge.Last.lean ====
/-
  The last step. The kernel divides B by s = √(norm) BEFORE its product with the centred rows, the reference divides
  the product by s AFTER: Σ_e zc[e] · (B[d,e] / s) = (Σ_e B[d,e] · zc[e]) / s. For a real s > 0 a quotient by s is the
  product with the non-negative real 1/s, and a non-negative real factor distributes over a finite sum of extended
  reals whatever its terms. s is a positive real when the input's entries are real: S then has real entries, its
  first diagonal entry is a sum of squares plus ε · 1 with ε > 0, so the sum of all squared entries of S is a positive
  real, and so are its square root and the square root of that. (Division by zero would give an infinity: the
  positivity is needed.)
-/
import proofs.«140310_j38826504356590_1_alg».proof.Proof.Bridge.SEq
import Idealize.ShloMosaic.Lib.IdealHost

set_option maxRecDepth 16384

noncomputable section

namespace Cert.KernelIdeal.HandValue

open Cert.KernelIdeal Cert.KernelIdeal.Gen
open Idealize.ShloMosaic Idealize.ShloMosaic.TcCoe Idealize.ShloMosaic.ValueIdx
open Cert.ReferenceIdeal.RefValue (T3 Z3 epsEye BOf sOf SRef meanRows centred outRef normOf SnOf)

/-- The inclusion of the reals carries a finite sum to the sum of the inclusions. -/
theorem coe_sum_real {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The small constant ε is the positive real 10995116 · 2⁻⁴⁰. -/
theorem eps_eq : Ideal.ofBits .f32 0x3727C5AC#32 = (((10995116 : ℝ) / 2 ^ 40 : ℝ) : EReal) := by
  simp [Ideal.ofBits, Ideal.ieee, -EReal.coe_mul]; norm_num

/-- The identity's entry (d, e) is the number of the one-bit answer to "d = e": 0 or 1. -/
theorem eye3_apply (d e : Fin 512) :
    Cert.ReferenceIdeal.RefValue.eye3 (ix3 (0 : Fin 1) d e)
      = (((IntOp.cmpi .eq (IntOp.addi (BitVec.ofNat 32 d.val) 0#32) (BitVec.ofNat 32 e.val)).toNat : ℝ) : EReal) := by
  unfold Cert.ReferenceIdeal.RefValue.eye3
  rw [broadcastInDim_apply _ _ _ (ix3 (0 : Fin 1) d e) (ix2 d e) (fun a => match a with | ⟨0, _⟩ => rfl | ⟨1, _⟩ => rfl)]
  rfl

/-- ε · I read at (g, d, e): ε times the identity's entry. -/
theorem epsEye_apply (g : Fin 4) (d e : Fin 512) :
    epsEye (ix3 g d e) = Ideal.ofBits .f32 0x3727C5AC#32 * Cert.ReferenceIdeal.RefValue.eye3 (ix3 (0 : Fin 1) d e) := by
  unfold Cert.ReferenceIdeal.RefValue.epsEye
  rw [broadcastInDim_apply _ _ _ (ix3 g d e) (ix3 (0 : Fin 1) d e)
    (fun a => match a with | ⟨0, _⟩ => rfl | ⟨1, _⟩ => rfl | ⟨2, _⟩ => rfl)]
  rfl

local notation "DA" => Cert.ReferenceIdeal.dot_S4x16384x512_S4x16384x512_S4x512x512_1_1_2_2_0_0
local notation "DB" => Cert.ReferenceIdeal.dot_S4x512x512_S4x512x16384_S4x512x16384_2_1_1_2_0_0

/-- The Gram product's operand indices: the batch coordinate of both is the result's first. -/
theorem gram_lhs0 (j : S4x512x512.Idx) (q : (DA).contr.Idx) : ((DA).lhsIdx j q 0).val = (j 0).val := by
  unfold DotDims.lhsIdx
  rw [dif_pos (show (0 : Fin S4x16384x512.rank) ∈ (DA).lhsBatch from List.mem_singleton.mpr rfl)]
  rfl
theorem gram_rhs0 (j : S4x512x512.Idx) (q : (DA).contr.Idx) : ((DA).rhsIdx j q 0).val = (j 0).val := by
  unfold DotDims.rhsIdx
  rw [dif_pos (show (0 : Fin S4x16384x512.rank) ∈ (DA).rhsBatch from List.mem_singleton.mpr rfl)]
  rfl
/-- The left operand's column is the result's second coordinate, the right operand's the third. -/
theorem gram_lhs2 (j : S4x512x512.Idx) (q : (DA).contr.Idx) : ((DA).lhsIdx j q 2).val = (j 1).val := by
  unfold DotDims.lhsIdx
  rw [dif_neg (show ¬(2 : Fin S4x16384x512.rank) ∈ (DA).lhsBatch from by decide),
    dif_pos (show (2 : Fin S4x16384x512.rank) ∈ (DA).lhsNonContracting from List.mem_singleton.mpr rfl)]
  rfl
theorem gram_rhs2 (j : S4x512x512.Idx) (q : (DA).contr.Idx) : ((DA).rhsIdx j q 2).val = (j 2).val := by
  unfold DotDims.rhsIdx
  rw [dif_neg (show ¬(2 : Fin S4x16384x512.rank) ∈ (DA).rhsBatch from by decide),
    dif_pos (show (2 : Fin S4x16384x512.rank) ∈ (DA).rhsNonContracting from List.mem_singleton.mpr rfl)]
  rfl

/-- The Gram product (batch axis 0, both operands contracted on their rows) read at (g, d, e): the sum over the rows
    k of lhs (g, k, d) · rhs (g, k, e). -/
theorem gram_sum (lhs rhs : Z3) (g : Fin 4) (d e : Fin 512) :
    Host.dotGeneral DA none lhs rhs (ix3 g d e) = ∑ k : Fin 16384, lhs (ix3 g k d) * rhs (ix3 g k e) := by
  simp only [Host.dotGeneral]
  rw [Ideal.dotGeneral_apply, ← Equiv.sum_comp (contrEquiv1 DA 16384 rfl rfl).symm]
  refine Finset.sum_congr rfl fun k _ => ?_
  have hk := contrEquiv1_symm_val DA 16384 rfl rfl k
  have el : (DA).lhsIdx (ix3 g d e) ((contrEquiv1 DA 16384 rfl rfl).symm k) = ix3 g k d :=
    funext fun a => Fin.ext (by
      match a with
      | ⟨0, _⟩ => exact gram_lhs0 _ _
      | ⟨1, _⟩ => exact ((DA).lhsIdx_val_of_single rfl _ _).trans hk
      | ⟨2, _⟩ => exact gram_lhs2 _ _)
  have er : (DA).rhsIdx (ix3 g d e) ((contrEquiv1 DA 16384 rfl rfl).symm k) = ix3 g k e :=
    funext fun a => Fin.ext (by
      match a with
      | ⟨0, _⟩ => exact gram_rhs0 _ _
      | ⟨1, _⟩ => exact ((DA).rhsIdx_val_of_single rfl _ _).trans hk
      | ⟨2, _⟩ => exact gram_rhs2 _ _)
  rw [el, er]

/-- The last product's operand indices: the batch coordinate of both is the result's first, the left operand's row
    the result's second, the right operand's column the result's third. -/
theorem last_lhs0 (j : Cert.ReferenceIdeal.S4x512x16384.Idx) (q : (DB).contr.Idx) : ((DB).lhsIdx j q 0).val = (j 0).val := by
  unfold DotDims.lhsIdx
  rw [dif_pos (show (0 : Fin S4x512x512.rank) ∈ (DB).lhsBatch from List.mem_singleton.mpr rfl)]
  rfl
theorem last_rhs0 (j : Cert.ReferenceIdeal.S4x512x16384.Idx) (q : (DB).contr.Idx) : ((DB).rhsIdx j q 0).val = (j 0).val := by
  unfold DotDims.rhsIdx
  rw [dif_pos (show (0 : Fin Cert.ReferenceIdeal.S4x512x16384.rank) ∈ (DB).rhsBatch from List.mem_singleton.mpr rfl)]
  rfl
theorem last_lhs1 (j : Cert.ReferenceIdeal.S4x512x16384.Idx) (q : (DB).contr.Idx) : ((DB).lhsIdx j q 1).val = (j 1).val := by
  unfold DotDims.lhsIdx
  rw [dif_neg (show ¬(1 : Fin S4x512x512.rank) ∈ (DB).lhsBatch from by decide),
    dif_pos (show (1 : Fin S4x512x512.rank) ∈ (DB).lhsNonContracting from List.mem_singleton.mpr rfl)]
  rfl
theorem last_rhs2 (j : Cert.ReferenceIdeal.S4x512x16384.Idx) (q : (DB).contr.Idx) : ((DB).rhsIdx j q 2).val = (j 2).val := by
  unfold DotDims.rhsIdx
  rw [dif_neg (show ¬(2 : Fin Cert.ReferenceIdeal.S4x512x16384.rank) ∈ (DB).rhsBatch from by decide),
    dif_pos (show (2 : Fin Cert.ReferenceIdeal.S4x512x16384.rank) ∈ (DB).rhsNonContracting from List.mem_singleton.mpr rfl)]
  rfl

/-- The last product (batch axis 0, the left operand contracted on its columns, the right on its rows) read at
    (g, d, r): the sum over e of lhs (g, d, e) · rhs (g, e, r). -/
theorem last_sum (lhs : T3) (rhs : FVec Ideal Cert.ReferenceIdeal.S4x512x16384 .f32) (g : Fin 4) (d : Fin 512) (r : Fin 16384) :
    Host.dotGeneral DB none lhs rhs (ix3 g d r) = ∑ e : Fin 512, lhs (ix3 g d e) * rhs (ix3 g e r) := by
  simp only [Host.dotGeneral]
  rw [Ideal.dotGeneral_apply, ← Equiv.sum_comp (contrEquiv1 DB 512 rfl rfl).symm]
  refine Finset.sum_congr rfl fun k _ => ?_
  have hk := contrEquiv1_symm_val DB 512 rfl rfl k
  have el : (DB).lhsIdx (ix3 g d r) ((contrEquiv1 DB 512 rfl rfl).symm k) = ix3 g d k :=
    funext fun a => Fin.ext (by
      match a with
      | ⟨0, _⟩ => exact last_lhs0 _ _
      | ⟨1, _⟩ => exact last_lhs1 _ _
      | ⟨2, _⟩ => exact ((DB).lhsIdx_val_of_single rfl _ _).trans hk)
  have er : (DB).rhsIdx (ix3 g d r) ((contrEquiv1 DB 512 rfl rfl).symm k) = ix3 g k r :=
    funext fun a => Fin.ext (by
      match a with
      | ⟨0, _⟩ => exact last_rhs0 _ _
      | ⟨1, _⟩ => exact ((DB).rhsIdx_val_of_single rfl _ _).trans hk
      | ⟨2, _⟩ => exact last_rhs2 _ _)
  rw [el, er]

/-- With real entries the centred rows are real. -/
theorem centred_real (Z : Z3) (hZ : ∀ i, ∃ x : ℝ, Z i = (x : EReal)) (i : S4x16384x512.Idx) :
    ∃ c : ℝ, centred Z i = (c : EReal) := by
  obtain ⟨g, r, e, rfl⟩ : ∃ (g : Fin 4) (r : Fin 16384) (e : Fin 512), i = ix3 g r e := ⟨i 0, i 1, i 2, eq_ix3 i⟩
  obtain ⟨x, hx⟩ := hZ (ix3 g r e)
  obtain ⟨m, hm⟩ := mean_real Z hZ g e
  refine ⟨x - m, ?_⟩
  unfold centred
  rw [subf_apply, ← mean_eq Z g r e, hx, hm, EReal.coe_sub]

/-- The reference's S read at (g, d, e): the Gram sum of the centred rows plus ε times the identity's entry. -/
theorem SRef_apply (Z : Z3) (g : Fin 4) (d e : Fin 512) :
    SRef Z (ix3 g d e) = (∑ k : Fin 16384, centred Z (ix3 g k d) * centred Z (ix3 g k e))
      + Ideal.ofBits .f32 0x3727C5AC#32 * Cert.ReferenceIdeal.RefValue.eye3 (ix3 (0 : Fin 1) d e) := by
  unfold SRef
  rw [addf_apply, gram_sum, epsEye_apply]

/-- The same with the centred rows named as reals: S (g, d, e) is the real Σ_k c(g,k,d) c(g,k,e) + ε · I(d,e). -/
theorem SRef_apply_real (Z : Z3) (c : S4x16384x512.Idx → ℝ) (hc : ∀ i, centred Z i = (c i : EReal)) (g : Fin 4) (d e : Fin 512) :
    SRef Z (ix3 g d e) = (((∑ k : Fin 16384, c (ix3 g k d) * c (ix3 g k e))
      + 10995116 / 2 ^ 40 * ((IntOp.cmpi .eq (IntOp.addi (BitVec.ofNat 32 d.val) 0#32) (BitVec.ofNat 32 e.val)).toNat : ℝ) : ℝ) : EReal) := by
  rw [SRef_apply, eps_eq, eye3_apply, EReal.coe_add, EReal.coe_mul, coe_sum_real]
  simp only [hc, EReal.coe_mul]

/-- With real entries, every entry of the reference's S is a real number. -/
theorem SRef_real (Z : Z3) (hZ : ∀ i, ∃ x : ℝ, Z i = (x : EReal)) (i : S4x512x512.Idx) : ∃ x : ℝ, SRef Z i = (x : EReal) := by
  obtain ⟨g, d, e, rfl⟩ : ∃ (g : Fin 4) (d e : Fin 512), i = ix3 g d e := ⟨i 0, i 1, i 2, eq_ix3 i⟩
  choose c hc using centred_real Z hZ
  exact ⟨_, SRef_apply_real Z c hc g d e⟩

/-- With real entries, the first diagonal entry of every group's S is a positive real: a sum of squares plus ε · 1. -/
theorem SRef_diag_pos (Z : Z3) (hZ : ∀ i, ∃ x : ℝ, Z i = (x : EReal)) (g : Fin 4) :
    ∃ x : ℝ, 0 < x ∧ SRef Z (ix3 g 0 0) = (x : EReal) := by
  choose c hc using centred_real Z hZ
  refine ⟨_, ?_, SRef_apply_real Z c hc g 0 0⟩
  have h1 : (0 : ℝ) ≤ ∑ k : Fin 16384, c (ix3 g k 0) * c (ix3 g k 0) := Finset.sum_nonneg fun k _ => mul_self_nonneg _
  have h2 : (IntOp.cmpi .eq (IntOp.addi (BitVec.ofNat 32 (0 : Fin 512).val) 0#32) (BitVec.ofNat 32 (0 : Fin 512).val)).toNat = 1 := by
    decide
  rw [h2]
  have h3 : (0 : ℝ) < 10995116 / 2 ^ 40 * ((1 : ℕ) : ℝ) := by norm_num
  linarith

/-- The host's sum of non-negative reals, one of them positive among the terms that reduce to the index, from the
    initial value zero: a positive real. -/
theorem hostReduceAdd_pos {s t : Shape} {axes : List (Fin s.rank)} (h : s.ReducesTo axes t) (x : s.Idx → ℝ) (j : t.Idx)
    (i0 : s.Idx) (hd : h.drop i0 = j) (hnn : ∀ i, 0 ≤ x i) (hpos : 0 < x i0) :
    ∃ T : ℝ, 0 < T ∧ Ideal.hostReduceAdd h (fun i => (x i : EReal)) 0 j = (T : EReal) := by
  unfold Ideal.hostReduceAdd
  rw [zero_add, ← coe_sum_real]
  exact ⟨_, lt_of_lt_of_le hpos (Finset.single_le_sum (f := x) (fun i _ => hnn i)
    (Finset.mem_filter.mpr ⟨Finset.mem_univ _, hd⟩)), rfl⟩

/-- The square root of a positive real is its real square root. -/
theorem sqrt_coe_pos {r : ℝ} (h : 0 < r) : Ideal.sqrt (r : EReal) = ((Real.sqrt r : ℝ) : EReal) := by
  rw [Ideal.sqrt_coe, if_neg (not_lt.mpr h.le)]

/-- The divisor read at (g, 0, 0): the square root of the square root of the group's sum of squared entries. -/
theorem sOf_apply (S : T3) (g : Fin 4) :
    sOf S (ix3 g 0 0) = Ideal.sqrt (Ideal.sqrt
      (Ideal.hostReduceAdd reducesTo_S4x512x512_S4_d1_2 (mulf S S) (Ideal.ofBits .f32 0x00000000#32) (ix1 g))) := by
  unfold sOf normOf
  show Ideal.sqrt (Ideal.sqrt (broadcastInDim _ _ _ (Host.reduceAdd (mulf S S) _ _ _) (ix3 g 0 0))) = _
  rw [broadcastInDim_apply _ _ _ (ix3 g 0 0) (ix1 g) (fun a => match a with | ⟨0, _⟩ => rfl)]
  rfl

/-- With real entries, the divisor of every group is a positive real. -/
theorem s_pos (Z : Z3) (hZ : ∀ i, ∃ x : ℝ, Z i = (x : EReal)) (g : Fin 4) :
    ∃ s : ℝ, 0 < s ∧ sOf (SRef Z) (ix3 g 0 0) = (s : EReal) := by
  choose x hx using SRef_real Z hZ
  obtain ⟨x0, hx0, hx0S⟩ := SRef_diag_pos Z hZ g
  have hx00 : x (ix3 g 0 0) = x0 := EReal.coe_eq_coe_iff.mp ((hx _).symm.trans hx0S)
  have hS : mulf (SRef Z) (SRef Z) = fun i => ((x i * x i : ℝ) : EReal) :=
    funext fun i => by rw [mulf_apply, hx, EReal.coe_mul]
  have hd : Shape.ReducesTo.drop reducesTo_S4x512x512_S4_d1_2 (ix3 g 0 0) = ix1 g :=
    funext fun b => Fin.ext (by
      match b with
      | ⟨0, _⟩ => exact Shape.ReducesTo.drop_apply_val_of_eq reducesTo_S4x512x512_S4_d1_2 (ix3 g 0 0) 0 0)
  obtain ⟨T, hT, hTe⟩ := hostReduceAdd_pos reducesTo_S4x512x512_S4_d1_2 (fun i => x i * x i) (ix1 g) (ix3 g 0 0) hd
    (fun i => mul_self_nonneg _) (by rw [hx00]; exact mul_pos hx0 hx0)
  refine ⟨Real.sqrt (Real.sqrt T), Real.sqrt_pos.mpr (Real.sqrt_pos.mpr hT), ?_⟩
  rw [sOf_apply, hS, Ideal.ofBits_zero_f32, hTe, sqrt_coe_pos hT, sqrt_coe_pos (Real.sqrt_pos.mpr hT)]

/-- A non-negative real factor distributes over a finite sum of extended reals, whatever the terms. -/
theorem sum_mul_coe_of_nonneg {ι : Type} (t : Finset ι) (f : ι → EReal) (c : ℝ) (hc : 0 ≤ c) :
    (∑ e ∈ t, f e) * (c : EReal) = ∑ e ∈ t, f e * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- A quotient by a positive real moves across a finite sum of products. -/
theorem sum_mul_div {ι : Type} [Fintype ι] (z B : ι → EReal) (s : ℝ) (hs : 0 < s) :
    (∑ e, z e * Ideal.div (B e) (s : EReal)) = Ideal.div (∑ e, B e * z e) (s : EReal) := by
  have hs0 : s ≠ 0 := ne_of_gt hs
  have hc : (0 : ℝ) ≤ 1 / s := by positivity
  rw [Ideal.div_coe hs0, sum_mul_coe_of_nonneg _ _ _ hc]
  refine Finset.sum_congr rfl fun e _ => ?_
  rw [Ideal.div_coe hs0, ← mul_assoc, mul_comm (z e) (B e)]

/-- The kernel's factor read at (g, e, d): B (g, d, e) over the divisor of group g. -/
theorem factorK_apply (S : T3) (g : Fin 4) (e d : Fin 512) :
    factorK S (ix3 g e d) = Ideal.div (BOf S (ix3 g d e)) (sOf S (ix3 g 0 0)) := by
  unfold factorK
  rw [hostDivf_apply, transpose_ix3_021_apply,
    broadcastInDim_apply _ _ _ (ix3 g e d) (ix3 g 0 0) (fun a => match a with | ⟨0, _⟩ => rfl | ⟨1, _⟩ => rfl | ⟨2, _⟩ => rfl)]

/-- The reference's result read at (g, r, d): the sum over e of B (g, d, e) times the centred entry (g, r, e), over the
    divisor of group g. -/
theorem outRef_apply (Z : Z3) (g : Fin 4) (r : Fin 16384) (d : Fin 512) :
    outRef Z (ix3 g r d)
      = Ideal.div (∑ e : Fin 512, BOf (SRef Z) (ix3 g d e) * centred Z (ix3 g r e)) (sOf (SRef Z) (ix3 g 0 0)) := by
  unfold outRef
  rw [transpose_ix3_021_apply, hostDivf_apply, last_sum,
    broadcastInDim_apply _ _ _ (ix3 g d r) (ix3 g 0 0) (fun a => match a with | ⟨0, _⟩ => rfl | ⟨1, _⟩ => rfl | ⟨2, _⟩ => rfl)]
  refine congrArg (fun t => Ideal.div t (sOf (SRef Z) (ix3 g 0 0))) (Finset.sum_congr rfl fun e _ => ?_)
  rw [transpose_ix3_021_apply]

/-- THE TWO RESULTS AGREE (before the last reshape) when every entry of the input is a real number. -/
theorem out_eq (Z : Z3) (hZ : ∀ i, ∃ x : ℝ, Z i = (x : EReal)) : outK Z = outRef Z := by
  funext i
  obtain ⟨g, r, d, rfl⟩ : ∃ (g : Fin 4) (r : Fin 16384) (d : Fin 512), i = ix3 g r d := ⟨i 0, i 1, i 2, eq_ix3 i⟩
  obtain ⟨s, hs, hsS⟩ := s_pos Z hZ g
  rw [outRef_apply]
  show (∑ e : Fin 512, (Z (ix3 g r e) - meanK (sumOf Z) (ix3 g 0 e)) * factorK (SK (sumOf Z) (gramOf Z)) (ix3 g e d)) = _
  rw [S_eq Z hZ]
  simp only [factorK_apply, hsS]
  generalize BOf (SRef Z) = B
  refine (sum_mul_div (fun e => Z (ix3 g r e) - meanK (sumOf Z) (ix3 g 0 e)) (fun e => B (ix3 g d e)) s hs).trans ?_
  refine congrArg (fun t => Ideal.div t (s : EReal)) (Finset.sum_congr rfl fun e _ => ?_)
  show B (ix3 g d e) * (Z (ix3 g r e) - meanK (sumOf Z) (ix3 g 0 e)) = B (ix3 g d e) * centred Z (ix3 g r e)
  unfold centred
  rw [subf_apply, mean_eq Z g r e]

end Cert.KernelIdeal.HandValue

end
-- ==== Proof.Bridge.Finite.lean ====
/-
  The precondition says every entry of the argument is finite: |x| < +∞ for each entry, conjoined over the array.
  So every entry is a real number, and so is every entry of the argument reshaped (a reshape permutes no value).
-/
import proofs.«140310_j38826504356590_1_alg».proof.Defs
import proofs.«140310_j38826504356590_1_alg».proof.Proof.Gen.Pre_finite_inputs
import proofs.«140310_j38826504356590_1_alg».proof.Proof.Val.KDefs
import Idealize.ShloMosaic.Lib.ReduceAll
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx
open Cert.ReferenceIdeal.RefValue (T3 Z3 epsEye BOf sOf SRef meanRows centred outRef normOf SnOf)

/-- A reduction over every axis has a result of one index. -/
instance subsingleton_scalarIdx : Subsingleton Cert.Pre_finite_inputs.S_.Idx :=
  ⟨fun a b => funext fun d => d.elim0⟩

/-- An extended real whose absolute value max x (−x) lies below +∞ is a real number: at x = ⊤ the maximum is ⊤, and
    at x = ⊥ it is −⊥ = ⊤. -/
theorem real_of_abs_lt_top (x : EReal) (hx : max x (-x) < ⊤) : ∃ r : ℝ, x = (r : EReal) := by
  induction x using EReal.rec with
  | bot => simp at hx
  | coe r => exact ⟨r, rfl⟩
  | top => simp at hx

/-- The same from the comparison bit: if the bit of |x| < v is 1, where v is the value of the word 0x7F800000, then x is
    a real number, for that word denotes +∞. -/
theorem real_of_olt_inf (x : EReal)
    (hx : Idealize.ShloMosaic.Ideal.cmp .olt (max x (-x)) (Idealize.ShloMosaic.Ideal.ofBits .f32 0x7F800000#32) = 1#1) :
    ∃ r : ℝ, x = (r : EReal) := by
  have e : Idealize.ShloMosaic.Ideal.ofBits .f32 0x7F800000#32 = (⊤ : EReal) := by
    simp [Idealize.ShloMosaic.Ideal.ofBits, Idealize.ShloMosaic.Ideal.ieee]
  rw [e] at hx
  refine real_of_abs_lt_top x ?_
  by_contra hn
  have hd : decide (max x (-x) < (⊤ : EReal)) = false := decide_eq_false hn
  simp only [Idealize.ShloMosaic.Ideal.cmp, hd] at hx
  exact absurd hx (by decide)

/-- Under the precondition every entry of the argument array is a real number. -/
theorem arg_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev nD) (i : S16384x2048.Idx) :
    ∃ x : ℝ, (m ((c.tc : Thread nD τ).loc main_arg0) : FVec Ideal S16384x2048 .f32) i = (x : EReal) := by
  have h0 := congrFun (h c) ValueIdx.ix0
  dsimp only [Cert.Pre_finite_inputs.fn] at h0
  have h1 := Host.reduce_andi_all _ _ _ _ _ h0 i
  exact real_of_olt_inf ((m ((c.tc : Thread nD τ).loc main_arg0) : FVec Ideal S16384x2048 .f32) i) h1

/-- And so is every entry of its reshape to (group, row, column). -/
theorem reshaped_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev nD) (i : S4x16384x512.Idx) :
    ∃ x : ℝ, (shapeCast S4x16384x512 (m ((c.tc : Thread nD τ).loc main_arg0)) shapeCasts_S16384x2048_S4x16384x512 : Z3) i = (x : EReal) := by
  exact arg_real m h c (Shape.reshapeEquiv shapeCasts_S16384x2048_S4x16384x512 i)

end Cert.KernelIdeal.HandValue

end
-- ==== Proof.lean ====
/-
  The certificate of one kernel against its reference: a whitening of 16384 x 2048 inputs in four column groups.
  With Z the input reshaped to (group, row, column), both programs centre the rows of each group by the group's column
  means, form S = Gram matrix of the centred rows + a small multiple of the identity, scale S by its Frobenius norm, run
  five steps of B ↦ 1.5 B − 0.5 (B B B) Sn from the identity, and return the centred rows times Bᵀ over the square root
  of the norm. The kernel gets there in two pipelined passes over the input: the first accumulates, per group, the
  column sums and the RAW Gram matrix over eight row tiles (S is then Gram − 16384 · mean ⊗ mean + ε I), the second
  multiplies each centred row tile by the factor Bᵀ / √norm already divided. Over the extended reals the two agree
  when every input is a real number: the centred Gram identity is real algebra, and moving the division across the
  last sum needs the divisor to be a positive real, which the ε on S's diagonal gives.

  The three frames: the two kernel programs' by the launch of @main as five segments (two pipelined regions among
  three stretches of host operations), the reference's by its straight-line run. The idealization rewrote nothing.
-/
import proofs.«140310_j38826504356590_1_alg».proof.Defs
import proofs.«140310_j38826504356590_1_alg».proof.Proof.Gen.Kernel
import proofs.«140310_j38826504356590_1_alg».proof.Proof.Gen.KernelIdeal
import proofs.«140310_j38826504356590_1_alg».proof.Proof.Gen.ReferenceIdeal
import proofs.«140310_j38826504356590_1_alg».proof.Proof.Gen.Pre_finite_inputs
import proofs.«140310_j38826504356590_1_alg».proof.Proof.K.Main
import proofs.«140310_j38826504356590_1_alg».proof.Proof.KI.Main
import proofs.«140310_j38826504356590_1_alg».proof.Proof.Val.KOut
import proofs.«140310_j38826504356590_1_alg».proof.Proof.Ref.Chain
import proofs.«140310_j38826504356590_1_alg».proof.Proof.Bridge.Last
import proofs.«140310_j38826504356590_1_alg».proof.Proof.Bridge.Finite
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its argument unchanged. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The ideal pass rewrote no operation. -/
theorem preserves : Cert.preserves_Kernel_KernelIdeal := trivial

open Cert.KernelIdeal.HandValue in
/-- From memories agreeing on the argument both programs end at one result: the kernel's value function of the
    reshaped argument, which is the reference's when every entry is real. -/
theorem algebraic : Cert.algebraic_KernelIdeal_ReferenceIdeal := by
  intro m ρ m' ρ' hpre hagree
  refine ⟨fun c => shapeCast Cert.KernelIdeal.S16384x2048 (outK (zOf m c)) Cert.KernelIdeal.Facts₀.shapeCasts_S4x16384x512_S16384x2048, ?_, ?_⟩
  · exact (θ_run Cert.KernelIdeal.defs _ _).mono
      (fun r h c => ⟨(h c _ (Cert.KernelIdeal.Hand.mem_uc Cert.KernelIdeal.main_v76 (by decide))).trans (kernel_value m c),
        (h c _ (Cert.KernelIdeal.Hand.mem_uc Cert.KernelIdeal.main_arg0 (by decide))).trans (Cert.KernelIdeal.Hand.W5_main_arg0 m c)⟩)
      (Cert.KernelIdeal.Hand.run_all (F := Ideal) m ρ)
  · refine (θ_run Cert.ReferenceIdeal.defs _ _).mono (fun r h c => ⟨(h c).1.trans ?_, (h c).2⟩)
      (Cert.ReferenceIdeal.RefValue.ref_run m' ρ')
    rw [hagree c]
    show shapeCast _ (Cert.ReferenceIdeal.RefValue.outRef (zOf m c)) _ = shapeCast _ (outK (zOf m c)) _
    rw [out_eq (zOf m c) (reshaped_real m hpre c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
